-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S64x128 : Shape := ⟨2, ![64, 128]⟩
abbrev S128 : Shape := ⟨1, ![128]⟩
abbrev S256x128 : Shape := ⟨2, ![256, 128]⟩
abbrev S1 : Shape := ⟨1, ![1]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x800000 32) (main_arg15 : FVec F S128x2 .f32) (main_arg16 : FVec F S2 .f32) (main_v63 : IVec S_ 1) (main_v67 : IVec S_ 1) : IVec S_ 1 :=
  let main_v68 : IVec S_ 1 := andi main_v63 main_v67
  let main_v69 : FVec F S128x2 .f32 := Host.absf main_arg15
  let main_cst_26 : FVec F S_ .f32 := constant S_ .f32 0x7F800000#32
  let main_v70 : FVec F S128x2 .f32 := broadcastInDim S128x2 ![] bcast_S_S128x2 main_cst_26
  let main_v71 : IVec S128x2 1 := cmpf .olt main_v69 main_v70
  let main_c_27 : IVec S_ 1 := constantI S_ 1 1#1
  let main_v72 : IVec S_ 1 := (fun x v => Host.reduce IntOp.andi x v reducesTo_S128x2_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg1 main_v79
  let main_c_31 : IVec S_ 32 := constantI S_ 32 50000#32
  let main_v81 : IVec S2x800000 32 := broadcastInDim S2x800000 ![] bcast_S_S2x800000 main_c_31
  let main_v82 : IVec S2x800000 1 := cmpi .slt main_arg1 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg1 : IVec S2x800000 32) (main_arg12 : FVec F S1 .f32) (main_arg13 : FVec F S128x128 .f32) (main_arg14 : FVec F S128 .f32) (main_arg15 : FVec F S128x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x800000 32) (main_arg8 : FVec F S64x128 .f32) (main_arg9 : FVec F S128 .f32) (main_arg10 : FVec F S256x128 .f32) (main_arg11 : FVec F S128 .f32) (main_arg12 : FVec F S1 .f32) (main_arg13 : FVec F S128x128 .f32) (main_arg14 : FVec F S128 .f32) (main_arg15 : FVec F S128x2 .f32) (main_arg16 : FVec F S2 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_v48 main_v49 main_v50

def fn_part1 {F : FTy → Type} [FloatOps F] (main_arg1 : IVec S2x800000 32) (main_arg5 : FVec F S256x128 .f32) (main_arg6 : FVec F S128 .f32) (main_arg7 : FVec F S1 .f32) (main_arg8 : FVec F S64x128 .f32) (main_arg9 : FVec F S128 .f32) (main_arg10 : FVec F S256x128 .f32) (main_arg11 : FVec F S128 .f32) (main_arg12 : FVec F S1 .f32) (main_arg13 : FVec F S128x128 .f32) (main_arg14 : FVec F S128 .f32) (main_arg15 : FVec F S128x2 .f32) (main_arg16 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000x64 .f32) (main_arg3 : FVec F S64x128 .f32) (main_arg4 : FVec F S128 .f32) (main_arg5 : FVec F S256x128 .f32) (main_arg6 : FVec F S128 .f32) (main_arg7 : FVec F S1 .f32) (main_arg8 : FVec F S64x128 .f32) (main_arg9 : FVec F S128 .f32) (main_arg10 : FVec F S256x128 .f32) (main_arg11 : FVec F S128 .f32) (main_arg12 : FVec F S1 .f32) (main_arg13 : FVec F S128x128 .f32) (main_arg14 : FVec F S128 .f32) (main_arg15 : FVec F S128x2 .f32) (main_arg16 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S64x128 : Shape := ⟨2, ![64, 128]⟩
abbrev S128 : Shape := ⟨1, ![128]⟩
abbrev S256x128 : Shape := ⟨2, ![256, 128]⟩
abbrev S1 : Shape := ⟨1, ![1]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S4000x64 : Shape := ⟨2, ![4000, 64]⟩
abbrev S4000x128 : Shape := ⟨2, ![4000, 128]⟩
abbrev S1x128 : Shape := ⟨2, ![1, 128]⟩
abbrev S5000x128 : Shape := ⟨2, ![5000, 128]⟩
abbrev S800000x2 : Shape := ⟨2, ![800000, 2]⟩
abbrev S4000x2 : Shape := ⟨2, ![4000, 2]⟩
abbrev S1x2 : Shape := ⟨2, ![1, 2]⟩
abbrev S4000 : Shape := ⟨1, ![4000]⟩
abbrev S4000x1 : Shape := ⟨2, ![4000, 1]⟩

abbrev nBuf : Space → Nat
  | .hbm => 144
  | .vmem => 46
  | .smem => 0
  | _ => 0

abbrev hbmTy0_0 (i : Nat) : BufTy := match i % 128 with
  | 0 => ⟨S50000x128, .f32⟩
  | 1 => ⟨S2x800000, .i32⟩
  | 2 => ⟨S800000x64, .f32⟩
  | 3 => ⟨S64x128, .f32⟩
  | 4 => ⟨S128, .f32⟩
  | 5 => ⟨S256x128, .f32⟩
  | 6 => ⟨S128, .f32⟩
  | 7 => ⟨S1, .f32⟩
  | 8 => ⟨S64x128, .f32⟩
  | 9 => ⟨S128, .f32⟩
  | 10 => ⟨S256x128, .f32⟩
  | 11 => ⟨S128, .f32⟩
  | 12 => ⟨S1, .f32⟩
  | 13 => ⟨S128x128, .f32⟩
  | 14 => ⟨S128, .f32⟩
  | 15 => ⟨S128x2, .f32⟩
  | 16 => ⟨S2, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x128, .f32⟩
  | 40 => ⟨S800000x128, .i1⟩
  | 41 => ⟨S_, .f32⟩
  | 42 => ⟨S800000x128, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S_, .f32⟩
  | 50 => ⟨S_, .f32⟩
  | 51 => ⟨S_, .f32⟩
  | 52 => ⟨S50000x128, .f32⟩
  | 53 => ⟨S50000x128, .f32⟩
  | 54 => ⟨S128x128, .f32⟩
  | 55 => ⟨S128x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S1, .i32⟩
  | 66 => ⟨S_, .i32⟩
  | 67 => ⟨S800000x1, .i32⟩
  | 68 => ⟨S800000x1, .i1⟩
  | 69 => ⟨S1x1, .i32⟩
  | 70 => ⟨S800000x1, .i32⟩
  | 71 => ⟨S800000x1, .i1⟩
  | 72 => ⟨S800000x1, .i1⟩
  | 73 => ⟨S_, .i1⟩
  | 74 => ⟨S800000, .i1⟩
  | 75 => ⟨S800000x128, .f32⟩
  | 76 => ⟨S800000x128, .i1⟩
  | 77 => ⟨S_, .f32⟩
  | 78 => ⟨S800000x128, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S_, .f32⟩
  | 86 => ⟨S_, .f32⟩
  | 87 => ⟨S_, .f32⟩
  | 88 => ⟨S50000x128, .f32⟩
  | 89 => ⟨S50000x128, .f32⟩
  | 90 => ⟨S128x128, .f32⟩
  | 91 => ⟨S128x128, .f32⟩
  | 92 => ⟨S50000x128, .f32⟩
  | 93 => ⟨S_, .f32⟩
  | 94 => ⟨S50000x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S1, .i32⟩
  | 105 => ⟨S_, .i32⟩
  | 106 => ⟨S800000x1, .i32⟩
  | 107 => ⟨S800000x1, .i1⟩
  | 108 => ⟨S1x1, .i32⟩
  | 109 => ⟨S800000x1, .i32⟩
  | 110 => ⟨S800000x1, .i1⟩
  | 111 => ⟨S800000x1, .i1⟩
  | 112 => ⟨S_, .i1⟩
  | 113 => ⟨S800000, .i1⟩
  | 114 => ⟨S800000x128, .f32⟩
  | 115 => ⟨S800000x128, .i1⟩
  | 116 => ⟨S_, .f32⟩
  | 117 => ⟨S800000x128, .f32⟩
  | 118 => ⟨S800000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S1, .i32⟩
  | _ => ⟨S50000x128, .f32⟩

abbrev hbmTy0_1 (i : Nat) : BufTy := match i % 128 with
  | 0 => ⟨S_, .i32⟩
  | 1 => ⟨S800000x1, .i32⟩
  | 2 => ⟨S800000x1, .i1⟩
  | 3 => ⟨S1x1, .i32⟩
  | 4 => ⟨S800000x1, .i32⟩
  | 5 => ⟨S800000x1, .i1⟩
  | 6 => ⟨S800000x1, .i1⟩
  | 7 => ⟨S_, .i1⟩
  | 8 => ⟨S800000, .i1⟩
  | 9 => ⟨S800000x128, .f32⟩
  | 10 => ⟨S800000x128, .i1⟩
  | 11 => ⟨S_, .f32⟩
  | 12 => ⟨S800000x128, .f32⟩
  | 13 => ⟨S800000x128, .f32⟩
  | 14 => ⟨S800000x128, .f32⟩
  | 15 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x128, .f32⟩
  | .local _ .vmem, ⟨3, _⟩ => ⟨S4000x128, .f32⟩
  | .local _ .vmem, ⟨4, _⟩ => ⟨S64x128, .f32⟩
  | .local _ .vmem, ⟨5, _⟩ => ⟨S128, .f32⟩
  | .local _ .vmem, ⟨6, _⟩ => ⟨S4000x128, .f32⟩
  | .local _ .vmem, ⟨7, _⟩ => ⟨S4000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S4000x64, .f32⟩
  | .local _ .vmem, ⟨18, _⟩ => ⟨S4000x64, .f32⟩
  | .local _ .vmem, ⟨19, _⟩ => ⟨S4000x128, .f32⟩
  | .local _ .vmem, ⟨20, _⟩ => ⟨S4000x128, .f32⟩
  | .local _ .vmem, ⟨21, _⟩ => ⟨S64x128, .f32⟩
  | .local _ .vmem, ⟨22, _⟩ => ⟨S128, .f32⟩
  | .local _ .vmem, ⟨23, _⟩ => ⟨S4000x128, .f32⟩
  | .local _ .vmem, ⟨24, _⟩ => ⟨S4000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128x128, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S128x128, .f32⟩
  | .local _ .vmem, ⟨39, _⟩ => ⟨S128, .f32⟩
  | .local _ .vmem, ⟨40, _⟩ => ⟨S128x2, .f32⟩
  | .local _ .vmem, ⟨41, _⟩ => ⟨S2, .f32⟩
  | .local _ .vmem, ⟨42, _⟩ => ⟨S4000x128, .f32⟩
  | .local _ .vmem, ⟨43, _⟩ => ⟨S4000x128, .f32⟩
  | .local _ .vmem, ⟨44, _⟩ => ⟨S4000x2, .f32⟩
  | .local _ .vmem, ⟨45, _⟩ => ⟨S4000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_v5 : Ref sig .tc := ⟨.hbm, 44, rfl⟩
abbrev main_cst : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v16 : Ref sig .tc := ⟨.hbm, 79, rfl⟩
abbrev main_v17 : Ref sig .tc := ⟨.hbm, 80, rfl⟩
abbrev main_cst_1 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_2 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_call2_cst : Ref sig .tc := ⟨.hbm, 93, rfl⟩
abbrev main_call2_v0 : Ref sig .tc := ⟨.hbm, 94, rfl⟩
abbrev main_v28 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v29 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v30 : Ref sig .tc := ⟨.hbm, 141, rfl⟩
abbrev main_v31_0 : Ref sig .tc := ⟨.hbm, 142, rfl⟩
abbrev main_v31_1 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc4_stg7_0 : Ref sig .tc := ⟨.vmem, 44, rfl⟩
abbrev cc4_stg7_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc4_sem7_0 : DmaSem sig := 44
abbrev cc4_sem7_1 : DmaSem sig := 45

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4000x2 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  shapeCasts_S1_S_ : S1.ShapeCasts S_
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  reduces_S4000x2_S4000 : S4000x2.Reduces [1] S4000
  shapeCasts_S4000_S4000x1 : S4000.ShapeCasts S4000x1
  broadcasts_S4000x1_S4000x2 : S4000x1.Broadcasts S4000x2
  inb_S4000x2_S4000x2_0_0 : ∀ a, (![0, 0] : Fin 2 → Nat) a + S4000x2.size a ≤ S4000x2.size a
  h_S4000x2 : 0 < S4000x2.numel
  gather_S50000x128_S800000x1_S800000x128_1_0_n_n_0_1_1128_wf : GatherDims.WF S50000x128 S800000x1 S800000x128 [1] [0] [] [0] [] 1 ![1, 128]
  dot_S4000x64_S64x128_S4000x128_1_0_0_1_n_n_wf : DotDims.WF S4000x64 S64x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S800000x128.size a
  hwx2_4 : ∀ i : grid2.Coords, EltTy.bits .f32 = 32 ∨ (Rect.block (s := S800000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S800000x128.size a
  hwx4_0 : ∀ i : grid4.Coords, EltTy.bits .f32 = 32 ∨ (Rect.block (s := S800000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S800000x128.size a
  hwx4_1 : ∀ i : grid4.Coords, EltTy.bits .f32 = 32 ∨ (Rect.block (s := S800000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x2.size a ≤ S128x2.size a
  hwx4_4 : ∀ i : grid4.Coords, EltTy.bits .f32 = 32 ∨ (Rect.block (s := S128x2) S128x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2.size a ≤ S2.size a
  hwx4_5 : ∀ i : grid4.Coords, EltTy.bits .f32 = 32 ∨ (Rect.block (s := S2) S2.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S800000x128.size a
  hwx4_6 : ∀ i : grid4.Coords, EltTy.bits .f32 = 32 ∨ (Rect.block (s := S800000x128) S4000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x2.size a ≤ S800000x2.size a
  hwx4_7 : ∀ i : grid4.Coords, EltTy.bits .f32 = 32 ∨ (Rect.block (s := S800000x2) S4000x2.size (cc4_transform_7 i) (hinb4_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg2) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v29) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v31_0) S4000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v31_1) S4000x2.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S64x128 : Shape := ⟨2, ![64, 128]⟩
abbrev S128 : Shape := ⟨1, ![128]⟩
abbrev S256x128 : Shape := ⟨2, ![256, 128]⟩
abbrev S1 : Shape := ⟨1, ![1]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S1x1 : Shape := ⟨2, ![1, 1]⟩
abbrev S50000x256 : Shape := ⟨2, ![50000, 256]⟩
abbrev S800000x2 : Shape := ⟨2, ![800000, 2]⟩
abbrev S1x2 : Shape := ⟨2, ![1, 2]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x800000, .i32⟩
  | 2 => ⟨S800000x64, .f32⟩
  | 3 => ⟨S64x128, .f32⟩
  | 4 => ⟨S128, .f32⟩
  | 5 => ⟨S256x128, .f32⟩
  | 6 => ⟨S128, .f32⟩
  | 7 => ⟨S1, .f32⟩
  | 8 => ⟨S64x128, .f32⟩
  | 9 => ⟨S128, .f32⟩
  | 10 => ⟨S256x128, .f32⟩
  | 11 => ⟨S128, .f32⟩
  | 12 => ⟨S1, .f32⟩
  | 13 => ⟨S128x128, .f32⟩
  | 14 => ⟨S128, .f32⟩
  | 15 => ⟨S128x2, .f32⟩
  | 16 => ⟨S2, .f32⟩
  | 17 => ⟨S1x800000, .i32⟩
  | 18 => ⟨S800000, .i32⟩
  | 19 => ⟨S1x800000, .i32⟩
  | 20 => ⟨S800000, .i32⟩
  | 21 => ⟨S800000x128, .f32⟩
  | 22 => ⟨S1x128, .f32⟩
  | 23 => ⟨S800000x128, .f32⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x128, .f32⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S1, .f32⟩
  | 44 => ⟨S1, .f32⟩
  | 45 => ⟨S1x1, .f32⟩
  | 46 => ⟨S50000x128, .f32⟩
  | 47 => ⟨S50000x128, .f32⟩
  | 48 => ⟨S50000x256, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .i1⟩
  | 56 => ⟨S_, .f32⟩
  | 57 => ⟨S50000x128, .f32⟩
  | 58 => ⟨S50000x128, .f32⟩
  | 59 => ⟨S50000x128, .f32⟩
  | 60 => ⟨S800000x128, .f32⟩
  | 61 => ⟨S1x128, .f32⟩
  | 62 => ⟨S800000x128, .f32⟩
  | 63 => ⟨S800000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S_, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .f32⟩
  | 82 => ⟨S1, .f32⟩
  | 83 => ⟨S1, .f32⟩
  | 84 => ⟨S1x1, .f32⟩
  | 85 => ⟨S50000x128, .f32⟩
  | 86 => ⟨S50000x128, .f32⟩
  | 87 => ⟨S50000x256, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .i1⟩
  | 95 => ⟨S_, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S800000x128, .f32⟩
  | 122 => ⟨S1x128, .f32⟩
  | 123 => ⟨S800000x128, .f32⟩
  | 124 => ⟨S800000x128, .f32⟩
  | 125 => ⟨S_, .f32⟩
  | 126 => ⟨S800000x128, .f32⟩
  | 127 => ⟨S800000x128, .i1⟩
  | _ => ⟨S50000x128, .f32⟩

abbrev hbmTy0_1 (i : Nat) : BufTy := match i % 128 with
  | 0 => ⟨S_, .f32⟩
  | 1 => ⟨S800000x128, .f32⟩
  | 2 => ⟨S800000x128, .f32⟩
  | 3 => ⟨S800000x128, .f32⟩
  | 4 => ⟨S800000x2, .f32⟩
  | 5 => ⟨S1x2, .f32⟩
  | 6 => ⟨S800000x2, .f32⟩
  | 7 => ⟨S800000x2, .f32⟩
  | 8 => ⟨S_, .f32⟩
  | 9 => ⟨S800000, .f32⟩
  | 10 => ⟨S_, .f32⟩
  | 11 => ⟨S800000, .f32⟩
  | 12 => ⟨S800000, .f32⟩
  | 13 => ⟨S800000x1, .f32⟩
  | 14 => ⟨S800000x2, .f32⟩
  | 15 => ⟨S800000x2, .f32⟩
  | 16 => ⟨S800000x2, .f32⟩
  | 17 => ⟨S_, .f32⟩
  | 18 => ⟨S800000, .f32⟩
  | 19 => ⟨S800000x1, .f32⟩
  | 20 => ⟨S800000x2, .f32⟩
  | 21 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_cst : Ref sig .tc := ⟨.hbm, 74, rfl⟩
abbrev main_call2_v0 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call4_cst : Ref sig .tc := ⟨.hbm, 99, rfl⟩
abbrev main_call4_v0 : Ref sig .tc := ⟨.hbm, 100, rfl⟩
abbrev main_v66 : Ref sig .tc := ⟨.hbm, 101, rfl⟩
abbrev main_c_10 : Ref sig .tc := ⟨.hbm, 102, rfl⟩
abbrev main_v67 : Ref sig .tc := ⟨.hbm, 103, rfl⟩
abbrev main_v68 : Ref sig .tc := ⟨.hbm, 104, rfl⟩
abbrev main_c_11 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_12 : Ref sig .tc := ⟨.hbm, 111, rfl⟩
abbrev main_v74 : Ref sig .tc := ⟨.hbm, 112, rfl⟩
abbrev main_v75 : Ref sig .tc := ⟨.hbm, 113, rfl⟩
abbrev main_c_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_16 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S1 : S_.BroadcastsInDim S1 (![] : Fin 0 → Fin S1.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  reducesTo_S800000x2_S800000_d1 : S800000x2.ReducesTo [1] S800000
  h_S_ : 0 < S_.numel
  bcast_S800000x1_S800000x2_0_1 : S800000x1.BroadcastsInDim S800000x2 (![0, 1] : Fin 2 → Fin S800000x2.rank)
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S800000x128_S128x128_S800000x128_1_0_0_1_n_n_wf : DotDims.WF S800000x128 S128x128 S800000x128 [1] [0] [0] [1] [] []
  dot_S800000x128_S128x2_S800000x2_1_0_0_1_n_n_wf : DotDims.WF S800000x128 S128x2 S800000x2 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x2_S800000x2_1_0_0_1_n_n : DotDims S800000x128 S128x2 S800000x2 where
  lhsContracting := [1]
  rhsContracting := [0]
  lhsNonContracting := [0]
  rhsNonContracting := [1]
  lhsBatch := []
  rhsBatch := []
  wf := dot_S800000x128_S128x2_S800000x2_1_0_0_1_n_n_wf

class Facts : Prop extends Facts₀ where

variable [Facts]
-- ==== Proof.Spec.lean ====
/-
  The mathematics of the two programs, stage by stage, as functions of arrays of extended reals.

  A graph network with two message-passing layers and an edge classifier. With h the node features,
  src and dst the endpoints of each edge and ea the edge features:

  * a MESSAGE is max (h[src] + (ea · W + b)) 0, one row per edge (`msgF`);
  * messages are added into their target node (the same accumulating scatter on both sides, never opened);
  * the node UPDATE is a leaky rectifier of agg · Wa + sh · Wh + b (`updF`), where the reference instead
    multiplies the row [agg | sh] of width 256 by the stacked matrix (`updCat`); the two agree because a sum
    over 256 terms is the sum of its two halves, a law of any commutative additive monoid, so it holds on the
    extended reals with no finiteness assumption;
  * the EDGE embedding is the product of the two endpoint rows (`edgeF`), and the class probabilities are a
    softmax over two logits of a two-layer perceptron on it (`hidF`, `logitF`, `softF`).

  Every function is generic in the number of rows R, so one definition serves a whole array and a block of it.
-/
import Idealize.ShloMosaic.PureOps.Ideal
import Idealize.ShloMosaic.PureOps.Ideal.Laws
import Idealize.ShloMosaic.Lib.ValueIdx

noncomputable section

namespace Cert.Spec

open Idealize.ShloMosaic

/-- A matrix of extended reals with `r` rows and `c` columns. -/
abbrev Mat (r c : Nat) : Type := (⟨2, ![r, c]⟩ : Shape).Idx → EReal
/-- A vector of extended reals of length `n`. -/
abbrev Vc (n : Nat) : Type := (⟨1, ![n]⟩ : Shape).Idx → EReal

/-- The index (row of `i`, `k`). -/
abbrev rowK {R C K : Nat} (i : (⟨2, ![R, C]⟩ : Shape).Idx) (k : Fin K) : (⟨2, ![R, K]⟩ : Shape).Idx := fun a => match a with
  | ⟨0, _⟩ => ⟨(i 0).val, (i 0).isLt⟩
  | ⟨1, _⟩ => ⟨k.val, k.isLt⟩
/-- The index (`k`, column of `i`). -/
abbrev kCol {R C K : Nat} (i : (⟨2, ![R, C]⟩ : Shape).Idx) (k : Fin K) : (⟨2, ![K, C]⟩ : Shape).Idx := fun a => match a with
  | ⟨0, _⟩ => ⟨k.val, k.isLt⟩
  | ⟨1, _⟩ => ⟨(i 1).val, (i 1).isLt⟩
/-- The column of `i`, as an index of a vector. -/
abbrev colOf {R C : Nat} (i : (⟨2, ![R, C]⟩ : Shape).Idx) : (⟨1, ![C]⟩ : Shape).Idx := fun a => match a with
  | ⟨0, _⟩ => ⟨(i 1).val, (i 1).isLt⟩

/-- Entry `i` of the matrix product `x · W`: the sum over the shared axis. -/
def dotAt {R K C : Nat} (x : Mat R K) (W : Mat K C) (i : (⟨2, ![R, C]⟩ : Shape).Idx) : EReal :=
  ∑ k : Fin K, x (rowK i k) * W (kCol i k)

/-- The leaky rectifier with the slope both programs carry as the same f32 word: `z` where `z > 0`, else slope · `z`. -/
def leaky (z : EReal) : EReal :=
  Scalar.select (Ideal.cmp .ogt z (Ideal.ofBits .f32 0x00000000#32)) z (Ideal.ofBits .f32 0x3E4CCCCD#32 * z)

/-- One layer's messages: `max (hs + (ea · W + b)) 0`, with `hs` the gathered source rows. -/
def msgF {R : Nat} (ea : Mat R 64) (hs : Mat R 128) (W : Mat 64 128) (b : Vc 128) : Mat R 128 :=
  fun i => max (hs i + (dotAt ea W i + b (colOf i))) 0

/-- One layer's node update from the two half matrices: `leaky ((agg · Wa + sh · Wh) + b)`. -/
def updF {R : Nat} (agg sh : Mat R 128) (Wa Wh : Mat 128 128) (b : Vc 128) : Mat R 128 :=
  fun i => leaky ((dotAt agg Wa i + dotAt sh Wh i) + b (colOf i))

/-- The same update from the joined row `[agg | sh]` and the stacked matrix: `leaky (cat · W + b)`. -/
def updCat {R : Nat} (cat : Mat R 256) (W : Mat 256 128) (b : Vc 128) : Mat R 128 :=
  fun i => leaky (dotAt cat W i + b (colOf i))

/-- The edge embedding: the product of the two endpoint rows, entry by entry. -/
def edgeF {R : Nat} (a b : Mat R 128) : Mat R 128 := fun i => a i * b i

/-- The classifier's hidden layer. -/
def hidF {R : Nat} (he : Mat R 128) (W1 : Mat 128 128) (b1 : Vc 128) : Mat R 128 :=
  fun i => leaky (dotAt he W1 i + b1 (colOf i))

/-- The two logits of each edge. -/
def logitF {R : Nat} (z : Mat R 128) (W2 : Mat 128 2) (b2 : Vc 2) : Mat R 2 :=
  fun i => dotAt z W2 i + b2 (colOf i)

/-- The larger of a row's two logits, folded from −∞ and once more compared with −∞ as both programs do. -/
def rowMax {R : Nat} (l : Mat R 2) (i : (⟨2, ![R, 2]⟩ : Shape).Idx) : EReal :=
  max (Ideal.ofBits .f32 0xFF800000#32)
    ((Finset.univ : Finset (Fin 2)).fold max (Ideal.ofBits .f32 0xFF800000#32) fun k => l (rowK i k))

/-- The softmax over the two classes: `exp (l − max) / Σ exp (l − max)`. -/
def softF {R : Nat} (l : Mat R 2) : Mat R 2 :=
  fun i => Ideal.div (Ideal.exp (l i - rowMax l i)) (∑ k : Fin 2, Ideal.exp (l (rowK i k) - rowMax l (rowK i k)))

/-- The class probabilities of each edge from the two endpoint rows. -/
def probF {R : Nat} (a b : Mat R 128) (W1 : Mat 128 128) (b1 : Vc 128) (W2 : Mat 128 2) (b2 : Vc 2) : Mat R 2 :=
  softF (logitF (hidF (edgeF a b) W1 b1) W2 b2)

end Cert.Spec

end
-- ==== Proof.HostTerms.lean ====
/-
  The host-side operations of the kernel's program, each named once as a function of its operands, so that
  what a buffer holds at a region's entry can be stated in one line and compared with the reference's stages.

  `srcT` / `dstT` are the two rows of the edge list; `wrapT` is the index normalisation both programs apply
  (a negative index has the table's length added); `maskT` is the kernel-only test "the normalised index lies in
  0 … 49999", and `takeT` the gathered rows with the rows failing that test replaced by the not-a-number word;
  `gatherT` is the gather alone, which is what the reference computes. `aggT` is the accumulating scatter of
  messages into their target nodes, `scaleT` the node features times 1 + eps, `loT` / `hiT` the two halves of
  a stacked weight matrix, `reluT` the rectifier between the last layer and the classifier.
-/
import proofs.«400179_j12421045420439_1_alg».proof.KernelIdeal
import proofs.«400179_j12421045420439_1_alg».proof.Proof.Gen.KernelIdeal

noncomputable section

namespace Cert.KernelIdeal.HostTerms

open Cert.KernelIdeal Cert.KernelIdeal.Gen Idealize.ShloMosaic

variable {F : FTy → Type} [FloatOps F]

/-- Row 0 of the edge list: the source node of each edge. -/
def srcT (ei : IVec S2x800000 32) : IVec S800000 32 :=
  shapeCast _ (extractStridedSlice S1x800000 ![0, 0] ei slices_S2x800000_S1x800000_0_0) shapeCasts_S1x800000_S800000

/-- Row 1 of the edge list: the target node of each edge. -/
def dstT (ei : IVec S2x800000 32) : IVec S800000 32 :=
  shapeCast _ (extractStridedSlice S1x800000 ![1, 0] ei slices_S2x800000_S1x800000_1_0) shapeCasts_S1x800000_S800000

/-- The index normalisation: an index below zero has 50000 added. -/
def wrapT (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- A vector of indices as the one-column matrix a gather or scatter takes. -/
def colT (idx : IVec S800000 32) : IVec S800000x1 32 :=
  broadcastInDim S800000x1 ![0] bcast_S800000_S800000x1_0 idx

/-- Per edge: is the normalised index inside 0 … 49999? -/
def maskT (idx : IVec S800000 32) : IVec S800000 1 :=
  Host.reduce IntOp.andi
    (andi (cmpi .sge (colT (wrapT idx)) (broadcastInDim S800000x1 ![] bcast_S_S800000x1 (constantI S_ 32 0#32)))
      (cmpi .sle (colT (wrapT idx))
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows of `h` at the normalised indices. -/
def gatherT (h : FVec F S50000x128 .f32) (idx : IVec S800000 32) : FVec F S800000x128 .f32 :=
  Host.gather gather_S50000x128_S800000x1_S800000x128_1_0_n_n_0_1_1128 h (colT (wrapT idx))

/-- The kernel's gather: the gathered row where the index test holds, the not-a-number word elsewhere. -/
def takeT (h : FVec F S50000x128 .f32) (idx : IVec S800000 32) : FVec F S800000x128 .f32 :=
  select (broadcastInDim S800000x128 ![0] bcast_S800000_S800000x128_0 (maskT idx)) (gatherT h idx)
    (broadcastInDim S800000x128 ![] bcast_S_S800000x128 (constant S_ .f32 0x7FC00000#32))

/-- Messages added into their target nodes, from zero. -/
def aggT (dst : IVec S800000 32) (msg : FVec F S800000x128 .f32) : FVec F S50000x128 .f32 :=
  Host.scatterAdd scatter_S50000x128_S800000x1_S800000x128_1_0_0_1
    (broadcastInDim S50000x128 ![] bcast_S_S50000x128 (constant S_ .f32 0x00000000#32)) (colT dst) msg

/-- The node features times 1 + eps. -/
def scaleT (eps : FVec F S1 .f32) (h : FVec F S50000x128 .f32) : FVec F S50000x128 .f32 :=
  mulf (broadcastInDim S50000x128 ![] bcast_S_S50000x128 (addf (constant S_ .f32 0x3F800000#32) (shapeCast _ eps shapeCasts_S1_S_))) h

/-- The rectifier between the last layer and the classifier: the larger of an entry and zero. -/
def reluT (h : FVec F S50000x128 .f32) : FVec F S50000x128 .f32 :=
  maximumf h (broadcastInDim S50000x128 ![] bcast_S_S50000x128 (constant S_ .f32 0x00000000#32))

/-- Rows 0 … 127 of a stacked weight matrix. -/
def loT (W : FVec F S256x128 .f32) : FVec F S128x128 .f32 :=
  extractStridedSlice S128x128 ![0, 0] W slices_S256x128_S128x128_0_0

/-- Rows 128 … 255 of a stacked weight matrix. -/
def hiT (W : FVec F S256x128 .f32) : FVec F S128x128 .f32 :=
  extractStridedSlice S128x128 ![128, 0] W slices_S256x128_S128x128_128_0

end Cert.KernelIdeal.HostTerms

end
-- ==== Proof.Net.lean ====
/-
  The whole network, once, as a function of the seventeen argument arrays: two message-passing layers (gather the
  source rows, add the aligned edge features, rectify; add the messages into their target nodes; update the nodes from
  the aggregate and the scaled features), a rectifier, and the edge classifier on the two endpoint rows. Both programs'
  results are shown equal to `outEdge` and `outProb`.
-/
import proofs.«400179_j12421045420439_1_alg».proof.Proof.Spec
import proofs.«400179_j12421045420439_1_alg».proof.Proof.HostTerms

noncomputable section

namespace Cert.Net

open Cert.Spec Cert.KernelIdeal Cert.KernelIdeal.HostTerms Idealize.ShloMosaic

variable (x0 : FVec Ideal S50000x128 .f32) (x1 : IVec S2x800000 32) (x2 : FVec Ideal S800000x64 .f32)
  (x3 : FVec Ideal S64x128 .f32) (x4 : FVec Ideal S128 .f32) (x5 : FVec Ideal S256x128 .f32) (x6 : FVec Ideal S128 .f32)
  (x7 : FVec Ideal S1 .f32) (x8 : FVec Ideal S64x128 .f32) (x9 : FVec Ideal S128 .f32) (x10 : FVec Ideal S256x128 .f32)
  (x11 : FVec Ideal S128 .f32) (x12 : FVec Ideal S1 .f32) (x13 : FVec Ideal S128x128 .f32) (x14 : FVec Ideal S128 .f32)
  (x15 : FVec Ideal S128x2 .f32) (x16 : FVec Ideal S2 .f32)

/-- First layer's messages: the node features' rows at the edge sources, plus the aligned edge features, rectified. -/
def msg1 : FVec Ideal S800000x128 .f32 :=
  msgF x2 (gatherT (F := Ideal) x0 (srcT x1)) x3 x4

/-- First layer's node features. -/
def hid1 : FVec Ideal S50000x128 .f32 :=
  updF (aggT (F := Ideal) (dstT x1) (msg1 x0 x1 x2 x3 x4)) (scaleT (F := Ideal) x7 x0) (loT (F := Ideal) x5) (hiT (F := Ideal) x5) x6

/-- Second layer's messages. -/
def msg2 : FVec Ideal S800000x128 .f32 :=
  msgF x2 (gatherT (F := Ideal) (hid1 x0 x1 x2 x3 x4 x5 x6 x7) (srcT x1)) x8 x9

/-- Second layer's node features. -/
def hid2 : FVec Ideal S50000x128 .f32 :=
  updF (aggT (F := Ideal) (dstT x1) (msg2 x0 x1 x2 x3 x4 x5 x6 x7 x8 x9)) (scaleT (F := Ideal) x12 (hid1 x0 x1 x2 x3 x4 x5 x6 x7))
    (loT (F := Ideal) x10) (hiT (F := Ideal) x10) x11

/-- The rectified second-layer features the classifier gathers from. -/
def feat : FVec Ideal S50000x128 .f32 :=
  reluT (F := Ideal) (hid2 x0 x1 x2 x3 x4 x5 x6 x7 x8 x9 x10 x11 x12)

/-- First result: the edge embedding, the product of the two endpoint rows. -/
def outEdge : FVec Ideal S800000x128 .f32 :=
  edgeF (gatherT (F := Ideal) (feat x0 x1 x2 x3 x4 x5 x6 x7 x8 x9 x10 x11 x12) (srcT x1))
    (gatherT (F := Ideal) (feat x0 x1 x2 x3 x4 x5 x6 x7 x8 x9 x10 x11 x12) (dstT x1))

/-- Second result: the two class probabilities of each edge. -/
def outProb : FVec Ideal S800000x2 .f32 :=
  probF (gatherT (F := Ideal) (feat x0 x1 x2 x3 x4 x5 x6 x7 x8 x9 x10 x11 x12) (srcT x1))
    (gatherT (F := Ideal) (feat x0 x1 x2 x3 x4 x5 x6 x7 x8 x9 x10 x11 x12) (dstT x1)) x13 x14 x15 x16

end Cert.Net

end
-- ==== Proof.LibAndReduceAllOnes.lean ====
/-
  The converse of reading back an and-reduce. A reduce of one-bit words by "and" is the left fold of "and", from the
  initial word, over the operand's entries that drop to the result's index. If the initial word is 1 and each of those
  entries is 1, every partial result is 1 (1 and 1 is 1), so the result is 1. Stated once for any shapes and axes.
-/
import Idealize.ShloMosaic.Lib.ReduceAll

namespace Idealize.ShloMosaic

namespace IntOp

/-- A left fold by "and" over one-bit words that starts at 1 and meets only 1s ends at 1. -/
theorem foldl_andi_of_all_one {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    refine foldl_andi_of_all_one f l _ ?_ (fun n hn => hl n (List.mem_cons_of_mem _ hn))
    exact andi_eq_one.2 ⟨h, hl a List.mem_cons_self⟩

end IntOp

namespace Host

variable {s t u : Shape} {axes : List (Fin s.rank)}

/-- A reduce by "and" from an initial word 1 is 1 at `j` when every operand entry that reduces into `j` is 1. -/
theorem reduce_andi_of_ones (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl]
  refine IntOp.foldl_andi_of_all_one x _ _ hinit fun n hn => hx n ?_
  exact of_decide_eq_true (List.mem_filter.1 hn).2

/-- The same with every operand entry 1: the reduce is 1 at every index. -/
theorem reduce_andi_of_all_ones (x : s.Idx → BitVec 1) (init : u.Idx → BitVec 1) (h : s.ReducesTo axes t) (hu : 0 < u.numel)
    (hinit : ∀ k : u.Idx, init k = 1#1) (hx : ∀ i : s.Idx, x i = 1#1) :
    Host.reduce IntOp.andi x init h hu = fun _ => 1#1 :=
  funext fun j => reduce_andi_of_ones x init h hu j (hinit _) fun i _ => hx i

end Host

end Idealize.ShloMosaic
-- ==== Proof.Range.lean ====
/-
  The precondition's last conjunct says every entry of the edge list is a node number, 0 ≤ e < 50000. Under it
  the index normalisation is the identity on both rows, every normalised index passes the kernel's range test, the
  test's mask is all ones, and the kernel's masked gather is the plain gather the reference computes.
-/
import proofs.«400179_j12421045420439_1_alg».proof.Defs
import proofs.«400179_j12421045420439_1_alg».proof.Proof.Gen.KernelIdeal
import proofs.«400179_j12421045420439_1_alg».proof.Proof.Gen.Pre_finite_inputs
import proofs.«400179_j12421045420439_1_alg».proof.Proof.HostTerms
import proofs.«400179_j12421045420439_1_alg».proof.Proof.LibAndReduceAllOnes
import Idealize.ShloMosaic.PureOps.Ideal
import Idealize.ShloMosaic.Lib.ReduceAll
import Idealize.ShloMosaic.Lib.ValueIdx
import Idealize.ShloMosaic.Lib.Pipeline.Value

noncomputable section

namespace Cert.KernelIdeal.Range

open Cert.KernelIdeal Cert.KernelIdeal.Gen Cert.KernelIdeal.HostTerms
open Idealize.ShloMosaic Idealize.ShloMosaic.TcCoe Idealize.SL.Sem

/-- Every entry of the edge list, read as a signed integer, is a node number. -/
def InRange (ei : IVec S2x800000 32) : Prop :=
  ∀ i : S2x800000.Idx, 0 ≤ (ei i).toInt ∧ (ei i).toInt < 50000

/-! ### The range, read out of the precondition

The precondition is a conjunction of one-bit words; its last conjunct is the "and" over all entries of the edge list
of the two signed comparisons `0 ≤ e` and `e < 50000`. The conjunction being 1 makes that conjunct 1, an "and" over
all entries being 1 makes every entry's word 1, and a comparison's word being 1 is the comparison. -/

/-- The precondition's function, over any argument values: if it is all ones, every entry of its second argument is
    a node number. -/
theorem range_of_fn {F : FTy → Type} [FloatOps F]
    (a0 : FVec F Cert.Pre_finite_inputs.S50000x128 .f32) (a1 : IVec Cert.Pre_finite_inputs.S2x800000 32)
    (a2 : FVec F Cert.Pre_finite_inputs.S800000x64 .f32) (a3 : FVec F Cert.Pre_finite_inputs.S64x128 .f32)
    (a4 : FVec F Cert.Pre_finite_inputs.S128 .f32) (a5 : FVec F Cert.Pre_finite_inputs.S256x128 .f32)
    (a6 : FVec F Cert.Pre_finite_inputs.S128 .f32) (a7 : FVec F Cert.Pre_finite_inputs.S1 .f32)
    (a8 : FVec F Cert.Pre_finite_inputs.S64x128 .f32) (a9 : FVec F Cert.Pre_finite_inputs.S128 .f32)
    (a10 : FVec F Cert.Pre_finite_inputs.S256x128 .f32) (a11 : FVec F Cert.Pre_finite_inputs.S128 .f32)
    (a12 : FVec F Cert.Pre_finite_inputs.S1 .f32) (a13 : FVec F Cert.Pre_finite_inputs.S128x128 .f32)
    (a14 : FVec F Cert.Pre_finite_inputs.S128 .f32) (a15 : FVec F Cert.Pre_finite_inputs.S128x2 .f32)
    (a16 : FVec F Cert.Pre_finite_inputs.S2 .f32)
    (h : Cert.Pre_finite_inputs.fn (F := F) a0 a1 a2 a3 a4 a5 a6 a7 a8 a9 a10 a11 a12 a13 a14 a15 a16 = fun _ => 1#1)
    (i : Cert.Pre_finite_inputs.S2x800000.Idx) : 0 ≤ (a1 i).toInt ∧ (a1 i).toInt < 50000 := by
  -- the rank-0 result has one index
  haveI : Subsingleton Cert.Pre_finite_inputs.S_.Idx := ⟨fun a b => funext fun d => d.elim0⟩
  have h0 := congrFun h (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- the last conjunct, then every entry of the "and" over the edge list, then the two comparisons
  have hall := (IntOp.andi_eq_one.1 h0).2
  have hi := Host.reduce_andi_all _ _ _ _ _ hall i
  obtain ⟨hge, hlt⟩ := IntOp.andi_eq_one.1 hi
  have hge' : (0#32 : BitVec 32).toInt ≤ (a1 i).toInt := IntOp.cmpi_sge.1 hge
  have hlt' : (a1 i).toInt < (50000#32 : BitVec 32).toInt := IntOp.cmpi_slt.1 hlt
  have e0 : (0#32 : BitVec 32).toInt = 0 := by decide
  have e5 : (50000#32 : BitVec 32).toInt = 50000 := by decide
  omega

/-- The precondition gives the range of the edge list on every device. -/
theorem inRange_of_pre (m : (ℓ : Loc nD τ sig) → Buf (Elt Ideal) ℓ) (h : Cert.Pre_KernelIdeal m) (c : Dev nD) :
    InRange (m ((c.tc : Thread nD τ).loc main_arg1)) :=
  fun i => range_of_fn _ _ _ _ _ _ _ _ _ _ _ _ _ _ _ _ _ (h c) i

/-! ### The kernel's range test passes on node numbers -/

/-- Both rows of the edge list are entries of it, so they inherit its range. -/
theorem srcT_range (ei : IVec S2x800000 32) (hr : InRange ei) (e : S800000.Idx) :
    0 ≤ (srcT ei e).toInt ∧ (srcT ei e).toInt < 50000 := hr _

theorem dstT_range (ei : IVec S2x800000 32) (hr : InRange ei) (e : S800000.Idx) :
    0 ≤ (dstT ei e).toInt ∧ (dstT ei e).toInt < 50000 := hr _

/-- A word that is not below zero: the signed test "below zero" gives the bit 0. -/
theorem slt_zero_of_nonneg {x : BitVec 32} (hx : 0 ≤ x.toInt) : IntOp.cmpi .slt x 0#32 = 0#1 :=
  ValueIdx.eq_zero_of_ne_one fun h => by
    have h1 := IntOp.cmpi_slt.1 h
    have e0 : (0#32 : BitVec 32).toInt = 0 := by decide
    omega

/-- A node number passes both signed tests `0 ≤ x` and `x ≤ 49999`. -/
theorem test_of_range {x : BitVec 32} (h0 : 0 ≤ x.toInt) (h1 : x.toInt < 50000) :
    IntOp.andi (IntOp.cmpi .sge x 0#32) (IntOp.cmpi .sle x 49999#32) = 1#1 := by
  refine IntOp.andi_eq_one.2 ⟨IntOp.cmpi_sge.2 ?_, IntOp.cmpi_sle.2 ?_⟩
  · have e0 : (0#32 : BitVec 32).toInt = 0 := by decide
    omega
  · have e9 : (49999#32 : BitVec 32).toInt = 49999 := by decide
    omega

section Mask
variable (idx : IVec S800000 32) (hidx : ∀ e : S800000.Idx, 0 ≤ (idx e).toInt ∧ (idx e).toInt < 50000)
include hidx

/-- On node numbers the index normalisation changes nothing: no entry is below zero. -/
theorem wrapT_of_range : wrapT idx = idx := by
  funext e
  show Scalar.select (IntOp.cmpi .slt (idx e) 0#32) _ _ = _
  rw [slt_zero_of_nonneg (hidx e).1]
  exact ValueIdx.select_zero _ _

/-- On node numbers the range test's mask is all ones: the "and" along the unit axis of words that are all 1. -/
theorem maskT_of_range : maskT idx = fun _ => 1#1 := by
  unfold maskT
  rw [wrapT_of_range idx hidx]
  refine Host.reduce_andi_of_all_ones _ _ _ _ (fun _ => rfl) fun k => ?_
  show IntOp.andi (IntOp.cmpi .sge (idx _) 0#32) (IntOp.cmpi .sle (idx _) 49999#32) = 1#1
  exact test_of_range (hidx _).1 (hidx _).2

/-- With an all-ones mask the masked gather is the gather: a select on the bit 1 is its first branch. -/
theorem take_of_range (h : FVec Ideal S50000x128 .f32) : takeT (F := Ideal) h idx = gatherT (F := Ideal) h idx := by
  unfold takeT
  rw [maskT_of_range idx hidx]
  funext i
  rw [ValueIdx.select_apply]
  exact ValueIdx.select_one _ _

end Mask

/-- With the sources in range the kernel's masked gather is the gather. -/
theorem take_src (h : FVec Ideal S50000x128 .f32) (ei : IVec S2x800000 32) (hr : InRange ei) :
    takeT (F := Ideal) h (srcT ei) = gatherT (F := Ideal) h (srcT ei) :=
  take_of_range (srcT ei) (srcT_range ei hr) h

/-- With the targets in range the kernel's masked gather is the gather. -/
theorem take_dst (h : FVec Ideal S50000x128 .f32) (ei : IVec S2x800000 32) (hr : InRange ei) :
    takeT (F := Ideal) h (dstT ei) = gatherT (F := Ideal) h (dstT ei) :=
  take_of_range (dstT ei) (dstT_range ei hr) h

end Cert.KernelIdeal.Range

end
-- ==== Proof.EdgeMsg.lean ====
/-
  The message kernel's two launches, read as whole arrays: after the launch the output array holds, row by row,
  max (gathered row + (edge features · W + b)) 0 of the arrays the launch was entered with. Each grid point
  writes one block of 4000 rows; the blocks tile the 800000 rows.
-/
import proofs.«400179_j12421045420439_1_alg».proof.Proof.Gen.KernelIdeal.Frame
import proofs.«400179_j12421045420439_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen
open Idealize.ShloMosaic Idealize.ShloMosaic.TcCoe Idealize.SL.Sem Idealize.ShloMosaic.ValueIdx
open Idealize.ShloMosaic.Pipeline (Dat Cfg Window)

-- The buffer contents a region is entered with: a parameter, as in the frame.
variable (V : (c : Dev nD) → (b : Ref sig .tc) → Buf (Elt Ideal) ((c : Thread nD τ).loc b))

/-! ## The message body at an index -/

/-- The bias row, reshaped to one row and repeated down the block, reads the bias at the column. -/
theorem bias_at (b : Vec Ideal S128 .f32) (j : S4000x128.Idx) :
    broadcastTo S4000x128 (shapeCast S1x128 b shapeCasts_S128_S1x128) broadcasts_S1x128_S4000x128 j
      = b (Cert.Spec.colOf j) := by
  refine (broadcastTo_apply _ broadcasts_S1x128_S4000x128 j
    (fun a => match a with | ⟨0, _⟩ => ⟨0, Nat.one_pos⟩ | ⟨1, _⟩ => ⟨(j 1).val, (j 1).isLt⟩) ?_).trans ?_
  · intro a
    match a with
    | ⟨0, _⟩ => rfl
    | ⟨1, _⟩ => rfl
  · exact shapeCast_apply b shapeCasts_S128_S1x128 _ (Cert.Spec.colOf j)
      (by rewrite [Shape.rowMajor_val_two, Shape.rowMajor_val_one]; show (j 1).val = 0 * 128 + (j 1).val; omega)

/-- The left operand is read at the output's row … -/
theorem lhs_row (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- … and at the contraction coordinate on its second axis. -/
theorem lhs_contr (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
/-- The right operand is read at the contraction coordinate on its first axis … -/
theorem rhs_contr (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
/-- … and at the output's column. -/
theorem rhs_col (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The block product into a zero accumulator is the sum over the shared axis. -/
theorem prod_at (x : Vec Ideal S4000x64 .f32) (w : Vec Ideal S64x128 .f32) (j : S4000x128.Idx) :
    matmul dot_S4000x64_S64x128_S4000x128_1_0_0_1_n_n none (truncf .bf16 x bitsLt_bf16_f32) (truncf .bf16 w bitsLt_bf16_f32)
        (constant (F := Ideal) S4000x128 .f32 0x00000000#32) j
      = Cert.Spec.dotAt x w j := by
  simp only [matmul]
  rw [Ideal.matmul_constant_zero_apply, ← Equiv.sum_comp (ValueIdx.contrEquiv1 dot_S4000x64_S64x128_S4000x128_1_0_0_1_n_n 64 rfl rfl).symm]
  unfold Cert.Spec.dotAt
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx j ((ValueIdx.contrEquiv1 dot_S4000x64_S64x128_S4000x128_1_0_0_1_n_n 64 rfl rfl).symm k) = Cert.Spec.rowK j k := funext fun a => Fin.ext (by
    match a with
    | ⟨0, _⟩ => exact lhs_row _ _
    | ⟨1, _⟩ => exact (lhs_contr _ _).trans hk)
  have er : dot_S4000x64_S64x128_S4000x128_1_0_0_1_n_n.rhsIdx j ((ValueIdx.contrEquiv1 dot_S4000x64_S64x128_S4000x128_1_0_0_1_n_n 64 rfl rfl).symm k) = Cert.Spec.kCol j k := funext fun a => Fin.ext (by
    match a with
    | ⟨0, _⟩ => exact (rhs_contr _ _).trans hk
    | ⟨1, _⟩ => exact rhs_col _ _)
  rw [truncf_apply, truncf_apply, el, er]

/-- The message body of a block of 4000 rows is the message function of its blocks. -/
theorem msg_payload (x : Vec Ideal S4000x64 .f32) (w : Vec Ideal S64x128 .f32) (b : Vec Ideal S128 .f32) (h : Vec Ideal S4000x128 .f32) :
    k0_pay1 (F := Ideal) x w b h = Cert.Spec.msgF (R := 4000) x h w b := by
  funext j
  unfold k0_pay1 Cert.Spec.msgF
  rw [maximumf_apply, addf_apply, addf_apply, shapeCast_self, prod_at, bias_at, broadcast_apply]
  show max _ (Ideal.ofBits .f32 0x00000000#32) = _
  rw [Ideal.ofBits_zero_f32]

/-- A message reads its row-indexed arguments only at its own row: if the gathered row, the edge-feature row, the
    weight column and the bias entry read at `j` from one family agree with those read at `i` from another, the two
    messages agree. -/
theorem msgF_rows {R R' : Nat} (ea : Cert.Spec.Mat R 64) (hs : Cert.Spec.Mat R 128) (W : Cert.Spec.Mat 64 128) (b : Cert.Spec.Vc 128)
    (ea' : Cert.Spec.Mat R' 64) (hs' : Cert.Spec.Mat R' 128) (W' : Cert.Spec.Mat 64 128) (b' : Cert.Spec.Vc 128)
    (j : (⟨2, ![R', 128]⟩ : Shape).Idx) (i : (⟨2, ![R, 128]⟩ : Shape).Idx)
    (hhs : hs' j = hs i) (hea : ∀ k : Fin 64, ea' (Cert.Spec.rowK j k) = ea (Cert.Spec.rowK i k))
    (hW : ∀ k : Fin 64, W' (Cert.Spec.kCol j k) = W (Cert.Spec.kCol i k)) (hb : b' (Cert.Spec.colOf j) = b (Cert.Spec.colOf i)) :
    Cert.Spec.msgF ea' hs' W' b' j = Cert.Spec.msgF ea hs W b i := by
  unfold Cert.Spec.msgF Cert.Spec.dotAt
  rw [hhs, hb]
  simp only [hea, hW]

/-! ## Region 0: from blocks to the array -/

/-- The zero offsets of a rank-2 access, as a constant function. -/
theorem zero_off2 : (![0, 0] : Fin 2 → Nat) = fun _ => 0 := funext fun a => by fin_cases a <;> rfl
/-- The zero offset of a rank-1 access, as a constant function. -/
theorem zero_off1 : (![0] : Fin 1 → Nat) = fun _ => 0 := funext fun a => by fin_cases a <;> rfl

/-- The block index maps over the grid: the edge-feature, gathered-row and output blocks are block `t` of their
    arrays, the weight matrix and the bias are staged whole. -/
theorem msg0_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- What grid point `t` writes back is block `t` of the message function of the arrays the launch was entered with. -/
theorem msg0_flushed (c : Dev nD) (t : Fin cfg0.N) :
    (dat0 (F := Ideal) V c).flushed 4 t
      = ((cfg0.win 4).blk t).view.read (Elt Ideal)
          (Cert.Spec.msgF (V c main_arg2) (V c main_v4) (V c main_arg3) (V c main_arg4)) := by
  show (cfg0.win 4).cut (grid0.coords t) ((dat0 (F := Ideal) V c).after 4 t) = _
  rw [after0_4]
  unfold out0_4
  rw [View.canon_unit_zero zero_off2]
  simp only [View.ld_unit_zero (S := S4000x64) zero_off2, View.ld_unit_zero (S := S64x128) zero_off2,
    View.ld_unit_zero (S := S128) zero_off1, View.ld_unit_zero (S := S4000x128) zero_off2]
  rw [msg_payload]
  obtain ⟨f00, f01, f10, f11, f20, f21, f30, f40, f41⟩ := msg0_index_facts t
  apply funext
  intro (j : S4000x128.Idx)
  have hj0 : (j 0).val < 4000 := (j 0).isLt
  have hj1 : (j 1).val < 128 := (j 1).isLt
  have h1 : ((cfg0.win 1).blk t).view.emb j = ((cfg0.win 4).blk t).view.emb j := by
    funext a; apply Fin.ext
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 128 + 1 * (j 1).val = win0_4.index t (1 : Fin 2) * 128 + 1 * (j 1).val; omega
  have h0 : ∀ k : Fin 64, ((cfg0.win 0).blk t).view.emb (Cert.Spec.rowK (R := 4000) (C := 128) j k)
      = Cert.Spec.rowK (R := 800000) (C := 128) (((cfg0.win 4).blk t).view.emb j) k := by
    intro k; funext a; apply Fin.ext
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 64 + 1 * k.val = k.val; omega
  have h2 : ∀ k : Fin 64, ((cfg0.win 2).blk t).view.emb (Cert.Spec.kCol (R := 4000) (C := 128) j k)
      = Cert.Spec.kCol (R := 800000) (C := 128) (((cfg0.win 4).blk t).view.emb j) k := by
    intro k; funext a; apply Fin.ext
    match a with
    | ⟨0, _⟩ => show win0_2.index t (0 : Fin 2) * 64 + 1 * k.val = k.val; omega
    | ⟨1, _⟩ => show win0_2.index t (1 : Fin 2) * 128 + 1 * (j 1).val = win0_4.index t (1 : Fin 2) * 128 + 1 * (j 1).val; omega
  have h3 : ((cfg0.win 3).blk t).view.emb (Cert.Spec.colOf (R := 4000) (C := 128) j)
      = Cert.Spec.colOf (R := 800000) (C := 128) (((cfg0.win 4).blk t).view.emb j) := by
    funext a; apply Fin.ext
    match a with
    | ⟨0, _⟩ => show win0_3.index t (0 : Fin 1) * 128 + 1 * (j 1).val = win0_4.index t (1 : Fin 2) * 128 + 1 * (j 1).val; omega
  show Cert.Spec.msgF (R := 4000) (iblk0 V c 0 t) (iblk0 V c 1 t) (iblk0 V c 2 t) (iblk0 V c 3 t) j
      = Cert.Spec.msgF (R := 800000) (V c main_arg2) (V c main_v4) (V c main_arg3) (V c main_arg4) (((cfg0.win 4).blk t).view.emb j)
  exact msgF_rows (V c main_arg2) (V c main_v4) (V c main_arg3) (V c main_arg4)
    (iblk0 V c 0 t) (iblk0 V c 1 t) (iblk0 V c 2 t) (iblk0 V c 3 t) j (((cfg0.win 4).blk t).view.emb j)
    (congrArg (V c main_v4) h1) (fun k => congrArg (V c main_arg2) (h0 k)) (fun k => congrArg (V c main_arg3) (h2 k))
    (congrArg (V c main_arg4) h3)

/-- An index of the output array is in point `t`'s block iff each coordinate is in the block's range on its axis. -/
theorem msg0_mem_blk (t : Fin cfg0.N) (i : S800000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v5).slice (win0_4.rect t)).set ↔ _
  rw [View.set_slice_whole, Rect.mem_set_unit]
  exact Iff.rfl

/-- The 200 blocks of 4000 rows tile the 800000 rows: row `r` is in the block of point `r / 4000`. -/
theorem msg0_cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 200 := N_0
  obtain ⟨t, ht⟩ : ∃ t : Fin cfg0.N, t.val = (i 0).val / 4000 := ⟨⟨(i 0).val / 4000, by omega⟩, rfl⟩
  obtain ⟨-, -, -, -, -, -, -, f40, f41⟩ := msg0_index_facts t
  refine ⟨t, flush0_4 t, ?_⟩
  rw [msg0_mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- Region 0 (first layer's messages): the output array `main_v5` after the launch. -/
theorem region0 (c : Dev nD) :
    (dat0 (F := Ideal) V c).arrAt 4 cfg0.N
      = Cert.Spec.msgF (V c main_arg2) (V c main_v4) (V c main_arg3) (V c main_arg4) :=
  (dat0 (F := Ideal) V c).arrAt_eq_of_cover 4
    (Cert.Spec.msgF (V c main_arg2) (V c main_v4) (V c main_arg3) (V c main_arg4))
    (fun t _ => msg0_flushed V c t) msg0_cover

/-! ## Region 2: the same body on the second layer's arrays -/

/-- The second launch's body is the same term as the first's. -/
theorem msg_payload2 (x : Vec Ideal S4000x64 .f32) (w : Vec Ideal S64x128 .f32) (b : Vec Ideal S128 .f32) (h : Vec Ideal S4000x128 .f32) :
    k2_pay1 (F := Ideal) x w b h = Cert.Spec.msgF (R := 4000) x h w b :=
  msg_payload x w b h

/-- The block index maps of the second launch over its grid. -/
theorem msg2_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- What grid point `t` of the second launch writes back is block `t` of the message function of its entry arrays. -/
theorem msg2_flushed (c : Dev nD) (t : Fin cfg2.N) :
    (dat2 (F := Ideal) V c).flushed 4 t
      = ((cfg2.win 4).blk t).view.read (Elt Ideal)
          (Cert.Spec.msgF (V c main_arg2) (V c main_v16) (V c main_arg8) (V c main_arg9)) := by
  show (cfg2.win 4).cut (grid2.coords t) ((dat2 (F := Ideal) V c).after 4 t) = _
  rw [after2_4]
  unfold out2_4
  rw [View.canon_unit_zero zero_off2]
  simp only [View.ld_unit_zero (S := S4000x64) zero_off2, View.ld_unit_zero (S := S64x128) zero_off2,
    View.ld_unit_zero (S := S128) zero_off1, View.ld_unit_zero (S := S4000x128) zero_off2]
  rw [msg_payload2]
  obtain ⟨f00, f01, f10, f11, f20, f21, f30, f40, f41⟩ := msg2_index_facts t
  apply funext
  intro (j : S4000x128.Idx)
  have hj0 : (j 0).val < 4000 := (j 0).isLt
  have hj1 : (j 1).val < 128 := (j 1).isLt
  have h1 : ((cfg2.win 1).blk t).view.emb j = ((cfg2.win 4).blk t).view.emb j := by
    funext a; apply Fin.ext
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 128 + 1 * (j 1).val = win2_4.index t (1 : Fin 2) * 128 + 1 * (j 1).val; omega
  have h0 : ∀ k : Fin 64, ((cfg2.win 0).blk t).view.emb (Cert.Spec.rowK (R := 4000) (C := 128) j k)
      = Cert.Spec.rowK (R := 800000) (C := 128) (((cfg2.win 4).blk t).view.emb j) k := by
    intro k; funext a; apply Fin.ext
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 64 + 1 * k.val = k.val; omega
  have h2 : ∀ k : Fin 64, ((cfg2.win 2).blk t).view.emb (Cert.Spec.kCol (R := 4000) (C := 128) j k)
      = Cert.Spec.kCol (R := 800000) (C := 128) (((cfg2.win 4).blk t).view.emb j) k := by
    intro k; funext a; apply Fin.ext
    match a with
    | ⟨0, _⟩ => show win2_2.index t (0 : Fin 2) * 64 + 1 * k.val = k.val; omega
    | ⟨1, _⟩ => show win2_2.index t (1 : Fin 2) * 128 + 1 * (j 1).val = win2_4.index t (1 : Fin 2) * 128 + 1 * (j 1).val; omega
  have h3 : ((cfg2.win 3).blk t).view.emb (Cert.Spec.colOf (R := 4000) (C := 128) j)
      = Cert.Spec.colOf (R := 800000) (C := 128) (((cfg2.win 4).blk t).view.emb j) := by
    funext a; apply Fin.ext
    match a with
    | ⟨0, _⟩ => show win2_3.index t (0 : Fin 1) * 128 + 1 * (j 1).val = win2_4.index t (1 : Fin 2) * 128 + 1 * (j 1).val; omega
  show Cert.Spec.msgF (R := 4000) (iblk2 V c 0 t) (iblk2 V c 1 t) (iblk2 V c 2 t) (iblk2 V c 3 t) j
      = Cert.Spec.msgF (R := 800000) (V c main_arg2) (V c main_v16) (V c main_arg8) (V c main_arg9) (((cfg2.win 4).blk t).view.emb j)
  exact msgF_rows (V c main_arg2) (V c main_v16) (V c main_arg8) (V c main_arg9)
    (iblk2 V c 0 t) (iblk2 V c 1 t) (iblk2 V c 2 t) (iblk2 V c 3 t) j (((cfg2.win 4).blk t).view.emb j)
    (congrArg (V c main_v16) h1) (fun k => congrArg (V c main_arg2) (h0 k)) (fun k => congrArg (V c main_arg8) (h2 k))
    (congrArg (V c main_arg9) h3)

/-- An index of the second launch's output array is in point `t`'s block iff each coordinate is in the block's range. -/
theorem msg2_mem_blk (t : Fin cfg2.N) (i : S800000x128.Idx) :
    i ∈ ((cfg2.win 4).blk t).view.set ↔ ∀ a : Fin 2, win2_4.index t a * S4000x128.size a ≤ (i a).val ∧ (i a).val < win2_4.index t a * S4000x128.size a + S4000x128.size a := by
  show i ∈ ((View.whole main_v17).slice (win2_4.rect t)).set ↔ _
  rw [View.set_slice_whole, Rect.mem_set_unit]
  exact Iff.rfl

/-- The second launch's 200 blocks of 4000 rows tile the 800000 rows. -/
theorem msg2_cover (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  have hN : cfg2.N = 200 := N_2
  obtain ⟨t, ht⟩ : ∃ t : Fin cfg2.N, t.val = (i 0).val / 4000 := ⟨⟨(i 0).val / 4000, by omega⟩, rfl⟩
  obtain ⟨-, -, -, -, -, -, -, f40, f41⟩ := msg2_index_facts t
  refine ⟨t, flush2_4 t, ?_⟩
  rw [msg2_mem_blk]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-- Region 2 (second layer's messages): the output array `main_v17` after the launch. -/
theorem region2 (c : Dev nD) :
    (dat2 (F := Ideal) V c).arrAt 4 cfg2.N
      = Cert.Spec.msgF (V c main_arg2) (V c main_v16) (V c main_arg8) (V c main_arg9) :=
  (dat2 (F := Ideal) V c).arrAt_eq_of_cover 4
    (Cert.Spec.msgF (V c main_arg2) (V c main_v16) (V c main_arg8) (V c main_arg9))
    (fun t _ => msg2_flushed V c t) msg2_cover

end Cert.KernelIdeal.RegionVal

end
-- ==== Proof.NodeUpd.lean ====
/-
  The node-update kernel's two launches, read as whole arrays: after the launch the output array holds, row by row,
  the leaky rectifier of (agg · Wa + sh · Wh) + b of the arrays the launch was entered with. Each grid point writes one
  block of 5000 rows; the blocks tile the 50000 rows.

  The argument, for each launch: (1) what one grid point computes from its blocks is the update of those blocks (two
  block products into zero accumulators are sums over the shared axis, the bias row is read at the column, and the
  select on "greater than zero" between z and slope · z is the leaky rectifier); (2) the update reads row r of its
  row-indexed arguments only at row r, so block t of the update of the whole arrays is the update of the t-th blocks;
  (3) the ten blocks cover every row, row r lying in block r / 5000.
-/
import proofs.«400179_j12421045420439_1_alg».proof.Proof.Gen.KernelIdeal.Frame
import proofs.«400179_j12421045420439_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen
open Idealize.ShloMosaic Idealize.ShloMosaic.TcCoe Idealize.SL.Sem Idealize.ShloMosaic.ValueIdx
open Idealize.ShloMosaic.Pipeline (Dat Cfg Window)

-- The buffer contents a region is entered with: a parameter, as in the frame.
variable (V : (c : Dev nD) → (b : Ref sig .tc) → Buf (Elt Ideal) ((c : Thread nD τ).loc b))

namespace NodeUpd

/-! ## The block product at an index

The kernel multiplies a block of 5000 rows by a 128 × 128 matrix into a zero accumulator. At an output index (r, c)
the contraction runs over one axis of length 128; re-indexed to the numbers below 128, the left factor is read at
(r, k) and the right one at (k, c). -/

/-- The left operand's row coordinate is the output's row. -/
theorem lhs_blockProd_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_blockProd_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_blockProd_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_blockProd_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at an index, is the sum over the shared axis. -/
theorem blockProd_apply (x : FVec Ideal S5000x128 .bf16) (W : FVec Ideal S128x128 .bf16) (i : S5000x128.Idx) :
    matmul dot_S5000x128_S128x128_S5000x128_1_0_0_1_n_n none x W (constant (F := Ideal) S5000x128 .f32 0x00000000#32) i
      = Cert.Spec.dotAt (R := 5000) (K := 128) (C := 128) x W i := by
  simp only [matmul]
  rw [Ideal.matmul_constant_zero_apply, ← Equiv.sum_comp (ValueIdx.contrEquiv1 dot_S5000x128_S128x128_S5000x128_1_0_0_1_n_n 128 rfl rfl).symm]
  unfold Cert.Spec.dotAt
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = Cert.Spec.rowK i k := funext fun a => Fin.ext (by
    match a with
    | ⟨0, _⟩ => exact lhs_blockProd_0 _ _
    | ⟨1, _⟩ => exact (lhs_blockProd_1 _ _).trans hk)
  have er : dot_S5000x128_S128x128_S5000x128_1_0_0_1_n_n.rhsIdx i ((ValueIdx.contrEquiv1 dot_S5000x128_S128x128_S5000x128_1_0_0_1_n_n 128 rfl rfl).symm k) = Cert.Spec.kCol i k := funext fun a => Fin.ext (by
    match a with
    | ⟨0, _⟩ => exact (rhs_blockProd_0 _ _).trans hk
    | ⟨1, _⟩ => exact rhs_blockProd_1 _ _)
  rw [el, er]

/-! ## The bias row at an index -/

/-- The bias vector, given a unit row axis and repeated down the 5000 rows, reads its entry at the index's column. -/
theorem biasRows_apply (b : FVec Ideal S128 .f32) (i : S5000x128.Idx) :
    broadcastTo S5000x128 (shapeCast S1x128 b shapeCasts_S128_S1x128) broadcasts_S1x128_S5000x128 i = b (Cert.Spec.colOf i) := by
  have hb := broadcastTo_apply (shapeCast S1x128 b shapeCasts_S128_S1x128) broadcasts_S1x128_S5000x128 i
    (fun a => match a with
      | ⟨0, _⟩ => ⟨0, Nat.one_pos⟩
      | ⟨1, _⟩ => ⟨(i 1).val, (i 1).isLt⟩)
    (fun a => by
      match a with
      | ⟨0, _⟩ => rfl
      | ⟨1, _⟩ => rfl)
  rw [hb]
  exact shapeCast_apply b shapeCasts_S128_S1x128 _ (Cert.Spec.colOf i)
    (by rewrite [Shape.rowMajor_val_two, Shape.rowMajor_val_one]; have h1 : (i 1).val < 128 := (i 1).isLt; show (i 1).val = 0 * 128 + (i 1).val; omega)

/-! ## The kernel's arithmetic as one function of its blocks -/

/-- What one grid point computes from its blocks: both block products, their sum, the bias row added, and the leaky
    rectifier, entry by entry. A narrowing format change is the identity on extended reals and a shape cast to the same
    shape is the identity. -/
theorem nodeUpd_payload (a s : Vec Ideal S5000x128 .f32) (Wa Wh : Vec Ideal S128x128 .f32) (b : Vec Ideal S128 .f32) :
    k1_pay1 (F := Ideal) a Wa s Wh b = Cert.Spec.updF (R := 5000) a s Wa Wh b := by
  funext j
  unfold k1_pay1
  simp only [shapeCast_self]
  show Scalar.select (FloatOps.cmpf .ogt
        ((matmul dot_S5000x128_S128x128_S5000x128_1_0_0_1_n_n none (truncf .bf16 a bitsLt_bf16_f32) (truncf .bf16 Wa bitsLt_bf16_f32) (constant (F := Ideal) S5000x128 .f32 0x00000000#32) j
          + matmul dot_S5000x128_S128x128_S5000x128_1_0_0_1_n_n none (truncf .bf16 s bitsLt_bf16_f32) (truncf .bf16 Wh bitsLt_bf16_f32) (constant (F := Ideal) S5000x128 .f32 0x00000000#32) j)
          + broadcastTo S5000x128 (shapeCast S1x128 b shapeCasts_S128_S1x128) broadcasts_S1x128_S5000x128 j)
        (Scalar.ofBits (F := Ideal) .f32 0x00000000#32))
      ((matmul dot_S5000x128_S128x128_S5000x128_1_0_0_1_n_n none (truncf .bf16 a bitsLt_bf16_f32) (truncf .bf16 Wa bitsLt_bf16_f32) (constant (F := Ideal) S5000x128 .f32 0x00000000#32) j
          + matmul dot_S5000x128_S128x128_S5000x128_1_0_0_1_n_n none (truncf .bf16 s bitsLt_bf16_f32) (truncf .bf16 Wh bitsLt_bf16_f32) (constant (F := Ideal) S5000x128 .f32 0x00000000#32) j)
          + broadcastTo S5000x128 (shapeCast S1x128 b shapeCasts_S128_S1x128) broadcasts_S1x128_S5000x128 j)
      (Scalar.ofBits (F := Ideal) .f32 0x3E4CCCCD#32 *
        ((matmul dot_S5000x128_S128x128_S5000x128_1_0_0_1_n_n none (truncf .bf16 a bitsLt_bf16_f32) (truncf .bf16 Wa bitsLt_bf16_f32) (constant (F := Ideal) S5000x128 .f32 0x00000000#32) j
          + matmul dot_S5000x128_S128x128_S5000x128_1_0_0_1_n_n none (truncf .bf16 s bitsLt_bf16_f32) (truncf .bf16 Wh bitsLt_bf16_f32) (constant (F := Ideal) S5000x128 .f32 0x00000000#32) j)
          + broadcastTo S5000x128 (shapeCast S1x128 b shapeCasts_S128_S1x128) broadcasts_S1x128_S5000x128 j))
    = _
  rw [blockProd_apply, blockProd_apply, biasRows_apply]
  rfl

/-! ## A block of the array function is the function of the blocks

Every function of the specification reads row r of its row-indexed arguments only at row r, and the weights and the
bias whole. So the update of the 50000-row arrays, read at row p · 5000 + r, is the update of the p-th blocks of 5000
rows read at row r. -/

/-- The array index of entry j of the block of 5000 rows that starts at row p · 5000. -/
abbrev rowBlockIdx (p : Nat) (hp : p < 10) (j : S5000x128.Idx) : S50000x128.Idx := fun a => match a with
  | ⟨0, _⟩ => ⟨p * 5000 + (j 0).val, by have h : (j 0).val < 5000 := (j 0).isLt; show p * 5000 + (j 0).val < 50000; omega⟩
  | ⟨1, _⟩ => ⟨(j 1).val, (j 1).isLt⟩

/-- The update of the whole arrays at an index of block p is the update of the p-th blocks at the index inside. -/
theorem updF_rowBlock (A Sh : Cert.Spec.Mat 50000 128) (Wa Wh : Cert.Spec.Mat 128 128) (b : Cert.Spec.Vc 128)
    (p : Nat) (hp : p < 10) (a s : Cert.Spec.Mat 5000 128)
    (ha : ∀ j, a j = A (rowBlockIdx p hp j)) (hs : ∀ j, s j = Sh (rowBlockIdx p hp j)) (j : S5000x128.Idx) :
    Cert.Spec.updF a s Wa Wh b j = Cert.Spec.updF A Sh Wa Wh b (rowBlockIdx p hp j) := by
  have e1 : ∀ k : Fin 128, Cert.Spec.rowK (rowBlockIdx p hp j) k = rowBlockIdx p hp (Cert.Spec.rowK j k) := fun k =>
    funext fun x => Fin.ext (by
      match x with
      | ⟨0, _⟩ => rfl
      | ⟨1, _⟩ => rfl)
  have e2 : ∀ k : Fin 128, Cert.Spec.kCol (rowBlockIdx p hp j) k = Cert.Spec.kCol j k := fun k =>
    funext fun x => Fin.ext (by
      match x with
      | ⟨0, _⟩ => rfl
      | ⟨1, _⟩ => rfl)
  have e3 : Cert.Spec.colOf (rowBlockIdx p hp j) = Cert.Spec.colOf j :=
    funext fun x => Fin.ext (by
      match x with
      | ⟨0, _⟩ => rfl)
  unfold Cert.Spec.updF Cert.Spec.dotAt
  simp only [e1, e2, e3, ha, hs]

/-- The same with the weights and the bias given up to equality: what a grid point holds of them is the whole array. -/
theorem updF_rowBlock_of_eq (A Sh : Cert.Spec.Mat 50000 128) (Wa Wh : Cert.Spec.Mat 128 128) (b : Cert.Spec.Vc 128)
    (p : Nat) (hp : p < 10) (a s : Cert.Spec.Mat 5000 128) (Wa' Wh' : Cert.Spec.Mat 128 128) (b' : Cert.Spec.Vc 128)
    (ha : ∀ j, a j = A (rowBlockIdx p hp j)) (hs : ∀ j, s j = Sh (rowBlockIdx p hp j))
    (hWa : Wa' = Wa) (hWh : Wh' = Wh) (hb : b' = b) (j : S5000x128.Idx) :
    Cert.Spec.updF a s Wa' Wh' b' j = Cert.Spec.updF A Sh Wa Wh b (rowBlockIdx p hp j) := by
  subst hWa hWh hb
  exact updF_rowBlock A Sh Wa' Wh' b' p hp a s ha hs j

/-! ## Region 1: what a grid point writes back, and the whole array -/

theorem zeroOff2 : (![0, 0] : Fin 2 → Nat) = fun _ => 0 := funext fun a => by fin_cases a <;> rfl
theorem zeroOff1 : (![0] : Fin 1 → Nat) = fun _ => 0 := funext fun a => by fin_cases a <;> rfl

/-- The index maps of region 1, decided over its ten grid points: the two row-blocked inputs and the output are at
    block (t, 0); the two weight matrices and the bias at block 0. -/
theorem idx_facts1 : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Grid point t of region 1 writes back block t of the update of the arrays the region was entered with. -/
theorem flushed1_eq (c : Dev nD) (t : Fin cfg1.N) :
    (dat1 (F := Ideal) V c).flushed 5 t = ((cfg1.win 5).blk t).view.read (Elt Ideal)
      (Cert.Spec.updF (R := 50000) (V c main_v8) (V c main_v12) (V c main_v13) (V c main_v14) (V c main_arg6)) := by
  show (cfg1.win 5).cut (grid1.coords t) ((dat1 (F := Ideal) V c).after 5 t) = _
  rw [after1_5]
  unfold out1_5
  rw [View.canon_unit_zero zeroOff2]
  simp only [View.ld_unit_zero (S := S5000x128) zeroOff2, View.ld_unit_zero (S := S128x128) zeroOff2, View.ld_unit_zero (S := S128) zeroOff1]
  obtain ⟨ht, i00, i01, i10, i11, i20, i21, i30, i31, i40, i50, i51⟩ := idx_facts1 t
  funext j
  have h5 : ((cfg1.win 5).blk t).view.emb j = rowBlockIdx t.val ht j := by
    funext x; apply Fin.ext
    match x with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  show k1_pay1 (F := Ideal) (iblk1 V c 0 t) (iblk1 V c 2 t) (iblk1 V c 1 t) (iblk1 V c 3 t) (iblk1 V c 4 t) j
    = Cert.Spec.updF (R := 50000) (V c main_v8) (V c main_v12) (V c main_v13) (V c main_v14) (V c main_arg6) (((cfg1.win 5).blk t).view.emb j)
  rw [h5]
  refine (congrFun (nodeUpd_payload (iblk1 V c 0 t) (iblk1 V c 1 t) (iblk1 V c 2 t) (iblk1 V c 3 t) (iblk1 V c 4 t)) j).trans ?_
  refine updF_rowBlock_of_eq (V c main_v8) (V c main_v12) (V c main_v13) (V c main_v14) (V c main_arg6) t.val ht
    (iblk1 V c 0 t) (iblk1 V c 1 t) (iblk1 V c 2 t) (iblk1 V c 3 t) (iblk1 V c 4 t) ?_ ?_ ?_ ?_ ?_ j
  · intro y
    show V c main_v8 (((cfg1.win 0).blk t).view.emb y) = V c main_v8 (rowBlockIdx t.val ht y)
    refine congrArg (V c main_v8) (funext fun x => Fin.ext ?_)
    match x with
    | ⟨0, _⟩ => show win1_0.index t (0 : Fin 2) * 5000 + 1 * (y 0).val = t.val * 5000 + (y 0).val; omega
    | ⟨1, _⟩ => show win1_0.index t (1 : Fin 2) * 128 + 1 * (y 1).val = (y 1).val; omega
  · intro y
    show V c main_v12 (((cfg1.win 1).blk t).view.emb y) = V c main_v12 (rowBlockIdx t.val ht y)
    refine congrArg (V c main_v12) (funext fun x => Fin.ext ?_)
    match x with
    | ⟨0, _⟩ => show win1_1.index t (0 : Fin 2) * 5000 + 1 * (y 0).val = t.val * 5000 + (y 0).val; omega
    | ⟨1, _⟩ => show win1_1.index t (1 : Fin 2) * 128 + 1 * (y 1).val = (y 1).val; omega
  · funext y
    show V c main_v13 (((cfg1.win 2).blk t).view.emb y) = V c main_v13 y
    refine congrArg (V c main_v13) (funext fun x => Fin.ext ?_)
    match x with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v14 (((cfg1.win 3).blk t).view.emb y) = V c main_v14 y
    refine congrArg (V c main_v14) (funext fun x => Fin.ext ?_)
    match x with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_arg6 (((cfg1.win 4).blk t).view.emb y) = V c main_arg6 y
    refine congrArg (V c main_arg6) (funext fun x => Fin.ext ?_)
    match x with
    | ⟨0, _⟩ => show win1_4.index t (0 : Fin 1) * 128 + 1 * (y 0).val = (y 0).val; omega

/-- Every block row of the output is some grid point's. -/
theorem idx_onto1 : ∀ q : Fin 10, ∃ t : Fin cfg1.N, win1_5.index t (0 : Fin 2) = q.val ∧ win1_5.index t (1 : Fin 2) = 0 :=
  (by decide +kernel : ∀ q : Fin 10, ∃ t : Fin grid1.N, win1_5.index t (0 : Fin 2) = q.val ∧ win1_5.index t (1 : Fin 2) = 0)

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v15).slice (win1_5.rect t)).set ↔ _
  rw [View.set_slice_whole, Rect.mem_set_unit]
  exact Iff.rfl

/-- The ten blocks of 5000 rows tile the 50000 rows: row r is in the block of point r / 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, q0, q1⟩ := idx_onto1 ⟨(i 0).val / 5000, by omega⟩
  have q0' : win1_5.index t (0 : Fin 2) = (i 0).val / 5000 := q0
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## Region 3: the second layer's update

The same kernel launched on the second layer's arrays: the same arithmetic, the same ten blocks of 5000 rows. -/

/-- What one grid point of region 3 computes from its blocks: the update of those blocks. -/
theorem nodeUpd_payload3 (a s : Vec Ideal S5000x128 .f32) (Wa Wh : Vec Ideal S128x128 .f32) (b : Vec Ideal S128 .f32) :
    k3_pay1 (F := Ideal) a Wa s Wh b = Cert.Spec.updF (R := 5000) a s Wa Wh b := by
  funext j
  unfold k3_pay1
  simp only [shapeCast_self]
  show Scalar.select (FloatOps.cmpf .ogt
        ((matmul dot_S5000x128_S128x128_S5000x128_1_0_0_1_n_n none (truncf .bf16 a bitsLt_bf16_f32) (truncf .bf16 Wa bitsLt_bf16_f32) (constant (F := Ideal) S5000x128 .f32 0x00000000#32) j
          + matmul dot_S5000x128_S128x128_S5000x128_1_0_0_1_n_n none (truncf .bf16 s bitsLt_bf16_f32) (truncf .bf16 Wh bitsLt_bf16_f32) (constant (F := Ideal) S5000x128 .f32 0x00000000#32) j)
          + broadcastTo S5000x128 (shapeCast S1x128 b shapeCasts_S128_S1x128) broadcasts_S1x128_S5000x128 j)
        (Scalar.ofBits (F := Ideal) .f32 0x00000000#32))
      ((matmul dot_S5000x128_S128x128_S5000x128_1_0_0_1_n_n none (truncf .bf16 a bitsLt_bf16_f32) (truncf .bf16 Wa bitsLt_bf16_f32) (constant (F := Ideal) S5000x128 .f32 0x00000000#32) j
          + matmul dot_S5000x128_S128x128_S5000x128_1_0_0_1_n_n none (truncf .bf16 s bitsLt_bf16_f32) (truncf .bf16 Wh bitsLt_bf16_f32) (constant (F := Ideal) S5000x128 .f32 0x00000000#32) j)
          + broadcastTo S5000x128 (shapeCast S1x128 b shapeCasts_S128_S1x128) broadcasts_S1x128_S5000x128 j)
      (Scalar.ofBits (F := Ideal) .f32 0x3E4CCCCD#32 *
        ((matmul dot_S5000x128_S128x128_S5000x128_1_0_0_1_n_n none (truncf .bf16 a bitsLt_bf16_f32) (truncf .bf16 Wa bitsLt_bf16_f32) (constant (F := Ideal) S5000x128 .f32 0x00000000#32) j
          + matmul dot_S5000x128_S128x128_S5000x128_1_0_0_1_n_n none (truncf .bf16 s bitsLt_bf16_f32) (truncf .bf16 Wh bitsLt_bf16_f32) (constant (F := Ideal) S5000x128 .f32 0x00000000#32) j)
          + broadcastTo S5000x128 (shapeCast S1x128 b shapeCasts_S128_S1x128) broadcasts_S1x128_S5000x128 j))
    = _
  rw [blockProd_apply, blockProd_apply, biasRows_apply]
  rfl

/-- The index maps of region 3, decided over its ten grid points: the two row-blocked inputs and the output are at
    block (t, 0); the two weight matrices and the bias at block 0. -/
theorem idx_facts3 : ∀ t : Fin cfg3.N, t.val < 10
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Grid point t of region 3 writes back block t of the update of the arrays the region was entered with. -/
theorem flushed3_eq (c : Dev nD) (t : Fin cfg3.N) :
    (dat3 (F := Ideal) V c).flushed 5 t = ((cfg3.win 5).blk t).view.read (Elt Ideal)
      (Cert.Spec.updF (R := 50000) (V c main_v20) (V c main_v24) (V c main_v25) (V c main_v26) (V c main_arg11)) := by
  show (cfg3.win 5).cut (grid3.coords t) ((dat3 (F := Ideal) V c).after 5 t) = _
  rw [after3_5]
  unfold out3_5
  rw [View.canon_unit_zero zeroOff2]
  simp only [View.ld_unit_zero (S := S5000x128) zeroOff2, View.ld_unit_zero (S := S128x128) zeroOff2, View.ld_unit_zero (S := S128) zeroOff1]
  obtain ⟨ht, i00, i01, i10, i11, i20, i21, i30, i31, i40, i50, i51⟩ := idx_facts3 t
  funext j
  have h5 : ((cfg3.win 5).blk t).view.emb j = rowBlockIdx t.val ht j := by
    funext x; apply Fin.ext
    match x with
    | ⟨0, _⟩ => show win3_5.index t (0 : Fin 2) * 5000 + 1 * (j 0).val = t.val * 5000 + (j 0).val; omega
    | ⟨1, _⟩ => show win3_5.index t (1 : Fin 2) * 128 + 1 * (j 1).val = (j 1).val; omega
  show k3_pay1 (F := Ideal) (iblk3 V c 0 t) (iblk3 V c 2 t) (iblk3 V c 1 t) (iblk3 V c 3 t) (iblk3 V c 4 t) j
    = Cert.Spec.updF (R := 50000) (V c main_v20) (V c main_v24) (V c main_v25) (V c main_v26) (V c main_arg11) (((cfg3.win 5).blk t).view.emb j)
  rw [h5]
  refine (congrFun (nodeUpd_payload3 (iblk3 V c 0 t) (iblk3 V c 1 t) (iblk3 V c 2 t) (iblk3 V c 3 t) (iblk3 V c 4 t)) j).trans ?_
  refine updF_rowBlock_of_eq (V c main_v20) (V c main_v24) (V c main_v25) (V c main_v26) (V c main_arg11) t.val ht
    (iblk3 V c 0 t) (iblk3 V c 1 t) (iblk3 V c 2 t) (iblk3 V c 3 t) (iblk3 V c 4 t) ?_ ?_ ?_ ?_ ?_ j
  · intro y
    show V c main_v20 (((cfg3.win 0).blk t).view.emb y) = V c main_v20 (rowBlockIdx t.val ht y)
    refine congrArg (V c main_v20) (funext fun x => Fin.ext ?_)
    match x with
    | ⟨0, _⟩ => show win3_0.index t (0 : Fin 2) * 5000 + 1 * (y 0).val = t.val * 5000 + (y 0).val; omega
    | ⟨1, _⟩ => show win3_0.index t (1 : Fin 2) * 128 + 1 * (y 1).val = (y 1).val; omega
  · intro y
    show V c main_v24 (((cfg3.win 1).blk t).view.emb y) = V c main_v24 (rowBlockIdx t.val ht y)
    refine congrArg (V c main_v24) (funext fun x => Fin.ext ?_)
    match x with
    | ⟨0, _⟩ => show win3_1.index t (0 : Fin 2) * 5000 + 1 * (y 0).val = t.val * 5000 + (y 0).val; omega
    | ⟨1, _⟩ => show win3_1.index t (1 : Fin 2) * 128 + 1 * (y 1).val = (y 1).val; omega
  · funext y
    show V c main_v25 (((cfg3.win 2).blk t).view.emb y) = V c main_v25 y
    refine congrArg (V c main_v25) (funext fun x => Fin.ext ?_)
    match x with
    | ⟨0, _⟩ => show win3_2.index t (0 : Fin 2) * 128 + 1 * (y 0).val = (y 0).val; omega
    | ⟨1, _⟩ => show win3_2.index t (1 : Fin 2) * 128 + 1 * (y 1).val = (y 1).val; omega
  · funext y
    show V c main_v26 (((cfg3.win 3).blk t).view.emb y) = V c main_v26 y
    refine congrArg (V c main_v26) (funext fun x => Fin.ext ?_)
    match x with
    | ⟨0, _⟩ => show win3_3.index t (0 : Fin 2) * 128 + 1 * (y 0).val = (y 0).val; omega
    | ⟨1, _⟩ => show win3_3.index t (1 : Fin 2) * 128 + 1 * (y 1).val = (y 1).val; omega
  · funext y
    show V c main_arg11 (((cfg3.win 4).blk t).view.emb y) = V c main_arg11 y
    refine congrArg (V c main_arg11) (funext fun x => Fin.ext ?_)
    match x with
    | ⟨0, _⟩ => show win3_4.index t (0 : Fin 1) * 128 + 1 * (y 0).val = (y 0).val; omega

/-- Every block row of region 3's output is some grid point's. -/
theorem idx_onto3 : ∀ q : Fin 10, ∃ t : Fin cfg3.N, win3_5.index t (0 : Fin 2) = q.val ∧ win3_5.index t (1 : Fin 2) = 0 :=
  (by decide +kernel : ∀ q : Fin 10, ∃ t : Fin grid3.N, win3_5.index t (0 : Fin 2) = q.val ∧ win3_5.index t (1 : Fin 2) = 0)

/-- An index of region 3's output array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v27).slice (win3_5.rect t)).set ↔ _
  rw [View.set_slice_whole, Rect.mem_set_unit]
  exact Iff.rfl

/-- Region 3's ten blocks of 5000 rows tile the 50000 rows: row r is in the block of point r / 5000. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, q0, q1⟩ := idx_onto3 ⟨(i 0).val / 5000, by omega⟩
  have q0' : win3_5.index t (0 : Fin 2) = (i 0).val / 5000 := q0
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

end NodeUpd

/-! ## The two launches, as whole arrays -/

/-- Region 1 (first layer's update): the output array main_v15 after the launch. -/
theorem region1 (c : Dev nD) :
    (dat1 (F := Ideal) V c).arrAt 5 cfg1.N
      = Cert.Spec.updF (V c main_v8) (V c main_v12) (V c main_v13) (V c main_v14) (V c main_arg6) :=
  (dat1 (F := Ideal) V c).arrAt_eq_of_cover 5
    (Cert.Spec.updF (R := 50000) (V c main_v8) (V c main_v12) (V c main_v13) (V c main_v14) (V c main_arg6))
    (fun t _ => NodeUpd.flushed1_eq V c t) NodeUpd.cover1

/-- Region 3 (second layer's update): the output array main_v27 after the launch. -/
theorem region3 (c : Dev nD) :
    (dat3 (F := Ideal) V c).arrAt 5 cfg3.N
      = Cert.Spec.updF (V c main_v20) (V c main_v24) (V c main_v25) (V c main_v26) (V c main_arg11) :=
  (dat3 (F := Ideal) V c).arrAt_eq_of_cover 5
    (Cert.Spec.updF (R := 50000) (V c main_v20) (V c main_v24) (V c main_v25) (V c main_v26) (V c main_arg11))
    (fun t _ => NodeUpd.flushed3_eq V c t) NodeUpd.cover3

end Cert.KernelIdeal.RegionVal

end
-- ==== Proof.LinkPred.lean ====
/-
  The edge classifier's launch, read as whole arrays: its first output holds the product of the two endpoint rows,
  its second the softmax over two logits of the two-layer perceptron on that product. Each grid point writes one block
  of 4000 rows of each output; the blocks tile the 800000 rows.

  First the body's arithmetic on one block is identified, entry by entry, with the specification's functions at 4000
  rows (a matrix product into a zero accumulator is the sum over the shared axis; a bias is laid along every row; the
  lane maximum and the lane sum are the fold and the sum over the two classes). Then, since every function of the
  specification reads row i of its row-indexed arguments only at row i, the function of a block of rows is the block
  of rows of the function, so what each grid point writes back is its block of the array function; and the blocks
  cover every row (row r lies in block r / 4000).
-/
import proofs.«400179_j12421045420439_1_alg».proof.Proof.Gen.KernelIdeal.Frame
import proofs.«400179_j12421045420439_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen
open Idealize.ShloMosaic Idealize.ShloMosaic.TcCoe Idealize.SL.Sem Idealize.ShloMosaic.ValueIdx
open Idealize.ShloMosaic.Pipeline (Dat Cfg Window)

-- The buffer contents a region is entered with: a parameter, as in the frame.
variable (V : (c : Dev nD) → (b : Ref sig .tc) → Buf (Elt Ideal) ((c : Thread nD τ).loc b))

namespace LinkPred

/-! ## The block's arithmetic, entry by entry -/

/-- The row of a matrix index, as an index of a vector of rows. -/
abbrev rowOf {R C : Nat} (i : (⟨2, ![R, C]⟩ : Shape).Idx) : (⟨1, ![R]⟩ : Shape).Idx := fun a => match a with
  | ⟨0, _⟩ => ⟨(i 0).val, (i 0).isLt⟩

/-- The first payload is the entrywise product of the two loaded blocks. -/
theorem edge_block (x0 x1 : Vec Ideal S4000x128 .f32) :
    k4_pay1 (F := Ideal) x0 x1 = Cert.Spec.edgeF (R := 4000) x0 x1 := by
  unfold k4_pay1
  simp only [shapeCast_self]
  rfl

/-! ### The two matrix products: the contraction re-indexed to the shared axis -/

theorem lhs_hid_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_hid_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_hid_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_hid_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The hidden layer's product into a zero accumulator is the sum over the shared axis. -/
theorem hid_dot (x : FVec Ideal S4000x128 .bf16) (w : FVec Ideal S128x128 .bf16) (i : S4000x128.Idx) :
    matmul dot_S4000x128_S128x128_S4000x128_1_0_0_1_n_n none x w (constant S4000x128 .f32 0x00000000#32) i
      = Cert.Spec.dotAt (R := 4000) (K := 128) (C := 128) x w i := by
  simp only [matmul]
  rw [Ideal.matmul_constant_zero_apply, ← Equiv.sum_comp (ValueIdx.contrEquiv1 dot_S4000x128_S128x128_S4000x128_1_0_0_1_n_n 128 rfl rfl).symm]
  unfold Cert.Spec.dotAt
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx i ((ValueIdx.contrEquiv1 dot_S4000x128_S128x128_S4000x128_1_0_0_1_n_n 128 rfl rfl).symm k) = Cert.Spec.rowK i k := funext fun a => Fin.ext (by
    match a with
    | ⟨0, _⟩ => exact lhs_hid_0 _ _
    | ⟨1, _⟩ => exact (lhs_hid_1 _ _).trans hk)
  have er : dot_S4000x128_S128x128_S4000x128_1_0_0_1_n_n.rhsIdx i ((ValueIdx.contrEquiv1 dot_S4000x128_S128x128_S4000x128_1_0_0_1_n_n 128 rfl rfl).symm k) = Cert.Spec.kCol i k := funext fun a => Fin.ext (by
    match a with
    | ⟨0, _⟩ => exact (rhs_hid_0 _ _).trans hk
    | ⟨1, _⟩ => exact rhs_hid_1 _ _)
  rw [el, er]

theorem lhs_logit_0 (i : S4000x2.Idx) (q : dot_S4000x128_S128x2_S4000x2_1_0_0_1_n_n.contr.Idx) :
    (dot_S4000x128_S128x2_S4000x2_1_0_0_1_n_n.lhsIdx i q 0).val = (i 0).val := by
  unfold DotDims.lhsIdx
  rw [dif_neg (show ¬(0 : Fin S4000x128.rank) ∈ dot_S4000x128_S128x2_S4000x2_1_0_0_1_n_n.lhsBatch by decide), dif_pos (show (0 : Fin S4000x128.rank) ∈ dot_S4000x128_S128x2_S4000x2_1_0_0_1_n_n.lhsNonContracting by decide)]
  rfl
theorem lhs_logit_1 (i : S4000x2.Idx) (q : dot_S4000x128_S128x2_S4000x2_1_0_0_1_n_n.contr.Idx) :
    (dot_S4000x128_S128x2_S4000x2_1_0_0_1_n_n.lhsIdx i q 1).val = (q ⟨0, by decide⟩).val :=
  dot_S4000x128_S128x2_S4000x2_1_0_0_1_n_n.lhsIdx_val_of_single rfl i q
theorem rhs_logit_0 (i : S4000x2.Idx) (q : dot_S4000x128_S128x2_S4000x2_1_0_0_1_n_n.contr.Idx) :
    (dot_S4000x128_S128x2_S4000x2_1_0_0_1_n_n.rhsIdx i q 0).val = (q ⟨0, by decide⟩).val :=
  dot_S4000x128_S128x2_S4000x2_1_0_0_1_n_n.rhsIdx_val_of_single rfl i q
theorem rhs_logit_1 (i : S4000x2.Idx) (q : dot_S4000x128_S128x2_S4000x2_1_0_0_1_n_n.contr.Idx) :
    (dot_S4000x128_S128x2_S4000x2_1_0_0_1_n_n.rhsIdx i q 1).val = (i 1).val := by
  unfold DotDims.rhsIdx
  rw [dif_neg (show ¬(1 : Fin S128x2.rank) ∈ dot_S4000x128_S128x2_S4000x2_1_0_0_1_n_n.rhsBatch by decide), dif_pos (show (1 : Fin S128x2.rank) ∈ dot_S4000x128_S128x2_S4000x2_1_0_0_1_n_n.rhsNonContracting by decide)]
  rfl

/-- The logits' product into a zero accumulator is the sum over the shared axis. -/
theorem logit_dot (x : FVec Ideal S4000x128 .bf16) (w : FVec Ideal S128x2 .bf16) (i : S4000x2.Idx) :
    matmul dot_S4000x128_S128x2_S4000x2_1_0_0_1_n_n none x w (constant S4000x2 .f32 0x00000000#32) i
      = Cert.Spec.dotAt (R := 4000) (K := 128) (C := 2) x w i := by
  simp only [matmul]
  rw [Ideal.matmul_constant_zero_apply, ← Equiv.sum_comp (ValueIdx.contrEquiv1 dot_S4000x128_S128x2_S4000x2_1_0_0_1_n_n 128 rfl rfl).symm]
  unfold Cert.Spec.dotAt
  refine Finset.sum_congr rfl fun k _ => ?_
  have hk := ValueIdx.contrEquiv1_symm_val dot_S4000x128_S128x2_S4000x2_1_0_0_1_n_n 128 rfl rfl k
  have el : dot_S4000x128_S128x2_S4000x2_1_0_0_1_n_n.lhsIdx i ((ValueIdx.contrEquiv1 dot_S4000x128_S128x2_S4000x2_1_0_0_1_n_n 128 rfl rfl).symm k) = Cert.Spec.rowK i k := funext fun a => Fin.ext (by
    match a with
    | ⟨0, _⟩ => exact lhs_logit_0 _ _
    | ⟨1, _⟩ => exact (lhs_logit_1 _ _).trans hk)
  have er : dot_S4000x128_S128x2_S4000x2_1_0_0_1_n_n.rhsIdx i ((ValueIdx.contrEquiv1 dot_S4000x128_S128x2_S4000x2_1_0_0_1_n_n 128 rfl rfl).symm k) = Cert.Spec.kCol i k := funext fun a => Fin.ext (by
    match a with
    | ⟨0, _⟩ => exact (rhs_logit_0 _ _).trans hk
    | ⟨1, _⟩ => exact rhs_logit_1 _ _)
  rw [el, er]

/-! ### A bias laid along every row; a column laid along every lane -/

/-- A vector cast to one row and broadcast down the rows reads, at an entry, the vector at the entry's column. -/
theorem bias_rows {m n : Nat} (b : (⟨1, ![n]⟩ : Shape).Idx → EReal)
    (h1 : (⟨1, ![n]⟩ : Shape).ShapeCasts ⟨2, ![1, n]⟩) (h2 : (⟨2, ![1, n]⟩ : Shape).Broadcasts ⟨2, ![m, n]⟩)
    (i : (⟨2, ![m, n]⟩ : Shape).Idx) :
    broadcastTo ⟨2, ![m, n]⟩ (shapeCast ⟨2, ![1, n]⟩ b h1) h2 i = b (Cert.Spec.colOf i) := by
  have e1 := broadcastTo_apply (shapeCast ⟨2, ![1, n]⟩ b h1) h2 i (ix2 (0 : Fin 1) (i 1 : Fin n)) (by
    intro a
    match a with
    | ⟨0, _⟩ => rfl
    | ⟨1, _⟩ =>
      show (i 1).val = if n = 1 then 0 else (i 1).val
      split
      · have := (i 1).isLt; have e : (i 1).val < n := this; omega
      · rfl)
  have e2 := shapeCast_apply b h1 (ix2 (0 : Fin 1) (i 1 : Fin n)) (Cert.Spec.colOf i) (by
    rw [Shape.rowMajor_val_two, Shape.rowMajor_val_one]; show (i 1).val = 0 * n + (i 1).val; omega)
  exact e1.trans e2

/-- A vector of rows cast to one column and broadcast along the lanes reads, at an entry, the vector at the entry's row. -/
theorem col_lanes {m n : Nat} (v : (⟨1, ![m]⟩ : Shape).Idx → EReal)
    (h1 : (⟨1, ![m]⟩ : Shape).ShapeCasts ⟨2, ![m, 1]⟩) (h2 : (⟨2, ![m, 1]⟩ : Shape).Broadcasts ⟨2, ![m, n]⟩)
    (i : (⟨2, ![m, n]⟩ : Shape).Idx) :
    broadcastTo ⟨2, ![m, n]⟩ (shapeCast ⟨2, ![m, 1]⟩ v h1) h2 i = v (rowOf i) := by
  have e1 := broadcastTo_apply (shapeCast ⟨2, ![m, 1]⟩ v h1) h2 i (ix2 (i 0 : Fin m) (0 : Fin 1)) (by
    intro a
    match a with
    | ⟨0, _⟩ =>
      show (i 0).val = if m = 1 then 0 else (i 0).val
      split
      · have := (i 0).isLt; have e : (i 0).val < m := this; omega
      · rfl
    | ⟨1, _⟩ => rfl)
  have e2 := shapeCast_apply v h1 (ix2 (i 0 : Fin m) (0 : Fin 1)) (rowOf i) (by
    rw [Shape.rowMajor_val_two, Shape.rowMajor_val_one]; show (i 0).val = (i 0).val * 1 + 0; omega)
  exact e1.trans e2

/-! ### The lane maximum and the lane sum -/

/-- The maximum over the two lanes of a row, folded from −∞. -/
theorem lane_max (l : FVec Ideal S4000x2 .f32) (i : S4000x2.Idx) :
    multiReduction (F := Ideal) .maximumf [1] S4000 l 0xFF800000#32 reduces_S4000x2_S4000 (.inl rfl) rfl (rowOf i)
      = (Finset.univ : Finset (Fin 2)).fold max (Ideal.ofBits .f32 0xFF800000#32) fun k => l (Cert.Spec.rowK i k) := by
  refine (Ideal.multiReduction_maximumf_single l 0xFF800000#32 reduces_S4000x2_S4000 (.inl rfl) rfl (rowOf i)).trans ?_
  have hl : (l ∘ reduces_S4000x2_S4000.lift (rowOf i)) = fun k : Fin 2 => l (Cert.Spec.rowK i k) := by
    funext k
    show l _ = l _
    congr 1
    funext a
    apply Fin.ext
    match a with
    | ⟨0, _⟩ => rfl
    | ⟨1, _⟩ => rfl
  rw [hl]
  rfl

/-- The sum over the two lanes of a row. -/
theorem lane_sum (e : FVec Ideal S4000x2 .f32) (i : S4000x2.Idx) :
    multiReduction (F := Ideal) .add [1] S4000 e 0x00000000#32 reduces_S4000x2_S4000 (.inl rfl) rfl (rowOf i)
      = ∑ k : Fin 2, e (Cert.Spec.rowK i k) := by
  refine (Ideal.multiReduction_add_single e 0x00000000#32 reduces_S4000x2_S4000 (.inl rfl) rfl (rowOf i)).trans ?_
  refine Finset.sum_congr rfl fun k _ => ?_
  congr 1
  funext a
  apply Fin.ext
  match a with
  | ⟨0, _⟩ => rfl
  | ⟨1, _⟩ => rfl

/-! ### The second payload: the classifier on a block, stage by stage -/

/-- The hidden layer before its rectifier: the product with the first weight matrix plus the bias row. -/
theorem hid_pre (he : FVec Ideal S4000x128 .f32) (W1 : Vec Ideal S128x128 .f32) (b1 : Vec Ideal S128 .f32) :
    addf (matmul dot_S4000x128_S128x128_S4000x128_1_0_0_1_n_n none (truncf .bf16 he bitsLt_bf16_f32) (truncf .bf16 W1 bitsLt_bf16_f32)
          (constant S4000x128 .f32 0x00000000#32))
        (broadcastTo S4000x128 (shapeCast S1x128 b1 shapeCasts_S128_S1x128) broadcasts_S1x128_S4000x128)
      = fun i => Cert.Spec.dotAt (R := 4000) he W1 i + b1 (Cert.Spec.colOf i) := by
  funext i
  rw [addf_apply, hid_dot, bias_rows]
  rfl

/-- The rectifier, entry by entry. -/
theorem leaky_vec (z : FVec Ideal S4000x128 .f32) :
    select (cmpf .ogt z (broadcast S4000x128 (Scalar.ofBits (F := Ideal) .f32 0x00000000#32))) z
        (mulf (broadcast S4000x128 (Scalar.ofBits (F := Ideal) .f32 0x3E4CCCCD#32)) z)
      = fun i => Cert.Spec.leaky (z i) := rfl

/-- The two logits: the product with the second weight matrix plus the bias row. -/
theorem logit_vec (z : FVec Ideal S4000x128 .f32) (W2 : Vec Ideal S128x2 .f32) (b2 : Vec Ideal S2 .f32) :
    addf (matmul dot_S4000x128_S128x2_S4000x2_1_0_0_1_n_n none (truncf .bf16 z bitsLt_bf16_f32) (truncf .bf16 W2 bitsLt_bf16_f32)
          (constant S4000x2 .f32 0x00000000#32))
        (broadcastTo S4000x2 (shapeCast S1x2 b2 shapeCasts_S2_S1x2) broadcasts_S1x2_S4000x2)
      = Cert.Spec.logitF (R := 4000) z W2 b2 := by
  funext i
  rw [addf_apply, logit_dot, bias_rows]
  rfl

/-- The row maximum laid along the two lanes. -/
theorem rowmax_vec (l : FVec Ideal S4000x2 .f32) :
    broadcastTo S4000x2 (shapeCast S4000x1
        (maximumf (broadcast S4000 (Scalar.ofBits (F := Ideal) .f32 0xFF800000#32))
          (multiReduction (F := Ideal) .maximumf [1] S4000 l 0xFF800000#32 reduces_S4000x2_S4000 (.inl rfl) rfl))
        shapeCasts_S4000_S4000x1) broadcasts_S4000x1_S4000x2
      = fun i => Cert.Spec.rowMax (R := 4000) l i := by
  funext i
  rw [col_lanes, maximumf_apply, lane_max]
  rfl

/-- The exponentials divided by their sum over the two lanes. -/
theorem soft_vec (l m : FVec Ideal S4000x2 .f32) :
    divf (exp (subf l m)) (broadcastTo S4000x2 (shapeCast S4000x1
        (multiReduction (F := Ideal) .add [1] S4000 (exp (subf l m)) 0x00000000#32 reduces_S4000x2_S4000 (.inl rfl) rfl)
        shapeCasts_S4000_S4000x1) broadcasts_S4000x1_S4000x2)
      = fun i => Ideal.div (Ideal.exp (l i - m i)) (∑ k : Fin 2, Ideal.exp (l (Cert.Spec.rowK i k) - m (Cert.Spec.rowK i k))) := by
  funext i
  rw [divf_apply, col_lanes, lane_sum]
  rfl

/-- The second payload is the softmax over the two logits of the perceptron on the product of the two loaded blocks. -/
theorem prob_block (x0 x1 : Vec Ideal S4000x128 .f32) (W1 : Vec Ideal S128x128 .f32) (b1 : Vec Ideal S128 .f32)
    (W2 : Vec Ideal S128x2 .f32) (b2 : Vec Ideal S2 .f32) :
    k4_pay2 (F := Ideal) x0 x1 W1 b1 W2 b2 = Cert.Spec.probF (R := 4000) x0 x1 W1 b1 W2 b2 := by
  unfold k4_pay2
  rw [edge_block]
  simp only []
  rw [hid_pre, leaky_vec, logit_vec, rowmax_vec, soft_vec]
  rfl

/-! ## A block of rows of the array functions

Every function of the specification reads row i of its row-indexed arguments only at row i, so the function of a
block of rows is the block of rows of the function. -/

/-- A matrix index carried along a map of rows. -/
abbrev onRows {R' R C : Nat} (ρ : Fin R' → Fin R) (i : (⟨2, ![R', C]⟩ : Shape).Idx) : (⟨2, ![R, C]⟩ : Shape).Idx := fun a => match a with
  | ⟨0, _⟩ => ⟨(ρ ⟨(i 0).val, (i 0).isLt⟩).val, (ρ ⟨(i 0).val, (i 0).isLt⟩).isLt⟩
  | ⟨1, _⟩ => ⟨(i 1).val, (i 1).isLt⟩

theorem onRows_rowK {R' R C K : Nat} (ρ : Fin R' → Fin R) (i : (⟨2, ![R', C]⟩ : Shape).Idx) (k : Fin K) :
    onRows ρ (Cert.Spec.rowK i k) = Cert.Spec.rowK (onRows ρ i) k := by
  funext a
  match a with
  | ⟨0, _⟩ => rfl
  | ⟨1, _⟩ => rfl

theorem kCol_onRows {R' R C K : Nat} (ρ : Fin R' → Fin R) (i : (⟨2, ![R', C]⟩ : Shape).Idx) (k : Fin K) :
    Cert.Spec.kCol (onRows ρ i) k = Cert.Spec.kCol i k := by
  funext a
  match a with
  | ⟨0, _⟩ => rfl
  | ⟨1, _⟩ => rfl

theorem colOf_onRows {R' R C : Nat} (ρ : Fin R' → Fin R) (i : (⟨2, ![R', C]⟩ : Shape).Idx) :
    Cert.Spec.colOf (onRows ρ i) = Cert.Spec.colOf i := by
  funext a
  match a with
  | ⟨0, _⟩ => rfl

theorem dotAt_rows {R' R K C : Nat} (ρ : Fin R' → Fin R) (x : Cert.Spec.Mat R K) (W : Cert.Spec.Mat K C)
    (i : (⟨2, ![R', C]⟩ : Shape).Idx) :
    Cert.Spec.dotAt (fun j => x (onRows ρ j)) W i = Cert.Spec.dotAt x W (onRows ρ i) := by
  unfold Cert.Spec.dotAt
  refine Finset.sum_congr rfl fun k _ => ?_
  show x (onRows ρ (Cert.Spec.rowK i k)) * W (Cert.Spec.kCol i k) = _
  rw [onRows_rowK, kCol_onRows]

theorem edgeF_rows {R' R : Nat} (ρ : Fin R' → Fin R) (a b : Cert.Spec.Mat R 128) :
    Cert.Spec.edgeF (fun j => a (onRows ρ j)) (fun j => b (onRows ρ j)) = fun j => Cert.Spec.edgeF a b (onRows ρ j) := rfl

theorem hidF_rows {R' R : Nat} (ρ : Fin R' → Fin R) (he : Cert.Spec.Mat R 128) (W1 : Cert.Spec.Mat 128 128) (b1 : Cert.Spec.Vc 128) :
    Cert.Spec.hidF (fun j => he (onRows ρ j)) W1 b1 = fun j => Cert.Spec.hidF he W1 b1 (onRows ρ j) := by
  funext i
  unfold Cert.Spec.hidF
  rw [dotAt_rows, colOf_onRows]

theorem logitF_rows {R' R : Nat} (ρ : Fin R' → Fin R) (z : Cert.Spec.Mat R 128) (W2 : Cert.Spec.Mat 128 2) (b2 : Cert.Spec.Vc 2) :
    Cert.Spec.logitF (fun j => z (onRows ρ j)) W2 b2 = fun j => Cert.Spec.logitF z W2 b2 (onRows ρ j) := by
  funext i
  unfold Cert.Spec.logitF
  rw [dotAt_rows, colOf_onRows]

theorem rowMax_rows {R' R : Nat} (ρ : Fin R' → Fin R) (l : Cert.Spec.Mat R 2) (i : (⟨2, ![R', 2]⟩ : Shape).Idx) :
    Cert.Spec.rowMax (fun j => l (onRows ρ j)) i = Cert.Spec.rowMax l (onRows ρ i) := by
  unfold Cert.Spec.rowMax
  simp only [onRows_rowK]

theorem softF_rows {R' R : Nat} (ρ : Fin R' → Fin R) (l : Cert.Spec.Mat R 2) :
    Cert.Spec.softF (fun j => l (onRows ρ j)) = fun j => Cert.Spec.softF l (onRows ρ j) := by
  funext i
  unfold Cert.Spec.softF
  simp only [rowMax_rows, onRows_rowK]

/-- The class probabilities of a block of rows are the block of rows of the class probabilities. -/
theorem probF_rows {R' R : Nat} (ρ : Fin R' → Fin R) (a b : Cert.Spec.Mat R 128) (W1 : Cert.Spec.Mat 128 128) (b1 : Cert.Spec.Vc 128)
    (W2 : Cert.Spec.Mat 128 2) (b2 : Cert.Spec.Vc 2) :
    Cert.Spec.probF (fun j => a (onRows ρ j)) (fun j => b (onRows ρ j)) W1 b1 W2 b2
      = fun j => Cert.Spec.probF a b W1 b1 W2 b2 (onRows ρ j) := by
  unfold Cert.Spec.probF
  rw [edgeF_rows, hidF_rows, logitF_rows, softF_rows]

/-! ## What a grid point writes back -/

theorem zero2 : (![0, 0] : Fin 2 → Nat) = fun _ => 0 := funext fun a => by fin_cases a <;> rfl
theorem zero1 : (![0] : Fin 1 → Nat) = fun _ => 0 := funext fun a => by fin_cases a <;> rfl

/-- The windows' index maps, evaluated at every grid point: the windows of 4000 rows sit at block (t, 0), the
    whole-array windows at block 0. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem grid_points : cfg4.N = 200 := rfl

/-- Row r of grid point t's block is row 4000 t + r of the array. -/
def blockRow (t : Fin cfg4.N) : Fin 4000 → Fin 800000 := fun r =>
  ⟨t.val * 4000 + r.val, by have h1 := t.isLt; have h2 := grid_points; have h3 := r.isLt; omega⟩

theorem emb_rows0 (t : Fin cfg4.N) (j : S4000x128.Idx) : ((cfg4.win 0).blk t).view.emb j = onRows (blockRow t) j := by
  obtain ⟨e0, e1, -⟩ := block_index t
  funext a; apply Fin.ext
  match a with
  | ⟨0, _⟩ => show win4_0.index t (0 : Fin 2) * 4000 + 1 * (j 0).val = t.val * 4000 + (j 0).val; omega
  | ⟨1, _⟩ => show win4_0.index t (1 : Fin 2) * 128 + 1 * (j 1).val = (j 1).val; omega

theorem emb_rows1 (t : Fin cfg4.N) (j : S4000x128.Idx) : ((cfg4.win 1).blk t).view.emb j = onRows (blockRow t) j := by
  obtain ⟨-, -, e0, e1, -⟩ := block_index t
  funext a; apply Fin.ext
  match a with
  | ⟨0, _⟩ => show win4_1.index t (0 : Fin 2) * 4000 + 1 * (j 0).val = t.val * 4000 + (j 0).val; omega
  | ⟨1, _⟩ => show win4_1.index t (1 : Fin 2) * 128 + 1 * (j 1).val = (j 1).val; omega

theorem emb_whole2 (t : Fin cfg4.N) (j : S128x128.Idx) : ((cfg4.win 2).blk t).view.emb j = j := by
  obtain ⟨-, -, -, -, e0, e1, -⟩ := block_index t
  funext a; apply Fin.ext
  match a with
  | ⟨0, _⟩ => show win4_2.index t (0 : Fin 2) * 128 + 1 * (j 0).val = (j 0).val; omega
  | ⟨1, _⟩ => show win4_2.index t (1 : Fin 2) * 128 + 1 * (j 1).val = (j 1).val; omega

theorem emb_whole3 (t : Fin cfg4.N) (j : S128.Idx) : ((cfg4.win 3).blk t).view.emb j = j := by
  obtain ⟨-, -, -, -, -, -, e0, -⟩ := block_index t
  funext a; apply Fin.ext
  match a with
  | ⟨0, _⟩ => show win4_3.index t (0 : Fin 1) * 128 + 1 * (j 0).val = (j 0).val; omega

theorem emb_whole4 (t : Fin cfg4.N) (j : S128x2.Idx) : ((cfg4.win 4).blk t).view.emb j = j := by
  obtain ⟨-, -, -, -, -, -, -, e0, e1, -⟩ := block_index t
  funext a; apply Fin.ext
  match a with
  | ⟨0, _⟩ => show win4_4.index t (0 : Fin 2) * 128 + 1 * (j 0).val = (j 0).val; omega
  | ⟨1, _⟩ => show win4_4.index t (1 : Fin 2) * 2 + 1 * (j 1).val = (j 1).val; omega

theorem emb_whole5 (t : Fin cfg4.N) (j : S2.Idx) : ((cfg4.win 5).blk t).view.emb j = j := by
  obtain ⟨-, -, -, -, -, -, -, -, -, e0, -⟩ := block_index t
  funext a; apply Fin.ext
  match a with
  | ⟨0, _⟩ => show win4_5.index t (0 : Fin 1) * 2 + 1 * (j 0).val = (j 0).val; omega

theorem emb_rows6 (t : Fin cfg4.N) (j : S4000x128.Idx) : ((cfg4.win 6).blk t).view.emb j = onRows (blockRow t) j := by
  obtain ⟨-, -, -, -, -, -, -, -, -, -, e0, e1, -⟩ := block_index t
  funext a; apply Fin.ext
  match a with
  | ⟨0, _⟩ => show win4_6.index t (0 : Fin 2) * 4000 + 1 * (j 0).val = t.val * 4000 + (j 0).val; omega
  | ⟨1, _⟩ => show win4_6.index t (1 : Fin 2) * 128 + 1 * (j 1).val = (j 1).val; omega

theorem emb_rows7 (t : Fin cfg4.N) (j : S4000x2.Idx) : ((cfg4.win 7).blk t).view.emb j = onRows (blockRow t) j := by
  obtain ⟨-, -, -, -, -, -, -, -, -, -, -, -, e0, e1⟩ := block_index t
  funext a; apply Fin.ext
  match a with
  | ⟨0, _⟩ => show win4_7.index t (0 : Fin 2) * 4000 + 1 * (j 0).val = t.val * 4000 + (j 0).val; omega
  | ⟨1, _⟩ => show win4_7.index t (1 : Fin 2) * 2 + 1 * (j 1).val = (j 1).val; omega

/-- The two endpoint blocks are the rows of the endpoint arrays under the point; the weights and biases are whole. -/
theorem iblk_rows0 (c : Dev nD) (t : Fin cfg4.N) :
    iblk4 (F := Ideal) V c 0 t = fun j : S4000x128.Idx => V c main_v29 (onRows (blockRow t) j) := by
  funext j
  show V c main_v29 (((cfg4.win 0).blk t).view.emb j) = _
  rw [emb_rows0]
theorem iblk_rows1 (c : Dev nD) (t : Fin cfg4.N) :
    iblk4 (F := Ideal) V c 1 t = fun j : S4000x128.Idx => V c main_v30 (onRows (blockRow t) j) := by
  funext j
  show V c main_v30 (((cfg4.win 1).blk t).view.emb j) = _
  rw [emb_rows1]
theorem iblk_whole2 (c : Dev nD) (t : Fin cfg4.N) : iblk4 (F := Ideal) V c 2 t = V c main_arg13 := by
  funext j
  show V c main_arg13 (((cfg4.win 2).blk t).view.emb j) = _
  rw [emb_whole2]
theorem iblk_whole3 (c : Dev nD) (t : Fin cfg4.N) : iblk4 (F := Ideal) V c 3 t = V c main_arg14 := by
  funext j
  show V c main_arg14 (((cfg4.win 3).blk t).view.emb j) = _
  rw [emb_whole3]
theorem iblk_whole4 (c : Dev nD) (t : Fin cfg4.N) : iblk4 (F := Ideal) V c 4 t = V c main_arg15 := by
  funext j
  show V c main_arg15 (((cfg4.win 4).blk t).view.emb j) = _
  rw [emb_whole4]
theorem iblk_whole5 (c : Dev nD) (t : Fin cfg4.N) : iblk4 (F := Ideal) V c 5 t = V c main_arg16 := by
  funext j
  show V c main_arg16 (((cfg4.win 5).blk t).view.emb j) = _
  rw [emb_whole5]

/-- What point t writes back to the first output is its block of rows of the edge embedding of the entry arrays. -/
theorem edge_flushed (c : Dev nD) (t : Fin cfg4.N) :
    (dat4 (F := Ideal) V c).flushed 6 t
      = ((cfg4.win 6).blk t).view.read (Elt Ideal) (Cert.Spec.edgeF (V c main_v29) (V c main_v30)) := by
  show (cfg4.win 6).cut (grid4.coords t) ((dat4 (F := Ideal) V c).after 6 t) = _
  rw [after4_6]
  unfold out4_6
  rw [View.canon_unit_zero zero2]
  simp only [View.ld_unit_zero (S := S4000x128) zero2]
  rw [edge_block, iblk_rows0, iblk_rows1]
  funext j
  show Cert.Spec.edgeF (V c main_v29) (V c main_v30) (onRows (blockRow t) j)
    = Cert.Spec.edgeF (V c main_v29) (V c main_v30) (((cfg4.win 6).blk t).view.emb j)
  rw [emb_rows6]

/-- What point t writes back to the second output is its block of rows of the class probabilities of the entry arrays. -/
theorem prob_flushed (c : Dev nD) (t : Fin cfg4.N) :
    (dat4 (F := Ideal) V c).flushed 7 t
      = ((cfg4.win 7).blk t).view.read (Elt Ideal)
          (Cert.Spec.probF (V c main_v29) (V c main_v30) (V c main_arg13) (V c main_arg14) (V c main_arg15) (V c main_arg16)) := by
  show (cfg4.win 7).cut (grid4.coords t) ((dat4 (F := Ideal) V c).after 7 t) = _
  rw [after4_7]
  unfold out4_7
  rw [View.canon_unit_zero zero2]
  simp only [View.ld_unit_zero (S := S4000x128) zero2, View.ld_unit_zero (S := S128x128) zero2,
    View.ld_unit_zero (S := S128) zero1, View.ld_unit_zero (S := S128x2) zero2, View.ld_unit_zero (S := S2) zero1]
  rw [prob_block, iblk_rows0, iblk_rows1, iblk_whole2, iblk_whole3, iblk_whole4, iblk_whole5, probF_rows]
  funext j
  show Cert.Spec.probF (V c main_v29) (V c main_v30) (V c main_arg13) (V c main_arg14) (V c main_arg15) (V c main_arg16) (onRows (blockRow t) j)
    = Cert.Spec.probF (V c main_v29) (V c main_v30) (V c main_arg13) (V c main_arg14) (V c main_arg15) (V c main_arg16) (((cfg4.win 7).blk t).view.emb j)
  rw [emb_rows7]

/-! ## The blocks tile the rows -/

/-- An index of the first output is in point t's block iff each coordinate is in the block's range on its axis. -/
theorem mem_blk6 (t : Fin cfg4.N) (i : S800000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v31_0).slice (win4_6.rect t)).set ↔ _
  rw [View.set_slice_whole, Rect.mem_set_unit]
  exact Iff.rfl

/-- An index of the second output is in point t's block iff each coordinate is in the block's range on its axis. -/
theorem mem_blk7 (t : Fin cfg4.N) (i : S800000x2.Idx) :
    i ∈ ((cfg4.win 7).blk t).view.set ↔ ∀ a : Fin 2, win4_7.index t a * S4000x2.size a ≤ (i a).val ∧ (i a).val < win4_7.index t a * S4000x2.size a + S4000x2.size a := by
  show i ∈ ((View.whole main_v31_1).slice (win4_7.rect t)).set ↔ _
  rw [View.set_slice_whole, Rect.mem_set_unit]
  exact Iff.rfl

/-- Row r of the first output lies in the block of point r / 4000. -/
theorem edge_cover (i : S800000x128.Idx) :
    ∃ t : Fin cfg4.N, (cfg4.win 6).flush t = true ∧ i ∈ ((cfg4.win 6).blk t).view.set := by
  have hi0 : (i 0).val < 800000 := (i 0).isLt
  have hi1 : (i 1).val < 128 := (i 1).isLt
  obtain ⟨t, ht⟩ : ∃ t : Fin cfg4.N, t.val = (i 0).val / 4000 := ⟨⟨(i 0).val / 4000, by rw [grid_points]; omega⟩, rfl⟩
  obtain ⟨-, -, -, -, -, -, -, -, -, -, e0, e1, -⟩ := block_index t
  refine ⟨t, flush4_6 t, ?_⟩
  rw [mem_blk6]
  intro a
  match a with
  | ⟨0, _⟩ => show win4_6.index t (0 : Fin 2) * 4000 ≤ (i 0).val ∧ (i 0).val < win4_6.index t (0 : Fin 2) * 4000 + 4000; omega
  | ⟨1, _⟩ => show win4_6.index t (1 : Fin 2) * 128 ≤ (i 1).val ∧ (i 1).val < win4_6.index t (1 : Fin 2) * 128 + 128; omega

/-- Row r of the second output lies in the block of point r / 4000. -/
theorem prob_cover (i : S800000x2.Idx) :
    ∃ t : Fin cfg4.N, (cfg4.win 7).flush t = true ∧ i ∈ ((cfg4.win 7).blk t).view.set := by
  have hi0 : (i 0).val < 800000 := (i 0).isLt
  have hi1 : (i 1).val < 2 := (i 1).isLt
  obtain ⟨t, ht⟩ : ∃ t : Fin cfg4.N, t.val = (i 0).val / 4000 := ⟨⟨(i 0).val / 4000, by rw [grid_points]; omega⟩, rfl⟩
  obtain ⟨-, -, -, -, -, -, -, -, -, -, -, -, e0, e1⟩ := block_index t
  refine ⟨t, flush4_7 t, ?_⟩
  rw [mem_blk7]
  intro a
  match a with
  | ⟨0, _⟩ => show win4_7.index t (0 : Fin 2) * 4000 ≤ (i 0).val ∧ (i 0).val < win4_7.index t (0 : Fin 2) * 4000 + 4000; omega
  | ⟨1, _⟩ => show win4_7.index t (1 : Fin 2) * 2 ≤ (i 1).val ∧ (i 1).val < win4_7.index t (1 : Fin 2) * 2 + 2; omega

end LinkPred

open LinkPred in
/-- Region 4, first output main_v31_0: the edge embedding. -/
theorem region4_edge (c : Dev nD) :
    (dat4 (F := Ideal) V c).arrAt 6 cfg4.N = Cert.Spec.edgeF (V c main_v29) (V c main_v30) :=
  (dat4 (F := Ideal) V c).arrAt_eq_of_cover 6 (Cert.Spec.edgeF (V c main_v29) (V c main_v30))
    (fun t _ => edge_flushed V c t) edge_cover

open LinkPred in
/-- Region 4, second output main_v31_1: the class probabilities. -/
theorem region4_prob (c : Dev nD) :
    (dat4 (F := Ideal) V c).arrAt 7 cfg4.N
      = Cert.Spec.probF (V c main_v29) (V c main_v30) (V c main_arg13) (V c main_arg14) (V c main_arg15) (V c main_arg16) :=
  (dat4 (F := Ideal) V c).arrAt_eq_of_cover 7
    (Cert.Spec.probF (V c main_v29) (V c main_v30) (V c main_arg13) (V c main_arg14) (V c main_arg15) (V c main_arg16))
    (fun t _ => prob_flushed V c t) prob_cover

end Cert.KernelIdeal.RegionVal

end
-- ==== Proof.KernelHostA.lean ====
/-
  What the kernel program's buffers hold when its first three regions are entered, in terms of the launch memory and of
  what the earlier regions left: the host operations between regions are a gather of node rows at the edge sources, the
  accumulating scatter of messages into their targets, the scaling of the node features by 1 + eps, and the two halves of
  the stacked weight matrix. A buffer no operation writes keeps its contents across a stretch and across a region.
-/
import proofs.«400179_j12421045420439_1_alg».proof.Proof.Gen.KernelIdeal.Frame
import proofs.«400179_j12421045420439_1_alg».proof.Proof.HostTerms
import Idealize.ShloMosaic.Lib.StableHlo.Run
import Idealize.ShloMosaic.PureOps.Ideal

noncomputable section

namespace Cert.KernelIdeal.KHost

open Cert.KernelIdeal Cert.KernelIdeal.Gen Cert.KernelIdeal.HostTerms
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The edge-list stretch: the two rows of the edge list -/

/-- The buffers the edge-list stretch writes. -/
def wr0 : List (Ref sig .tc) := [main_v0, main_v1, main_v2, main_v3]

theorem hostOps0_wr {F : FTy → Type} [FloatOps F] :
    (hostOps0 (F := F) : List (HloOp τ sig (Elt F))).Forall fun op =>
      op.writes ⊆ (wr0.map (Proc.devRef (τ := τ) .tc)).toFinset := by
  simp only [hostOps0, wr0, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer outside that list keeps its contents across the stretch. -/
theorem keep0 {F : FTy → Type} [FloatOps F] (W : Valuation τ sig (Elt F)) {b : Ref sig .tc} (hb : b ∉ wr0) :
    StableHlo.after (hostOps0 (F := F)) W (Proc.devRef .tc b) = W (Proc.devRef .tc b) :=
  StableHlo.after_of_writes_sub _ _ hostOps0_wr hb

/-- The source vector is row 0 of the edge list. -/
theorem s0_v1 {F : FTy → Type} [FloatOps F] (W : Valuation τ sig (Elt F)) :
    StableHlo.after (hostOps0 (F := F)) W (Proc.devRef .tc main_v1) = srcT (W (Proc.devRef .tc main_arg1)) := by
  after_results_simp
  rfl

/-- The target vector is row 1 of the edge list. -/
theorem s0_v3 {F : FTy → Type} [FloatOps F] (W : Valuation τ sig (Elt F)) :
    StableHlo.after (hostOps0 (F := F)) W (Proc.devRef .tc main_v3) = dstT (W (Proc.devRef .tc main_arg1)) := by
  after_results_simp
  rfl

/-! ## The masked gather before region 0 -/

/-- The buffers the masked gather's operations write (call record main_call0). -/
def wr0_1 : List (Ref sig .tc) :=
  [main_call0_c, main_call0_v0, main_call0_v1, main_call0_c_0, main_call0_v2, main_call0_v3, main_call0_v4, main_call0_v5, main_call0_c_1,
   main_call0_c_2, main_call0_v6, main_call0_v7, main_call0_v8, main_call0_v9, main_call0_v10, main_call0_v11, main_call0_c_3, main_call0_v12,
   main_call0_v13, main_call0_v14, main_call0_cst, main_call0_v15, main_v4]

theorem hostOps0_1_wr {F : FTy → Type} [FloatOps F] :
    (hostOps0_1 (F := F) : List (HloOp τ sig (Elt F))).Forall fun op =>
      op.writes ⊆ (wr0_1.map (Proc.devRef (τ := τ) .tc)).toFinset := by
  simp only [hostOps0_1, wr0_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer outside that list keeps its contents across the whole masked gather. -/
theorem keep0_1 {F : FTy → Type} [FloatOps F] (W : Valuation τ sig (Elt F)) {b : Ref sig .tc} (hb : b ∉ wr0_1) :
    StableHlo.after (hostOps0_1 (F := F)) W (Proc.devRef .tc b) = W (Proc.devRef .tc b) :=
  StableHlo.after_of_writes_sub _ _ hostOps0_1_wr hb

/-- … and across its first eighteen operations (the index normalisation and the range test). -/
theorem keep0_1_a {F : FTy → Type} [FloatOps F] (W : Valuation τ sig (Elt F)) {b : Ref sig .tc} (hb : b ∉ wr0_1) :
    StableHlo.after ((hostOps0_1 (F := F)).take 18) W (Proc.devRef .tc b) = W (Proc.devRef .tc b) :=
  StableHlo.after_of_writes_sub _ _
    (List.forall_iff_forall_mem.mpr fun op hop =>
      List.forall_iff_forall_mem.mp hostOps0_1_wr op (List.mem_of_mem_take hop)) hb

set_option maxHeartbeats 4000000 in
/-- After the first eighteen operations the index buffer holds the normalised indices as a column. -/
theorem take0_1_idx {F : FTy → Type} [FloatOps F] (W : Valuation τ sig (Elt F)) :
    StableHlo.after ((hostOps0_1 (F := F)).take 18) W (Proc.devRef .tc main_call0_v5)
      = colT (wrapT (W (Proc.devRef .tc main_v1))) := by
  simp only [List.take]
  after_results_simp
  rfl

set_option maxHeartbeats 4000000 in
/-- After the first eighteen operations the mask buffer holds the range test of the normalised indices. -/
theorem take0_1_mask {F : FTy → Type} [FloatOps F] (W : Valuation τ sig (Elt F)) :
    StableHlo.after ((hostOps0_1 (F := F)).take 18) W (Proc.devRef .tc main_call0_v12)
      = maskT (W (Proc.devRef .tc main_v1)) := by
  simp only [List.take]
  after_results_simp
  unfold maskT
  congr 1

set_option maxHeartbeats 4000000 in
/-- The last five operations: the gather, and the selection between its rows and the not-a-number word. -/
theorem take0_1_last {F : FTy → Type} [FloatOps F] (W : Valuation τ sig (Elt F)) :
    StableHlo.after ((hostOps0_1 (F := F)).drop 18) W (Proc.devRef .tc main_v4)
      = select (broadcastInDim S800000x128 ![0] bcast_S800000_S800000x128_0 (W (Proc.devRef .tc main_call0_v12)))
          (Host.gather gather_S50000x128_S800000x1_S800000x128_1_0_n_n_0_1_1128 (W (Proc.devRef .tc main_arg0))
            (W (Proc.devRef .tc main_call0_v5)))
          (broadcastInDim S800000x128 ![] bcast_S_S800000x128 (constant (F := F) S_ .f32 0x7FC00000#32)) := by
  simp only [List.drop]
  after_results_simp
  rfl

/-- The whole masked gather, in terms of the table and the index vector it is entered with. -/
theorem take0_1 {F : FTy → Type} [FloatOps F] (W : Valuation τ sig (Elt F)) :
    StableHlo.after (hostOps0_1 (F := F)) W (Proc.devRef .tc main_v4)
      = takeT (F := F) (W (Proc.devRef .tc main_arg0)) (W (Proc.devRef .tc main_v1)) := by
  rw [← List.take_append_drop 18 (hostOps0_1 (F := F)), StableHlo.after_append, take0_1_last, take0_1_mask,
    take0_1_idx, keep0_1_a W (b := main_arg0) (by decide)]
  rfl

/-! ## The aggregation stretch before region 1 -/

/-- The buffers the aggregation stretch writes. -/
def wr1 : List (Ref sig .tc) :=
  [main_cst, main_v6, main_v7, main_v8, main_v9, main_cst_0, main_v10, main_v11, main_v12, main_v13, main_v14]

theorem hostOps1_wr {F : FTy → Type} [FloatOps F] :
    (hostOps1 (F := F) : List (HloOp τ sig (Elt F))).Forall fun op =>
      op.writes ⊆ (wr1.map (Proc.devRef (τ := τ) .tc)).toFinset := by
  simp only [hostOps1, wr1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer outside that list keeps its contents across the stretch. -/
theorem keep1 {F : FTy → Type} [FloatOps F] (W : Valuation τ sig (Elt F)) {b : Ref sig .tc} (hb : b ∉ wr1) :
    StableHlo.after (hostOps1 (F := F)) W (Proc.devRef .tc b) = W (Proc.devRef .tc b) :=
  StableHlo.after_of_writes_sub _ _ hostOps1_wr hb

/-- The accumulating scatter of the message buffer at the target vector, from zero. -/
theorem h1_agg {F : FTy → Type} [FloatOps F] (W : Valuation τ sig (Elt F)) :
    StableHlo.after (hostOps1 (F := F)) W (Proc.devRef .tc main_v8)
      = aggT (F := F) (W (Proc.devRef .tc main_v3)) (W (Proc.devRef .tc main_v5)) := by
  after_results_simp
  rfl

/-- The node features times 1 + eps. -/
theorem h1_sh {F : FTy → Type} [FloatOps F] (W : Valuation τ sig (Elt F)) :
    StableHlo.after (hostOps1 (F := F)) W (Proc.devRef .tc main_v12)
      = scaleT (F := F) (W (Proc.devRef .tc main_arg7)) (W (Proc.devRef .tc main_arg0)) := by
  after_results_simp
  rfl

/-- The upper half of the stacked weight matrix. -/
theorem h1_Wa {F : FTy → Type} [FloatOps F] (W : Valuation τ sig (Elt F)) :
    StableHlo.after (hostOps1 (F := F)) W (Proc.devRef .tc main_v13) = loT (F := F) (W (Proc.devRef .tc main_arg5)) := by
  after_results_simp
  rfl

/-- The lower half of the stacked weight matrix. -/
theorem h1_Wh {F : FTy → Type} [FloatOps F] (W : Valuation τ sig (Elt F)) :
    StableHlo.after (hostOps1 (F := F)) W (Proc.devRef .tc main_v14) = hiT (F := F) (W (Proc.devRef .tc main_arg5)) := by
  after_results_simp
  rfl

/-! ## The masked gather before region 2 -/

/-- The buffers the masked gather's operations write (call record main_call1). -/
def wr2 : List (Ref sig .tc) :=
  [main_call1_c, main_call1_v0, main_call1_v1, main_call1_c_0, main_call1_v2, main_call1_v3, main_call1_v4, main_call1_v5, main_call1_c_1,
   main_call1_c_2, main_call1_v6, main_call1_v7, main_call1_v8, main_call1_v9, main_call1_v10, main_call1_v11, main_call1_c_3, main_call1_v12,
   main_call1_v13, main_call1_v14, main_call1_cst, main_call1_v15, main_v16]

theorem hostOps2_wr {F : FTy → Type} [FloatOps F] :
    (hostOps2 (F := F) : List (HloOp τ sig (Elt F))).Forall fun op =>
      op.writes ⊆ (wr2.map (Proc.devRef (τ := τ) .tc)).toFinset := by
  simp only [hostOps2, wr2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer outside that list keeps its contents across the whole masked gather. -/
theorem keep2 {F : FTy → Type} [FloatOps F] (W : Valuation τ sig (Elt F)) {b : Ref sig .tc} (hb : b ∉ wr2) :
    StableHlo.after (hostOps2 (F := F)) W (Proc.devRef .tc b) = W (Proc.devRef .tc b) :=
  StableHlo.after_of_writes_sub _ _ hostOps2_wr hb

/-- … and across its first eighteen operations (the index normalisation and the range test). -/
theorem keep2_a {F : FTy → Type} [FloatOps F] (W : Valuation τ sig (Elt F)) {b : Ref sig .tc} (hb : b ∉ wr2) :
    StableHlo.after ((hostOps2 (F := F)).take 18) W (Proc.devRef .tc b) = W (Proc.devRef .tc b) :=
  StableHlo.after_of_writes_sub _ _
    (List.forall_iff_forall_mem.mpr fun op hop =>
      List.forall_iff_forall_mem.mp hostOps2_wr op (List.mem_of_mem_take hop)) hb

set_option maxHeartbeats 4000000 in
/-- After the first eighteen operations the index buffer holds the normalised indices as a column. -/
theorem take2_idx {F : FTy → Type} [FloatOps F] (W : Valuation τ sig (Elt F)) :
    StableHlo.after ((hostOps2 (F := F)).take 18) W (Proc.devRef .tc main_call1_v5)
      = colT (wrapT (W (Proc.devRef .tc main_v1))) := by
  simp only [List.take]
  after_results_simp
  rfl

set_option maxHeartbeats 4000000 in
/-- After the first eighteen operations the mask buffer holds the range test of the normalised indices. -/
theorem take2_mask {F : FTy → Type} [FloatOps F] (W : Valuation τ sig (Elt F)) :
    StableHlo.after ((hostOps2 (F := F)).take 18) W (Proc.devRef .tc main_call1_v12)
      = maskT (W (Proc.devRef .tc main_v1)) := by
  simp only [List.take]
  after_results_simp
  unfold maskT
  congr 1

set_option maxHeartbeats 4000000 in
/-- The last five operations: the gather, and the selection between its rows and the not-a-number word. -/
theorem take2_last {F : FTy → Type} [FloatOps F] (W : Valuation τ sig (Elt F)) :
    StableHlo.after ((hostOps2 (F := F)).drop 18) W (Proc.devRef .tc main_v16)
      = select (broadcastInDim S800000x128 ![0] bcast_S800000_S800000x128_0 (W (Proc.devRef .tc main_call1_v12)))
          (Host.gather gather_S50000x128_S800000x1_S800000x128_1_0_n_n_0_1_1128 (W (Proc.devRef .tc main_v15))
            (W (Proc.devRef .tc main_call1_v5)))
          (broadcastInDim S800000x128 ![] bcast_S_S800000x128 (constant (F := F) S_ .f32 0x7FC00000#32)) := by
  simp only [List.drop]
  after_results_simp
  rfl

/-- The whole masked gather, in terms of the table and the index vector it is entered with. -/
theorem take2 {F : FTy → Type} [FloatOps F] (W : Valuation τ sig (Elt F)) :
    StableHlo.after (hostOps2 (F := F)) W (Proc.devRef .tc main_v16)
      = takeT (F := F) (W (Proc.devRef .tc main_v15)) (W (Proc.devRef .tc main_v1)) := by
  rw [← List.take_append_drop 18 (hostOps2 (F := F)), StableHlo.after_append, take2_last, take2_mask,
    take2_idx, keep2_a W (b := main_v15) (by decide)]
  rfl

/-! ## The boundaries, at the exact reals, from the launch memory -/

/-- A buffer neither the edge-list stretch nor the first masked gather writes is, at region 0's entry, as launched. -/
theorem W2_keep (c : Dev nD) {b : Ref sig .tc} (h0 : b ∉ wr0) (h1 : b ∉ wr0_1) :
    W2 (F := Ideal) m ρ c (Proc.devRef .tc b) = m ((c : Thread nD τ).loc b) := by
  show StableHlo.after hostOps0_1 (StableHlo.after hostOps0 (W0 m ρ c)) (Proc.devRef .tc b) = _
  rw [keep0_1 _ h1, keep0 _ h0]

/-- The source vector at region 0's entry. -/
theorem W2_v1 (c : Dev nD) :
    W2 (F := Ideal) m ρ c (Proc.devRef .tc main_v1) = srcT (m ((c : Thread nD τ).loc main_arg1)) := by
  show StableHlo.after hostOps0_1 (StableHlo.after hostOps0 (W0 m ρ c)) (Proc.devRef .tc main_v1) = _
  rw [keep0_1 _ (by decide), s0_v1]

/-- The target vector at region 0's entry. -/
theorem W2_v3 (c : Dev nD) :
    W2 (F := Ideal) m ρ c (Proc.devRef .tc main_v3) = dstT (m ((c : Thread nD τ).loc main_arg1)) := by
  show StableHlo.after hostOps0_1 (StableHlo.after hostOps0 (W0 m ρ c)) (Proc.devRef .tc main_v3) = _
  rw [keep0_1 _ (by decide), s0_v3]

/-- Region 0 is entered with the edge features as launched. -/
theorem V2_ea (c : Dev nD) :
    V2 (F := Ideal) m ρ c main_arg2
      = (m ((c : Thread nD τ).loc main_arg2)) :=
  W2_keep m ρ c (by decide) (by decide)

/-- Region 0 is entered with the node features' rows at the edge sources (the kernel's masked gather). -/
theorem V2_hs (c : Dev nD) :
    V2 (F := Ideal) m ρ c main_v4
      = takeT (F := Ideal) (m ((c : Thread nD τ).loc main_arg0)) (srcT (m ((c : Thread nD τ).loc main_arg1))) := by
  show StableHlo.after hostOps0_1 (StableHlo.after hostOps0 (W0 m ρ c)) (Proc.devRef .tc main_v4) = _
  rw [take0_1, s0_v1, keep0 _ (b := main_arg0) (by decide)]

/-- Region 0's weight matrix as launched. -/
theorem V2_W (c : Dev nD) :
    V2 (F := Ideal) m ρ c main_arg3
      = (m ((c : Thread nD τ).loc main_arg3)) :=
  W2_keep m ρ c (by decide) (by decide)

/-- Region 0's bias as launched. -/
theorem V2_b (c : Dev nD) :
    V2 (F := Ideal) m ρ c main_arg4
      = (m ((c : Thread nD τ).loc main_arg4)) :=
  W2_keep m ρ c (by decide) (by decide)

/-- Region 1 is entered with region 0's messages added into their target nodes. -/
theorem V4_agg (c : Dev nD) :
    V4 (F := Ideal) m ρ c main_v8
      = aggT (F := Ideal) (dstT (m ((c : Thread nD τ).loc main_arg1))) (W3 m ρ c (Proc.devRef .tc main_v5)) := by
  show StableHlo.after hostOps1 (W3 m ρ c) (Proc.devRef .tc main_v8) = _
  rw [h1_agg, W3_of_ne m ρ c main_v3 (by decide), W2_v3]

/-- Region 1 is entered with the node features times 1 + eps. -/
theorem V4_sh (c : Dev nD) :
    V4 (F := Ideal) m ρ c main_v12
      = scaleT (F := Ideal) (m ((c : Thread nD τ).loc main_arg7)) (m ((c : Thread nD τ).loc main_arg0)) := by
  show StableHlo.after hostOps1 (W3 m ρ c) (Proc.devRef .tc main_v12) = _
  rw [h1_sh, W3_of_ne m ρ c main_arg7 (by decide), W3_of_ne m ρ c main_arg0 (by decide),
    W2_keep m ρ c (b := main_arg7) (by decide) (by decide), W2_keep m ρ c (b := main_arg0) (by decide) (by decide)]

/-- The upper half of the first layer's stacked weight matrix. -/
theorem V4_Wa (c : Dev nD) :
    V4 (F := Ideal) m ρ c main_v13
      = loT (F := Ideal) (m ((c : Thread nD τ).loc main_arg5)) := by
  show StableHlo.after hostOps1 (W3 m ρ c) (Proc.devRef .tc main_v13) = _
  rw [h1_Wa, W3_of_ne m ρ c main_arg5 (by decide), W2_keep m ρ c (b := main_arg5) (by decide) (by decide)]

/-- The lower half of the first layer's stacked weight matrix. -/
theorem V4_Wh (c : Dev nD) :
    V4 (F := Ideal) m ρ c main_v14
      = hiT (F := Ideal) (m ((c : Thread nD τ).loc main_arg5)) := by
  show StableHlo.after hostOps1 (W3 m ρ c) (Proc.devRef .tc main_v14) = _
  rw [h1_Wh, W3_of_ne m ρ c main_arg5 (by decide), W2_keep m ρ c (b := main_arg5) (by decide) (by decide)]

/-- A buffer no stretch up to region 1's entry writes, and that region 0 leaves as entered, is there as launched. -/
theorem W4_keep (c : Dev nD) {b : Ref sig .tc} (h0 : b ∉ wr0) (h1 : b ∉ wr0_1) (h2 : b ∉ wr1)
    (hr : W3 (F := Ideal) m ρ c (Proc.devRef .tc b) = W2 m ρ c (Proc.devRef .tc b)) :
    W4 (F := Ideal) m ρ c (Proc.devRef .tc b) = m ((c : Thread nD τ).loc b) := by
  show StableHlo.after hostOps1 (W3 m ρ c) (Proc.devRef .tc b) = _
  rw [keep1 _ h2, hr, W2_keep m ρ c h0 h1]

/-- Region 1's bias as launched. -/
theorem V4_b (c : Dev nD) :
    V4 (F := Ideal) m ρ c main_arg6
      = (m ((c : Thread nD τ).loc main_arg6)) :=
  W4_keep m ρ c (by decide) (by decide) (by decide) (W3_of_ne m ρ c main_arg6 (by decide))

/-- A buffer no stretch up to region 2's entry writes, and that regions 0 and 1 leave as entered, is there as launched. -/
theorem W6_keep (c : Dev nD) {b : Ref sig .tc} (h0 : b ∉ wr0) (h1 : b ∉ wr0_1) (h2 : b ∉ wr1) (h3 : b ∉ wr2)
    (hr0 : W3 (F := Ideal) m ρ c (Proc.devRef .tc b) = W2 m ρ c (Proc.devRef .tc b))
    (hr1 : W5 (F := Ideal) m ρ c (Proc.devRef .tc b) = W4 m ρ c (Proc.devRef .tc b)) :
    W6 (F := Ideal) m ρ c (Proc.devRef .tc b) = m ((c : Thread nD τ).loc b) := by
  show StableHlo.after hostOps2 (W5 m ρ c) (Proc.devRef .tc b) = _
  rw [keep2 _ h3, hr1, W4_keep m ρ c h0 h1 h2 hr0]

/-- Region 2 is entered with the edge features as launched. -/
theorem V6_ea (c : Dev nD) :
    V6 (F := Ideal) m ρ c main_arg2
      = (m ((c : Thread nD τ).loc main_arg2)) :=
  W6_keep m ρ c (by decide) (by decide) (by decide) (by decide)
    ((W3_arr m ρ c 0).trans (((dat0 (V2 m ρ) c).arrAt_in 0 rfl _).trans (A_eq0 (V2 m ρ) c 0)))
    (W5_of_ne m ρ c main_arg2 (by decide))

/-- Region 2 is entered with the first layer's node rows at the edge sources. -/
theorem V6_hs (c : Dev nD) :
    V6 (F := Ideal) m ρ c main_v16
      = takeT (F := Ideal) (W5 m ρ c (Proc.devRef .tc main_v15)) (srcT (m ((c : Thread nD τ).loc main_arg1))) := by
  show StableHlo.after hostOps2 (W5 m ρ c) (Proc.devRef .tc main_v16) = _
  rw [take2, W5_of_ne m ρ c main_v1 (by decide)]
  show takeT (F := Ideal) _ (StableHlo.after hostOps1 (W3 m ρ c) (Proc.devRef .tc main_v1)) = _
  rw [keep1 _ (b := main_v1) (by decide), W3_of_ne m ρ c main_v1 (by decide), W2_v1]

/-- Region 2's weight matrix as launched. -/
theorem V6_W (c : Dev nD) :
    V6 (F := Ideal) m ρ c main_arg8
      = (m ((c : Thread nD τ).loc main_arg8)) :=
  W6_keep m ρ c (by decide) (by decide) (by decide) (by decide)
    (W3_of_ne m ρ c main_arg8 (by decide)) (W5_of_ne m ρ c main_arg8 (by decide))

/-- Region 2's bias as launched. -/
theorem V6_b (c : Dev nD) :
    V6 (F := Ideal) m ρ c main_arg9
      = (m ((c : Thread nD τ).loc main_arg9)) :=
  W6_keep m ρ c (by decide) (by decide) (by decide) (by decide)
    (W3_of_ne m ρ c main_arg9 (by decide)) (W5_of_ne m ρ c main_arg9 (by decide))

end Cert.KernelIdeal.KHost

end
-- ==== Proof.KernelHostB.lean ====
/-
  What the kernel program's buffers hold when its last two regions are entered, in terms of the launch memory and of
  what the earlier regions left: the second layer's scatter and scaling, the rectifier after the second layer, and the
  two gathers of node rows at the edge sources and targets. A buffer no operation writes keeps its contents across a
  stretch and across a region.

  Every stretch is first read at an arbitrary entry valuation and an arbitrary float family, where the buffer it fills is
  literally the named term of the buffers it reads; the entry valuations of the run are substituted last, and the buffers
  read are walked back to the launch memory one boundary at a time.
-/
import proofs.«400179_j12421045420439_1_alg».proof.Proof.Gen.KernelIdeal.Frame
import proofs.«400179_j12421045420439_1_alg».proof.Proof.HostTerms
import Idealize.ShloMosaic.Lib.StableHlo.Run
import Idealize.ShloMosaic.PureOps.Ideal

noncomputable section

namespace Cert.KernelIdeal.KHost

open Cert.KernelIdeal Cert.KernelIdeal.Gen Cert.KernelIdeal.HostTerms
open Idealize.ShloMosaic Idealize.ShloMosaic.TcCoe Idealize.SL.Sem Idealize.ShloMosaic.StableHlo

namespace B

/-! ### The references each stretch of host operations writes

Every operation writes exactly its result reference, so a stretch writes the references listed here and a reference
outside the list keeps its contents across the stretch. -/

section Writes
variable {F : FTy → Type} [FloatOps F]

/-- The references written by the two rows of the edge list. -/
abbrev Wr0 : List (Ref sig .tc) := [main_v0, main_v1, main_v2, main_v3]
theorem writes0 : (hostOps0 (F := F)).Forall fun op => op.writes ⊆ (Wr0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the first layer's scatter, scaling and weight halves. -/
abbrev Wr1 : List (Ref sig .tc) := [main_cst, main_v6, main_v7, main_v8, main_v9, main_cst_0, main_v10, main_v11, main_v12, main_v13, main_v14]
theorem writes1 : (hostOps1 (F := F)).Forall fun op => op.writes ⊆ (Wr1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the second layer's gather. -/
abbrev Wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]
theorem writes2 : (hostOps2 (F := F)).Forall fun op => op.writes ⊆ (Wr2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the second layer's scatter, scaling and weight halves. -/
abbrev Wr3 : List (Ref sig .tc) := [main_cst_1, main_v18, main_v19, main_v20, main_v21, main_cst_2, main_v22, main_v23, main_v24, main_v25, main_v26]
theorem writes3 : (hostOps3 (F := F)).Forall fun op => op.writes ⊆ (Wr3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the rectifier. -/
abbrev Wr4 : List (Ref sig .tc) := [main_call2_cst, main_call2_v0, main_v28]
theorem writes4 : (hostOps4 (F := F)).Forall fun op => op.writes ⊆ (Wr4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the first layer's gather. -/
abbrev Wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem writes0_1 : (hostOps0_1 (F := F)).Forall fun op => op.writes ⊆ (Wr0_1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the classifier's gather at the edge sources. -/
abbrev Wr4_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v29]
theorem writes4_1 : (hostOps4_1 (F := F)).Forall fun op => op.writes ⊆ (Wr4_1.map (Proc.devRef (τ := τ) .tc)).toFinset := by
  simp only [hostOps4_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references written by the classifier's gather at the edge targets. -/
abbrev Wr4_2 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v30]
theorem writes4_2 : (hostOps4_2 (F := F)).Forall fun op => op.writes ⊆ (Wr4_2.map (Proc.devRef (τ := τ) .tc)).toFinset := by
  simp only [hostOps4_2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

end Writes

/-! ### The short stretches, at any entry contents and any float family -/

section Short
variable {F : FTy → Type} [FloatOps F] (W : Valuation τ sig (Elt F))

/-- The edge list's row 0 lands in the source-index buffer. -/
theorem h0_src : StableHlo.after (hostOps0 (F := F)) W (Proc.devRef .tc main_v1) = srcT (W (Proc.devRef .tc main_arg1)) := by
  after_results_simp
  rfl

/-- The edge list's row 1 lands in the target-index buffer. -/
theorem h0_dst : StableHlo.after (hostOps0 (F := F)) W (Proc.devRef .tc main_v3) = dstT (W (Proc.devRef .tc main_arg1)) := by
  after_results_simp
  rfl

/-- The second layer's accumulating scatter of the messages into their target nodes. -/
theorem h3_agg : StableHlo.after (hostOps3 (F := F)) W (Proc.devRef .tc main_v20)
    = aggT (F := F) (W (Proc.devRef .tc main_v3)) (W (Proc.devRef .tc main_v17)) := by
  after_results_simp
  rfl

/-- The second layer's scaling of the node features by 1 + eps. -/
theorem h3_sh : StableHlo.after (hostOps3 (F := F)) W (Proc.devRef .tc main_v24)
    = scaleT (F := F) (W (Proc.devRef .tc main_arg12)) (W (Proc.devRef .tc main_v15)) := by
  after_results_simp
  rfl

/-- Rows 0 … 127 of the second layer's stacked weight matrix. -/
theorem h3_Wa : StableHlo.after (hostOps3 (F := F)) W (Proc.devRef .tc main_v25) = loT (F := F) (W (Proc.devRef .tc main_arg10)) := by
  after_results_simp
  rfl

/-- Rows 128 … 255 of the second layer's stacked weight matrix. -/
theorem h3_Wh : StableHlo.after (hostOps3 (F := F)) W (Proc.devRef .tc main_v26) = hiT (F := F) (W (Proc.devRef .tc main_arg10)) := by
  after_results_simp
  rfl

/-- The rectifier after the second layer. -/
theorem h4_relu : StableHlo.after (hostOps4 (F := F)) W (Proc.devRef .tc main_v28) = reluT (F := F) (W (Proc.devRef .tc main_v27)) := by
  after_results_simp
  rfl

end Short

/-! ### The two gathers in front of the classifier

Each is 23 operations: the comparison of two terms that long is cut at the range test, each part read on its own and the two
composed by rewriting. -/

section TakeS
variable {F : FTy → Type} [FloatOps F] (W : Valuation τ sig (Elt F))

/-- The gather at the edge sources, cut in two: the index normalisation with the range test (18 operations), then the gather, the two
    broadcasts and the selection (5 operations). -/
abbrev takeSa : List (HloOp τ sig (Elt F)) := (hostOps4_1 (F := F)).take 18
abbrev takeSb : List (HloOp τ sig (Elt F)) := (hostOps4_1 (F := F)).drop 18

/-- Running the stretch is running its first part and then its second. -/
theorem takeS_cut : StableHlo.after (hostOps4_1 (F := F)) W = StableHlo.after (takeSb (F := F)) (StableHlo.after (takeSa (F := F)) W) := by
  rw [← StableHlo.after_append]; rfl

/-- After the first part the test's buffer holds "the normalised index lies in 0 … 49999". -/
theorem takeSa_mask : StableHlo.after (takeSa (F := F)) W (Proc.devRef .tc main_call3_v12) = maskT (W (Proc.devRef .tc main_v1)) := by
  simp only [takeSa, hostOps4_1, List.take]
  after_results_simp
  unfold maskT; congr 1

/-- After the first part the index buffer holds the normalised indices as a one-column matrix. -/
theorem takeSa_idx : StableHlo.after (takeSa (F := F)) W (Proc.devRef .tc main_call3_v5) = colT (wrapT (W (Proc.devRef .tc main_v1))) := by
  simp only [takeSa, hostOps4_1, List.take]
  after_results_simp
  rfl

/-- The first part leaves the table alone. -/
theorem takeSa_tab : StableHlo.after (takeSa (F := F)) W (Proc.devRef .tc main_v28) = W (Proc.devRef .tc main_v28) := by
  simp only [takeSa, hostOps4_1, List.take]
  after_results_simp

/-- The second part: the gathered rows where the test holds, the not-a-number word elsewhere. -/
theorem takeSb_res : StableHlo.after (takeSb (F := F)) W (Proc.devRef .tc main_v29)
    = select (broadcastInDim S800000x128 ![0] bcast_S800000_S800000x128_0 (W (Proc.devRef .tc main_call3_v12)))
        (Host.gather gather_S50000x128_S800000x1_S800000x128_1_0_n_n_0_1_1128 (W (Proc.devRef .tc main_v28)) (W (Proc.devRef .tc main_call3_v5)))
        (broadcastInDim S800000x128 ![] bcast_S_S800000x128 (constant (F := F) S_ .f32 0x7FC00000#32)) := by
  simp only [takeSb, hostOps4_1, List.drop]
  after_results_simp
  rfl

/-- The whole stretch is the kernel's masked gather of the table at the indices. -/
theorem takeS_res : StableHlo.after (hostOps4_1 (F := F)) W (Proc.devRef .tc main_v29)
    = takeT (F := F) (W (Proc.devRef .tc main_v28)) (W (Proc.devRef .tc main_v1)) := by
  rw [takeS_cut, takeSb_res, takeSa_mask, takeSa_idx, takeSa_tab]
  rfl

end TakeS

section TakeT
variable {F : FTy → Type} [FloatOps F] (W : Valuation τ sig (Elt F))

/-- The gather at the edge targets, cut in two: the index normalisation with the range test (18 operations), then the gather, the two
    broadcasts and the selection (5 operations). -/
abbrev takeTa : List (HloOp τ sig (Elt F)) := (hostOps4_2 (F := F)).take 18
abbrev takeTb : List (HloOp τ sig (Elt F)) := (hostOps4_2 (F := F)).drop 18

/-- Running the stretch is running its first part and then its second. -/
theorem takeT_cut : StableHlo.after (hostOps4_2 (F := F)) W = StableHlo.after (takeTb (F := F)) (StableHlo.after (takeTa (F := F)) W) := by
  rw [← StableHlo.after_append]; rfl

/-- After the first part the test's buffer holds "the normalised index lies in 0 … 49999". -/
theorem takeTa_mask : StableHlo.after (takeTa (F := F)) W (Proc.devRef .tc main_call4_v12) = maskT (W (Proc.devRef .tc main_v3)) := by
  simp only [takeTa, hostOps4_2, List.take]
  after_results_simp
  unfold maskT; congr 1

/-- After the first part the index buffer holds the normalised indices as a one-column matrix. -/
theorem takeTa_idx : StableHlo.after (takeTa (F := F)) W (Proc.devRef .tc main_call4_v5) = colT (wrapT (W (Proc.devRef .tc main_v3))) := by
  simp only [takeTa, hostOps4_2, List.take]
  after_results_simp
  rfl

/-- The first part leaves the table alone. -/
theorem takeTa_tab : StableHlo.after (takeTa (F := F)) W (Proc.devRef .tc main_v28) = W (Proc.devRef .tc main_v28) := by
  simp only [takeTa, hostOps4_2, List.take]
  after_results_simp

/-- The second part: the gathered rows where the test holds, the not-a-number word elsewhere. -/
theorem takeTb_res : StableHlo.after (takeTb (F := F)) W (Proc.devRef .tc main_v30)
    = select (broadcastInDim S800000x128 ![0] bcast_S800000_S800000x128_0 (W (Proc.devRef .tc main_call4_v12)))
        (Host.gather gather_S50000x128_S800000x1_S800000x128_1_0_n_n_0_1_1128 (W (Proc.devRef .tc main_v28)) (W (Proc.devRef .tc main_call4_v5)))
        (broadcastInDim S800000x128 ![] bcast_S_S800000x128 (constant (F := F) S_ .f32 0x7FC00000#32)) := by
  simp only [takeTb, hostOps4_2, List.drop]
  after_results_simp
  rfl

/-- The whole stretch is the kernel's masked gather of the table at the indices. -/
theorem takeT_res : StableHlo.after (hostOps4_2 (F := F)) W (Proc.devRef .tc main_v30)
    = takeT (F := F) (W (Proc.devRef .tc main_v28)) (W (Proc.devRef .tc main_v3)) := by
  rw [takeT_cut, takeTb_res, takeTa_mask, takeTa_idx, takeTa_tab]
  rfl

end TakeT

/-! ### Carrying a buffer through the run

Across a stretch a reference outside the stretch's written list keeps its contents; across a region every reference that
is not one of the region's arrays does. -/

section Carry
variable (m : (ℓ : Loc nD τ sig) → Buf (Elt Ideal) ℓ) (ρ : Dev nD → PrngReg) (c : Dev nD) (r : Ref sig .tc)

theorem W1_keep (h : r ∉ Wr0) : W1 (F := Ideal) m ρ c (Proc.devRef .tc r) = W0 m ρ c (Proc.devRef .tc r) :=
  StableHlo.after_of_writes_sub _ _ writes0 h
theorem W2_keep (h : r ∉ Wr0_1) : W2 (F := Ideal) m ρ c (Proc.devRef .tc r) = W1 m ρ c (Proc.devRef .tc r) :=
  StableHlo.after_of_writes_sub _ _ writes0_1 h
theorem W4_keep (h : r ∉ Wr1) : W4 (F := Ideal) m ρ c (Proc.devRef .tc r) = W3 m ρ c (Proc.devRef .tc r) :=
  StableHlo.after_of_writes_sub _ _ writes1 h
theorem W6_keep (h : r ∉ Wr2) : W6 (F := Ideal) m ρ c (Proc.devRef .tc r) = W5 m ρ c (Proc.devRef .tc r) :=
  StableHlo.after_of_writes_sub _ _ writes2 h
theorem W8_keep (h : r ∉ Wr3) : W8 (F := Ideal) m ρ c (Proc.devRef .tc r) = W7 m ρ c (Proc.devRef .tc r) :=
  StableHlo.after_of_writes_sub _ _ writes3 h
theorem W10_keep (h : r ∉ Wr4) : W10 (F := Ideal) m ρ c (Proc.devRef .tc r) = W9 m ρ c (Proc.devRef .tc r) :=
  StableHlo.after_of_writes_sub _ _ writes4 h
theorem W11_keep (h : r ∉ Wr4_1) : W11 (F := Ideal) m ρ c (Proc.devRef .tc r) = W10 m ρ c (Proc.devRef .tc r) :=
  StableHlo.after_of_writes_sub _ _ writes4_1 h
theorem W12_keep (h : r ∉ Wr4_2) : W12 (F := Ideal) m ρ c (Proc.devRef .tc r) = W11 m ρ c (Proc.devRef .tc r) :=
  StableHlo.after_of_writes_sub _ _ writes4_2 h

/-- Nothing between the first stretch's end and region 3's entry stretch touches `r`. -/
def Quiet17 (r : Ref sig .tc) : Prop :=
  r ∉ Wr0_1 ∧ (∀ w, Pipeline.arrRef spec0 w ≠ r) ∧ r ∉ Wr1 ∧ (∀ w, Pipeline.arrRef spec1 w ≠ r) ∧ r ∉ Wr2 ∧ (∀ w, Pipeline.arrRef spec2 w ≠ r)
instance : Decidable (Quiet17 r) := by unfold Quiet17; infer_instance

theorem W7_from1 (h : Quiet17 r) : W7 (F := Ideal) m ρ c (Proc.devRef .tc r) = W1 m ρ c (Proc.devRef .tc r) :=
  calc W7 (F := Ideal) m ρ c (Proc.devRef .tc r)
    _ = W6 m ρ c (Proc.devRef .tc r) := W7_of_ne m ρ c r h.2.2.2.2.2
    _ = W5 m ρ c (Proc.devRef .tc r) := W6_keep m ρ c r h.2.2.2.2.1
    _ = W4 m ρ c (Proc.devRef .tc r) := W5_of_ne m ρ c r h.2.2.2.1
    _ = W3 m ρ c (Proc.devRef .tc r) := W4_keep m ρ c r h.2.2.1
    _ = W2 m ρ c (Proc.devRef .tc r) := W3_of_ne m ρ c r h.2.1
    _ = W1 m ρ c (Proc.devRef .tc r) := W2_keep m ρ c r h.1

/-- An argument nothing touches before region 3's entry stretch is as launched. -/
theorem W7_from0 (h0 : r ∉ Wr0) (h : Quiet17 r) : W7 (F := Ideal) m ρ c (Proc.devRef .tc r) = m ((c : Thread nD τ).loc r) :=
  (W7_from1 m ρ c r h).trans (W1_keep m ρ c r h0)

/-- Nothing from region 3's entry stretch to the rectifier touches `r`. -/
def Quiet710 (r : Ref sig .tc) : Prop := r ∉ Wr3 ∧ (∀ w, Pipeline.arrRef spec3 w ≠ r) ∧ r ∉ Wr4
instance : Decidable (Quiet710 r) := by unfold Quiet710; infer_instance

theorem W10_from7 (h : Quiet710 r) : W10 (F := Ideal) m ρ c (Proc.devRef .tc r) = W7 m ρ c (Proc.devRef .tc r) :=
  calc W10 (F := Ideal) m ρ c (Proc.devRef .tc r)
    _ = W9 m ρ c (Proc.devRef .tc r) := W10_keep m ρ c r h.2.2
    _ = W8 m ρ c (Proc.devRef .tc r) := W9_of_ne m ρ c r h.2.1
    _ = W7 m ρ c (Proc.devRef .tc r) := W8_keep m ρ c r h.1

/-- An argument nothing touches before region 4 is entered is as launched. -/
theorem W12_from0 (h0 : r ∉ Wr0) (h : Quiet17 r) (h' : Quiet710 r) (h1 : r ∉ Wr4_1) (h2 : r ∉ Wr4_2) :
    W12 (F := Ideal) m ρ c (Proc.devRef .tc r) = m ((c : Thread nD τ).loc r) :=
  calc W12 (F := Ideal) m ρ c (Proc.devRef .tc r)
    _ = W11 m ρ c (Proc.devRef .tc r) := W12_keep m ρ c r h2
    _ = W10 m ρ c (Proc.devRef .tc r) := W11_keep m ρ c r h1
    _ = W7 m ρ c (Proc.devRef .tc r) := W10_from7 m ρ c r h'
    _ = m ((c : Thread nD τ).loc r) := W7_from0 m ρ c r h0 h

/-- The source indices, written once by the first stretch, are still there when the classifier's gathers run. -/
theorem W10_src : W10 (F := Ideal) m ρ c (Proc.devRef .tc main_v1) = srcT (m ((c : Thread nD τ).loc main_arg1)) :=
  ((W10_from7 m ρ c main_v1 (by decide)).trans (W7_from1 m ρ c main_v1 (by decide))).trans (h0_src (W0 m ρ c))

/-- The target indices at region 3's entry stretch. -/
theorem W7_dst : W7 (F := Ideal) m ρ c (Proc.devRef .tc main_v3) = dstT (m ((c : Thread nD τ).loc main_arg1)) :=
  (W7_from1 m ρ c main_v3 (by decide)).trans (h0_dst (W0 m ρ c))

/-- The target indices when the classifier's second gather runs. -/
theorem W11_dst : W11 (F := Ideal) m ρ c (Proc.devRef .tc main_v3) = dstT (m ((c : Thread nD τ).loc main_arg1)) :=
  ((W11_keep m ρ c main_v3 (by decide)).trans (W10_from7 m ρ c main_v3 (by decide))).trans (W7_dst m ρ c)

/-- The rectified second-layer rows after the rectifier's stretch. -/
theorem W10_relu : W10 (F := Ideal) m ρ c (Proc.devRef .tc main_v28) = reluT (F := Ideal) (W9 m ρ c (Proc.devRef .tc main_v27)) :=
  h4_relu (W9 m ρ c)

end Carry

end B

open B

variable (m : (ℓ : Loc nD τ sig) → Buf (Elt Ideal) ℓ) (ρ : Dev nD → PrngReg)

/-- Region 3 is entered with region 2's messages added into their target nodes. -/
theorem V8_agg (c : Dev nD) :
    V8 (F := Ideal) m ρ c main_v20
      = aggT (F := Ideal) (dstT (m ((c : Thread nD τ).loc main_arg1))) (W7 m ρ c (Proc.devRef .tc main_v17)) :=
  (h3_agg (W7 m ρ c)).trans (by rw [W7_dst])

/-- Region 3 is entered with the first layer's node features times 1 + eps. -/
theorem V8_sh (c : Dev nD) :
    V8 (F := Ideal) m ρ c main_v24
      = scaleT (F := Ideal) (m ((c : Thread nD τ).loc main_arg12)) (W5 m ρ c (Proc.devRef .tc main_v15)) :=
  (h3_sh (W7 m ρ c)).trans (by
    rw [W7_from0 m ρ c main_arg12 (by decide) (by decide), W7_of_ne m ρ c main_v15 (by decide), W6_keep m ρ c main_v15 (by decide)])

/-- The upper half of the second layer's stacked weight matrix. -/
theorem V8_Wa (c : Dev nD) :
    V8 (F := Ideal) m ρ c main_v25
      = loT (F := Ideal) (m ((c : Thread nD τ).loc main_arg10)) :=
  (h3_Wa (W7 m ρ c)).trans (by rw [W7_from0 m ρ c main_arg10 (by decide) (by decide)])

/-- The lower half of the second layer's stacked weight matrix. -/
theorem V8_Wh (c : Dev nD) :
    V8 (F := Ideal) m ρ c main_v26
      = hiT (F := Ideal) (m ((c : Thread nD τ).loc main_arg10)) :=
  (h3_Wh (W7 m ρ c)).trans (by rw [W7_from0 m ρ c main_arg10 (by decide) (by decide)])

/-- Region 3's bias as launched. -/
theorem V8_b (c : Dev nD) :
    V8 (F := Ideal) m ρ c main_arg11
      = (m ((c : Thread nD τ).loc main_arg11)) :=
  (W8_keep m ρ c main_arg11 (by decide)).trans (W7_from0 m ρ c main_arg11 (by decide) (by decide))

/-- Region 4 is entered with the rectified second-layer rows at the edge sources. -/
theorem V12_src (c : Dev nD) :
    V12 (F := Ideal) m ρ c main_v29
      = takeT (F := Ideal) (reluT (F := Ideal) (W9 m ρ c (Proc.devRef .tc main_v27))) (srcT (m ((c : Thread nD τ).loc main_arg1))) :=
  ((W12_keep m ρ c main_v29 (by decide)).trans (takeS_res (W10 m ρ c))).trans (by rw [W10_relu, W10_src])

/-- Region 4 is entered with the rectified second-layer rows at the edge targets. -/
theorem V12_dst (c : Dev nD) :
    V12 (F := Ideal) m ρ c main_v30
      = takeT (F := Ideal) (reluT (F := Ideal) (W9 m ρ c (Proc.devRef .tc main_v27))) (dstT (m ((c : Thread nD τ).loc main_arg1))) :=
  (takeT_res (W11 m ρ c)).trans (by rw [W11_keep m ρ c main_v28 (by decide), W10_relu, W11_dst])

/-- The classifier's first weight matrix as launched. -/
theorem V12_W1 (c : Dev nD) :
    V12 (F := Ideal) m ρ c main_arg13
      = (m ((c : Thread nD τ).loc main_arg13)) :=
  W12_from0 m ρ c main_arg13 (by decide) (by decide) (by decide) (by decide) (by decide)

/-- The classifier's first bias as launched. -/
theorem V12_b1 (c : Dev nD) :
    V12 (F := Ideal) m ρ c main_arg14
      = (m ((c : Thread nD τ).loc main_arg14)) :=
  W12_from0 m ρ c main_arg14 (by decide) (by decide) (by decide) (by decide) (by decide)

/-- The classifier's second weight matrix as launched. -/
theorem V12_W2 (c : Dev nD) :
    V12 (F := Ideal) m ρ c main_arg15
      = (m ((c : Thread nD τ).loc main_arg15)) :=
  W12_from0 m ρ c main_arg15 (by decide) (by decide) (by decide) (by decide) (by decide)

/-- The classifier's second bias as launched. -/
theorem V12_b2 (c : Dev nD) :
    V12 (F := Ideal) m ρ c main_arg16
      = (m ((c : Thread nD τ).loc main_arg16)) :=
  W12_from0 m ρ c main_arg16 (by decide) (by decide) (by decide) (by decide) (by decide)

end Cert.KernelIdeal.KHost

end
-- ==== Proof.KernelValue.lean ====
/-
  The kernel program's two result buffers, read off the last boundary of its run, are the network's two results.
  Region by region: what a region leaves in its output array is the specification's function of what it was entered
  with; what it was entered with is a host term of the launch memory and of the earlier regions' outputs; and, the
  edge endpoints being node numbers, the kernel's masked gather is the gather. So the messages, the node features of
  both layers and the classifier's two outputs follow one another exactly as the network is written.
-/
import proofs.«400179_j12421045420439_1_alg».proof.Proof.Gen.KernelIdeal.Frame
import proofs.«400179_j12421045420439_1_alg».proof.Proof.Spec
import proofs.«400179_j12421045420439_1_alg».proof.Proof.HostTerms
import proofs.«400179_j12421045420439_1_alg».proof.Proof.Net
import proofs.«400179_j12421045420439_1_alg».proof.Proof.Range
import proofs.«400179_j12421045420439_1_alg».proof.Proof.EdgeMsg
import proofs.«400179_j12421045420439_1_alg».proof.Proof.NodeUpd
import proofs.«400179_j12421045420439_1_alg».proof.Proof.LinkPred
import proofs.«400179_j12421045420439_1_alg».proof.Proof.KernelHostA
import proofs.«400179_j12421045420439_1_alg».proof.Proof.KernelHostB

noncomputable section

namespace Cert.KernelIdeal.KVal

open Cert.KernelIdeal Cert.KernelIdeal.Gen Cert.KernelIdeal.HostTerms
open Idealize.ShloMosaic Idealize.ShloMosaic.TcCoe Idealize.SL.Sem

variable (m : (ℓ : Loc nD τ sig) → Buf (Elt Ideal) ℓ) (ρ : Dev nD → PrngReg)

/-- Region 0 leaves the first layer's messages. -/
theorem k_msg1 (c : Dev nD) (hr : Range.InRange (m ((c : Thread nD τ).loc main_arg1))) :
    W3 (F := Ideal) m ρ c (Proc.devRef .tc main_v5) = Cert.Net.msg1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 4).trans ?_
  rw [RegionVal.region0 (V2 m ρ) c, KHost.V2_ea, KHost.V2_hs, KHost.V2_W, KHost.V2_b, Range.take_src _ _ hr]
  rfl

/-- Region 1 leaves the first layer's node features. -/
theorem k_hid1 (c : Dev nD) (hr : Range.InRange (m ((c : Thread nD τ).loc main_arg1))) :
    W5 (F := Ideal) m ρ c (Proc.devRef .tc main_v15) = Cert.Net.hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 5).trans ?_
  rw [RegionVal.region1 (V4 m ρ) c, KHost.V4_agg, KHost.V4_sh, KHost.V4_Wa, KHost.V4_Wh, KHost.V4_b, k_msg1 m ρ c hr]
  rfl

/-- Region 2 leaves the second layer's messages. -/
theorem k_msg2 (c : Dev nD) (hr : Range.InRange (m ((c : Thread nD τ).loc main_arg1))) :
    W7 (F := Ideal) m ρ c (Proc.devRef .tc main_v17) = Cert.Net.msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 4).trans ?_
  rw [RegionVal.region2 (V6 m ρ) c, KHost.V6_ea, KHost.V6_hs, KHost.V6_W, KHost.V6_b, k_hid1 m ρ c hr, Range.take_src _ _ hr]
  rfl

/-- Region 3 leaves the second layer's node features. -/
theorem k_hid2 (c : Dev nD) (hr : Range.InRange (m ((c : Thread nD τ).loc main_arg1))) :
    W9 (F := Ideal) m ρ c (Proc.devRef .tc main_v27) = Cert.Net.hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W9_arr m ρ c 5).trans ?_
  rw [RegionVal.region3 (V8 m ρ) c, KHost.V8_agg, KHost.V8_sh, KHost.V8_Wa, KHost.V8_Wh, KHost.V8_b, k_msg2 m ρ c hr, k_hid1 m ρ c hr]
  rfl

/-- The kernel program's first result buffer ends at the edge embedding. -/
theorem k_edge (c : Dev nD) (hr : Range.InRange (m ((c : Thread nD τ).loc main_arg1))) :
    W13 (F := Ideal) m ρ c (Proc.devRef .tc main_v31_0) = Cert.Net.outEdge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W13_arr m ρ c 6).trans ?_
  rw [RegionVal.region4_edge (V12 m ρ) c, KHost.V12_src, KHost.V12_dst, k_hid2 m ρ c hr, Range.take_src _ _ hr, Range.take_dst _ _ hr]
  rfl

/-- The kernel program's second result buffer ends at the class probabilities. -/
theorem k_prob (c : Dev nD) (hr : Range.InRange (m ((c : Thread nD τ).loc main_arg1))) :
    W13 (F := Ideal) m ρ c (Proc.devRef .tc main_v31_1) = Cert.Net.outProb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W13_arr m ρ c 7).trans ?_
  rw [RegionVal.region4_prob (V12 m ρ) c, KHost.V12_src, KHost.V12_dst, KHost.V12_W1, KHost.V12_b1, KHost.V12_W2, KHost.V12_b2,
    k_hid2 m ρ c hr, Range.take_src _ _ hr, Range.take_dst _ _ hr]
  rfl

end Cert.KernelIdeal.KVal

end
-- ==== Proof.Bridge.lean ====
/-
  The reference computes a layer's node update from the joined row [agg | sh] of width 256 and the stacked weight
  matrix; the kernel computes it from the two rows of width 128 and the matrix's two halves. The two agree entry by
  entry: the sum over 256 positions is the sum over the first 128 plus the sum over the last 128 (a law of any
  commutative additive monoid, so it holds on the extended reals with no finiteness assumption); on the first half
  the joined row is agg and the matrix its rows 0 … 127, on the second the row is sh and the matrix its rows
  128 … 255.

  The scaling of the node features by 1 + eps is likewise one number times each entry on both sides; the programs
  differ only in the chain of broadcasts that spreads the number, and a vector of length one has a single index.
-/
import proofs.«400179_j12421045420439_1_alg».proof.Proof.Spec
import proofs.«400179_j12421045420439_1_alg».proof.Proof.HostTerms
import Idealize.ShloMosaic.Lib.Pipeline.Value
import Idealize.ShloMosaic.Lib.ValueIdx
import Idealize.ShloMosaic.PureOps.Ideal.Laws
import Mathlib.Algebra.BigOperators.Fin

noncomputable section

namespace Cert.KernelIdeal.Bridge

open Cert.KernelIdeal Cert.KernelIdeal.Gen Cert.KernelIdeal.HostTerms
open Idealize.ShloMosaic

/-! ### A sum over 256 terms is the sum of its two halves

A law of any commutative additive monoid: nothing about the summands is used. -/

/-- Position `k` of the first half, as a position among all 256. -/
abbrev lo256 (k : Fin 128) : Fin 256 := ⟨k.val, Nat.lt_trans k.isLt (by decide)⟩
/-- Position `k` of the second half, as a position among all 256. -/
abbrev hi256 (k : Fin 128) : Fin 256 := ⟨128 + k.val, Nat.add_lt_add_left k.isLt 128⟩

theorem sum_halves {M : Type} [AddCommMonoid M] (f : Fin 256 → M) :
    ∑ k : Fin 256, f k = (∑ k : Fin 128, f (lo256 k)) + ∑ k : Fin 128, f (hi256 k) :=
  Fin.sum_univ_add (a := 128) (b := 128) f

/-! ### The joined row and the stacked matrix, read at one position of each half -/

section Point
variable (hc : Shape.Concatenates [(⟨2, ![50000, 128]⟩ : Shape), (⟨2, ![50000, 128]⟩ : Shape)] (⟨2, ![50000, 256]⟩ : Shape) 1)
  (agg sh : Cert.Spec.Mat 50000 128) (W : Cert.Spec.Mat 256 128)
  (i : (⟨2, ![50000, 128]⟩ : Shape).Idx) (k : Fin 128)

/-- Columns 0 … 127 of the joined row `[agg | sh]` are the row of `agg`. -/
theorem cat_lo :
    concatenate (⟨2, ![50000, 256]⟩ : Shape) 1 [⟨(⟨2, ![50000, 128]⟩ : Shape), agg⟩, ⟨(⟨2, ![50000, 128]⟩ : Shape), sh⟩] hc
      (Cert.Spec.rowK i (lo256 k)) = agg (Cert.Spec.rowK i k) :=
  concatenate_pair_apply_left 1 agg sh hc _ rfl _ fun b => match b with
    | ⟨0, _⟩ => rfl
    | ⟨1, _⟩ => rfl

/-- Columns 128 … 255 of the joined row are the row of `sh`, 128 columns to the left. -/
theorem cat_hi :
    concatenate (⟨2, ![50000, 256]⟩ : Shape) 1 [⟨(⟨2, ![50000, 128]⟩ : Shape), agg⟩, ⟨(⟨2, ![50000, 128]⟩ : Shape), sh⟩] hc
      (Cert.Spec.rowK i (hi256 k)) = sh (Cert.Spec.rowK i k) :=
  concatenate_pair_apply_right 1 agg sh hc _ rfl rfl _
    (fun b => match b with
      | ⟨0, _⟩ => fun _ => rfl
      | ⟨1, _⟩ => fun hb => absurd rfl hb)
    (by show k.val + 128 = 128 + k.val; omega)

/-- Rows 0 … 127 of the stacked matrix are its upper half. -/
theorem W_lo : W (Cert.Spec.kCol i (lo256 k)) = loT (F := Ideal) W (Cert.Spec.kCol i k) :=
  (extractStridedSlice_apply _ W _ _ _ fun a => match a with
    | ⟨0, _⟩ => by show k.val = 0 + k.val; omega
    | ⟨1, _⟩ => by show (i 1).val = 0 + (i 1).val; omega).symm

/-- Rows 128 … 255 of the stacked matrix are its lower half. -/
theorem W_hi : W (Cert.Spec.kCol i (hi256 k)) = hiT (F := Ideal) W (Cert.Spec.kCol i k) :=
  (extractStridedSlice_apply _ W _ _ _ fun a => match a with
    | ⟨0, _⟩ => by show 128 + k.val = 128 + k.val; rfl
    | ⟨1, _⟩ => by show (i 1).val = 0 + (i 1).val; omega).symm

end Point

/-- The node update from the joined row `[agg | sh]` times the stacked matrix is the update from the two halves:
    each entry's sum over 256 positions is the sum over the first 128, where the row is `agg` and the matrix its
    upper half, plus the sum over the last 128, where the row is `sh` and the matrix its lower half. -/
theorem updCat_concat
    (hc : Shape.Concatenates [(⟨2, ![50000, 128]⟩ : Shape), (⟨2, ![50000, 128]⟩ : Shape)] (⟨2, ![50000, 256]⟩ : Shape) 1)
    (agg sh : FVec Ideal S50000x128 .f32) (W : FVec Ideal S256x128 .f32) (b : FVec Ideal S128 .f32) :
    Cert.Spec.updCat (concatenate (⟨2, ![50000, 256]⟩ : Shape) 1
        [⟨(⟨2, ![50000, 128]⟩ : Shape), agg⟩, ⟨(⟨2, ![50000, 128]⟩ : Shape), sh⟩] hc) W b
      = Cert.Spec.updF agg sh (loT (F := Ideal) W) (hiT (F := Ideal) W) b := by
  funext i
  unfold Cert.Spec.updCat Cert.Spec.updF Cert.Spec.dotAt
  refine congrArg Cert.Spec.leaky (congrArg (· + _) ?_)
  rw [sum_halves]
  refine congrArg₂ (· + ·) (Finset.sum_congr rfl fun k _ => ?_) (Finset.sum_congr rfl fun k _ => ?_)
  · rw [cat_lo hc agg sh i k, W_lo W i k]
  · rw [cat_hi hc agg sh i k, W_hi W i k]

/-! ### The scaling by 1 + eps

Both programs multiply every entry of `h` by the one number 1 + eps; they differ only in how that number is spread
over the array (through a [1] and a [1, 1] array on one side, through a rank-0 array on the other). A vector of
length one has a single index, so whichever index of `eps` a chain of broadcasts ends at, it is that one. -/

/-- The shape [1] has exactly one index. -/
theorem idx1_eq (p q : (⟨1, ![1]⟩ : Shape).Idx) : p = q :=
  funext fun a => match a with
    | ⟨0, ha⟩ => by
        have hp : (p ⟨0, ha⟩).val < 1 := (p ⟨0, ha⟩).isLt
        have hq : (q ⟨0, ha⟩).val < 1 := (q ⟨0, ha⟩).isLt
        exact Fin.ext (by omega)

/-- The node features times 1 + eps, as the reference spreads the factor, are the kernel's `scaleT`. -/
theorem scale_eq
    (hb0 : (⟨0, ![]⟩ : Shape).BroadcastsInDim (⟨1, ![1]⟩ : Shape) (![] : Fin 0 → Fin 1))
    (hb1 : (⟨1, ![1]⟩ : Shape).BroadcastsInDim (⟨2, ![1, 1]⟩ : Shape) (![1] : Fin 1 → Fin 2))
    (hb2 : (⟨2, ![1, 1]⟩ : Shape).BroadcastsInDim (⟨2, ![50000, 128]⟩ : Shape) (![0, 1] : Fin 2 → Fin 2))
    (eps : FVec Ideal S1 .f32) (h : FVec Ideal S50000x128 .f32) :
    mulf (broadcastInDim (⟨2, ![50000, 128]⟩ : Shape) ![0, 1] hb2
        (broadcastInDim (⟨2, ![1, 1]⟩ : Shape) ![1] hb1
          (addf (broadcastInDim (⟨1, ![1]⟩ : Shape) ![] hb0 (constant (F := Ideal) (⟨0, ![]⟩ : Shape) .f32 0x3F800000#32)) eps))) h
      = scaleT (F := Ideal) eps h := by
  funext i
  show (Ideal.ofBits .f32 0x3F800000#32 + eps _) * h i = (Ideal.ofBits .f32 0x3F800000#32 + eps _) * h i
  exact congrArg (fun e => (Ideal.ofBits .f32 0x3F800000#32 + eps e) * h i) (idx1_eq _ _)

end Cert.KernelIdeal.Bridge

end
-- ==== Proof.RefOpsMsg.lean ====
/-
  The reference program's products with a weight matrix plus a bias broadcast down the rows, as the specification's
  functions: a layer's messages and the classifier's two logits.
-/
import proofs.«400179_j12421045420439_1_alg».proof.ReferenceIdeal
import proofs.«400179_j12421045420439_1_alg».proof.Proof.Gen.ReferenceIdeal
import proofs.«400179_j12421045420439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefOps

open Cert.ReferenceIdeal Cert.ReferenceIdeal.Gen
open Idealize.ShloMosaic Idealize.ShloMosaic.ValueIdx

/-! ## The messages' product, bias and zero at an index -/

/-- The left operand of the messages' product is read at the output's row … -/
theorem msg_lhs_row (i : S800000x128.Idx) (q : dot_S800000x64_S64x128_S800000x128_1_0_0_1_n_n.contr.Idx) :
    (dot_S800000x64_S64x128_S800000x128_1_0_0_1_n_n.lhsIdx i q 0).val = (i 0).val := by
  unfold DotDims.lhsIdx
  rw [dif_neg (show ¬(0 : Fin S800000x64.rank) ∈ dot_S800000x64_S64x128_S800000x128_1_0_0_1_n_n.lhsBatch by decide), dif_pos (show (0 : Fin S800000x64.rank) ∈ dot_S800000x64_S64x128_S800000x128_1_0_0_1_n_n.lhsNonContracting by decide)]
  rfl
/-- … and at the contraction coordinate on its second axis. -/
theorem msg_lhs_contr (i : S800000x128.Idx) (q : dot_S800000x64_S64x128_S800000x128_1_0_0_1_n_n.contr.Idx) :
    (dot_S800000x64_S64x128_S800000x128_1_0_0_1_n_n.lhsIdx i q 1).val = (q ⟨0, by decide⟩).val :=
  dot_S800000x64_S64x128_S800000x128_1_0_0_1_n_n.lhsIdx_val_of_single rfl i q
/-- The right operand is read at the contraction coordinate on its first axis … -/
theorem msg_rhs_contr (i : S800000x128.Idx) (q : dot_S800000x64_S64x128_S800000x128_1_0_0_1_n_n.contr.Idx) :
    (dot_S800000x64_S64x128_S800000x128_1_0_0_1_n_n.rhsIdx i q 0).val = (q ⟨0, by decide⟩).val :=
  dot_S800000x64_S64x128_S800000x128_1_0_0_1_n_n.rhsIdx_val_of_single rfl i q
/-- … and at the output's column. -/
theorem msg_rhs_col (i : S800000x128.Idx) (q : dot_S800000x64_S64x128_S800000x128_1_0_0_1_n_n.contr.Idx) :
    (dot_S800000x64_S64x128_S800000x128_1_0_0_1_n_n.rhsIdx i q 1).val = (i 1).val := by
  unfold DotDims.rhsIdx
  rw [dif_neg (show ¬(1 : Fin S64x128.rank) ∈ dot_S800000x64_S64x128_S800000x128_1_0_0_1_n_n.rhsBatch by decide), dif_pos (show (1 : Fin S64x128.rank) ∈ dot_S800000x64_S64x128_S800000x128_1_0_0_1_n_n.rhsNonContracting by decide)]
  rfl

/-- The product of the edge features with the weight matrix is the sum over the shared axis of 64. -/
theorem msg_dot_at (ea : FVec Ideal S800000x64 .f32) (W : FVec Ideal S64x128 .f32) (i : S800000x128.Idx) :
    Host.dotGeneral dot_S800000x64_S64x128_S800000x128_1_0_0_1_n_n none ea W i = Cert.Spec.dotAt ea W i := by
  simp only [Host.dotGeneral]
  rw [Ideal.dotGeneral_apply, ← Equiv.sum_comp (ValueIdx.contrEquiv1 dot_S800000x64_S64x128_S800000x128_1_0_0_1_n_n 64 rfl rfl).symm]
  unfold Cert.Spec.dotAt
  refine Finset.sum_congr rfl fun k _ => ?_
  have hk := ValueIdx.contrEquiv1_symm_val dot_S800000x64_S64x128_S800000x128_1_0_0_1_n_n 64 rfl rfl k
  have el : dot_S800000x64_S64x128_S800000x128_1_0_0_1_n_n.lhsIdx i ((ValueIdx.contrEquiv1 dot_S800000x64_S64x128_S800000x128_1_0_0_1_n_n 64 rfl rfl).symm k) = Cert.Spec.rowK i k := funext fun a => Fin.ext (by
    match a with
    | ⟨0, _⟩ => exact msg_lhs_row _ _
    | ⟨1, _⟩ => exact (msg_lhs_contr _ _).trans hk)
  have er : dot_S800000x64_S64x128_S800000x128_1_0_0_1_n_n.rhsIdx i ((ValueIdx.contrEquiv1 dot_S800000x64_S64x128_S800000x128_1_0_0_1_n_n 64 rfl rfl).symm k) = Cert.Spec.kCol i k := funext fun a => Fin.ext (by
    match a with
    | ⟨0, _⟩ => exact (msg_rhs_contr _ _).trans hk
    | ⟨1, _⟩ => exact msg_rhs_col _ _)
  rw [el, er]

/-- The bias of length 128, made one row and repeated down the 800000 rows, reads the bias at the column. -/
theorem bias128_at (b : FVec Ideal S128 .f32) (i : S800000x128.Idx) :
    broadcastInDim S800000x128 ![0, 1] bcast_S1x128_S800000x128_0_1 (broadcastInDim S1x128 ![1] bcast_S128_S1x128_1 b) i
      = b (Cert.Spec.colOf i) := by
  refine (broadcastInDim_apply _ bcast_S1x128_S800000x128_0_1 _ i
    (fun a => match a with | ⟨0, _⟩ => ⟨0, Nat.one_pos⟩ | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b _ (Cert.Spec.colOf i) (fun a => match a with
    | ⟨0, _⟩ => by show (i 1).val = if (128 : Nat) = 1 then 0 else (i 1).val; rw [if_neg (by decide)])

/-- The zero scalar repeated over the 800000 × 128 array is zero everywhere. -/
theorem zero_at (i : S800000x128.Idx) :
    broadcastInDim S800000x128 ![] bcast_S_S800000x128 (constant (F := Ideal) S_ .f32 0x00000000#32) i = 0 := by
  refine (broadcastInDim_apply _ bcast_S_S800000x128 _ i (fun a => a.elim0) (fun a => a.elim0)).trans ?_
  rw [constant_apply, Ideal.ofBits_zero_f32]

/-- A layer's messages as the reference computes them: the gathered rows `g` plus (edge features · W + the bias
    broadcast down the rows), then the larger of that and zero. -/
theorem msg_ops (ea : FVec Ideal S800000x64 .f32) (g : FVec Ideal S800000x128 .f32) (W : FVec Ideal S64x128 .f32) (b : FVec Ideal S128 .f32) :
    maximumf (addf g (addf (Host.dotGeneral dot_S800000x64_S64x128_S800000x128_1_0_0_1_n_n none ea W)
        (broadcastInDim S800000x128 ![0, 1] bcast_S1x128_S800000x128_0_1 (broadcastInDim S1x128 ![1] bcast_S128_S1x128_1 b))))
      (broadcastInDim S800000x128 ![] bcast_S_S800000x128 (constant (F := Ideal) S_ .f32 0x00000000#32))
      = Cert.Spec.msgF ea g W b := by
  funext i
  unfold Cert.Spec.msgF
  rw [maximumf_apply, addf_apply, addf_apply, msg_dot_at, bias128_at, zero_at]

/-! ## The logits' product and bias at an index -/

/-- The left operand of the logits' product is read at the output's row … -/
theorem logit_lhs_row (i : S800000x2.Idx) (q : dot_S800000x128_S128x2_S800000x2_1_0_0_1_n_n.contr.Idx) :
    (dot_S800000x128_S128x2_S800000x2_1_0_0_1_n_n.lhsIdx i q 0).val = (i 0).val := by
  unfold DotDims.lhsIdx
  rw [dif_neg (show ¬(0 : Fin S800000x128.rank) ∈ dot_S800000x128_S128x2_S800000x2_1_0_0_1_n_n.lhsBatch by decide), dif_pos (show (0 : Fin S800000x128.rank) ∈ dot_S800000x128_S128x2_S800000x2_1_0_0_1_n_n.lhsNonContracting by decide)]
  rfl
/-- … and at the contraction coordinate on its second axis. -/
theorem logit_lhs_contr (i : S800000x2.Idx) (q : dot_S800000x128_S128x2_S800000x2_1_0_0_1_n_n.contr.Idx) :
    (dot_S800000x128_S128x2_S800000x2_1_0_0_1_n_n.lhsIdx i q 1).val = (q ⟨0, by decide⟩).val :=
  dot_S800000x128_S128x2_S800000x2_1_0_0_1_n_n.lhsIdx_val_of_single rfl i q
/-- The right operand is read at the contraction coordinate on its first axis … -/
theorem logit_rhs_contr (i : S800000x2.Idx) (q : dot_S800000x128_S128x2_S800000x2_1_0_0_1_n_n.contr.Idx) :
    (dot_S800000x128_S128x2_S800000x2_1_0_0_1_n_n.rhsIdx i q 0).val = (q ⟨0, by decide⟩).val :=
  dot_S800000x128_S128x2_S800000x2_1_0_0_1_n_n.rhsIdx_val_of_single rfl i q
/-- … and at the output's column. -/
theorem logit_rhs_col (i : S800000x2.Idx) (q : dot_S800000x128_S128x2_S800000x2_1_0_0_1_n_n.contr.Idx) :
    (dot_S800000x128_S128x2_S800000x2_1_0_0_1_n_n.rhsIdx i q 1).val = (i 1).val := by
  unfold DotDims.rhsIdx
  rw [dif_neg (show ¬(1 : Fin S128x2.rank) ∈ dot_S800000x128_S128x2_S800000x2_1_0_0_1_n_n.rhsBatch by decide), dif_pos (show (1 : Fin S128x2.rank) ∈ dot_S800000x128_S128x2_S800000x2_1_0_0_1_n_n.rhsNonContracting by decide)]
  rfl

/-- The product of the hidden layer with the second weight matrix is the sum over the shared axis of 128. -/
theorem logit_dot_at (z : FVec Ideal S800000x128 .f32) (W2 : FVec Ideal S128x2 .f32) (i : S800000x2.Idx) :
    Host.dotGeneral dot_S800000x128_S128x2_S800000x2_1_0_0_1_n_n none z W2 i = Cert.Spec.dotAt z W2 i := by
  simp only [Host.dotGeneral]
  rw [Ideal.dotGeneral_apply, ← Equiv.sum_comp (ValueIdx.contrEquiv1 dot_S800000x128_S128x2_S800000x2_1_0_0_1_n_n 128 rfl rfl).symm]
  unfold Cert.Spec.dotAt
  refine Finset.sum_congr rfl fun k _ => ?_
  have hk := ValueIdx.contrEquiv1_symm_val dot_S800000x128_S128x2_S800000x2_1_0_0_1_n_n 128 rfl rfl k
  have el : dot_S800000x128_S128x2_S800000x2_1_0_0_1_n_n.lhsIdx i ((ValueIdx.contrEquiv1 dot_S800000x128_S128x2_S800000x2_1_0_0_1_n_n 128 rfl rfl).symm k) = Cert.Spec.rowK i k := funext fun a => Fin.ext (by
    match a with
    | ⟨0, _⟩ => exact logit_lhs_row _ _
    | ⟨1, _⟩ => exact (logit_lhs_contr _ _).trans hk)
  have er : dot_S800000x128_S128x2_S800000x2_1_0_0_1_n_n.rhsIdx i ((ValueIdx.contrEquiv1 dot_S800000x128_S128x2_S800000x2_1_0_0_1_n_n 128 rfl rfl).symm k) = Cert.Spec.kCol i k := funext fun a => Fin.ext (by
    match a with
    | ⟨0, _⟩ => exact (logit_rhs_contr _ _).trans hk
    | ⟨1, _⟩ => exact logit_rhs_col _ _)
  rw [el, er]

/-- The bias of length 2, made one row and repeated down the 800000 rows, reads the bias at the column. -/
theorem bias2_at (b2 : FVec Ideal S2 .f32) (i : S800000x2.Idx) :
    broadcastInDim S800000x2 ![0, 1] bcast_S1x2_S800000x2_0_1 (broadcastInDim S1x2 ![1] bcast_S2_S1x2_1 b2) i
      = b2 (Cert.Spec.colOf i) := by
  refine (broadcastInDim_apply _ bcast_S1x2_S800000x2_0_1 _ i
    (fun a => match a with | ⟨0, _⟩ => ⟨0, Nat.one_pos⟩ | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])).trans ?_
  exact broadcastInDim_apply _ bcast_S2_S1x2_1 b2 _ (Cert.Spec.colOf i) (fun a => match a with
    | ⟨0, _⟩ => by show (i 1).val = if (2 : Nat) = 1 then 0 else (i 1).val; rw [if_neg (by decide)])

/-- The two logits as the reference computes them. -/
theorem logit_ops (z : FVec Ideal S800000x128 .f32) (W2 : FVec Ideal S128x2 .f32) (b2 : FVec Ideal S2 .f32) :
    addf (Host.dotGeneral dot_S800000x128_S128x2_S800000x2_1_0_0_1_n_n none z W2)
        (broadcastInDim S800000x2 ![0, 1] bcast_S1x2_S800000x2_0_1 (broadcastInDim S1x2 ![1] bcast_S2_S1x2_1 b2))
      = Cert.Spec.logitF z W2 b2 := by
  funext i
  unfold Cert.Spec.logitF
  rw [addf_apply, logit_dot_at, bias2_at]

end Cert.ReferenceIdeal.RefOps

end
-- ==== Proof.RefOpsUpd.lean ====
/-
  The reference program's leaky-rectified affine stages as the specification's functions: a layer's node update over
  the joined row, and the classifier's hidden layer.
-/
import proofs.«400179_j12421045420439_1_alg».proof.ReferenceIdeal
import proofs.«400179_j12421045420439_1_alg».proof.Proof.Gen.ReferenceIdeal
import proofs.«400179_j12421045420439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefOps

open Cert.ReferenceIdeal Cert.ReferenceIdeal.Gen
open Idealize.ShloMosaic Idealize.ShloMosaic.ValueIdx

namespace UpdHid

/-! ## The joined-row product at an index

The reference multiplies the 50000 joined rows of width 256 by the stacked 256 × 128 matrix. At an output index (r, c)
the contraction runs over one axis of length 256; re-indexed to the numbers below 256, the left factor is read at
(r, k) and the right one at (k, c). -/

/-- The left operand's row coordinate is the output's row. -/
theorem lhs_catProd_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
/-- The left operand's column coordinate is the contraction index. -/
theorem lhs_catProd_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
/-- The right operand's row coordinate is the contraction index. -/
theorem rhs_catProd_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
/-- The right operand's column coordinate is the output's column. -/
theorem rhs_catProd_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- The joined-row product at an index is the sum over the 256 shared entries. -/
theorem catProd_apply (cat : FVec Ideal S50000x256 .f32) (W : FVec Ideal S256x128 .f32) (i : S50000x128.Idx) :
    Host.dotGeneral dot_S50000x256_S256x128_S50000x128_1_0_0_1_n_n none cat W i
      = Cert.Spec.dotAt (R := 50000) (K := 256) (C := 128) cat W i := by
  simp only [Host.dotGeneral]
  rw [Ideal.dotGeneral_apply, ← Equiv.sum_comp (ValueIdx.contrEquiv1 dot_S50000x256_S256x128_S50000x128_1_0_0_1_n_n 256 rfl rfl).symm]
  unfold Cert.Spec.dotAt
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = Cert.Spec.rowK i k := funext fun a => Fin.ext (by
    match a with
    | ⟨0, _⟩ => exact lhs_catProd_0 _ _
    | ⟨1, _⟩ => exact (lhs_catProd_1 _ _).trans hk)
  have er : dot_S50000x256_S256x128_S50000x128_1_0_0_1_n_n.rhsIdx i ((ValueIdx.contrEquiv1 dot_S50000x256_S256x128_S50000x128_1_0_0_1_n_n 256 rfl rfl).symm k) = Cert.Spec.kCol i k := funext fun a => Fin.ext (by
    match a with
    | ⟨0, _⟩ => exact (rhs_catProd_0 _ _).trans hk
    | ⟨1, _⟩ => exact rhs_catProd_1 _ _)
  rw [el, er]

/-- The bias vector, given a unit row axis and repeated down the 50000 rows, reads its entry at the index's column. -/
theorem biasRows50000_apply (b : FVec Ideal S128 .f32) (i : S50000x128.Idx) :
    broadcastInDim S50000x128 ![0, 1] bcast_S1x128_S50000x128_0_1 (broadcastInDim S1x128 ![1] bcast_S128_S1x128_1 b) i
      = b (Cert.Spec.colOf i) := by
  have h1 := broadcastInDim_apply _ bcast_S1x128_S50000x128_0_1 (broadcastInDim S1x128 ![1] bcast_S128_S1x128_1 b) i
    (fun a => match a with
      | ⟨0, _⟩ => ⟨0, Nat.one_pos⟩
      | ⟨1, _⟩ => ⟨(i 1).val, (i 1).isLt⟩)
    (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h1]
  exact broadcastInDim_apply _ bcast_S128_S1x128_1 b _ (Cert.Spec.colOf i) (fun a => match a with
    | ⟨0, _⟩ => by show (i 1).val = if (128 : Nat) = 1 then 0 else (i 1).val; rw [if_neg (by decide)])

/-- A scalar constant repeated over the 50000 × 128 entries reads the extended real its word encodes. -/
theorem scalarRows50000_apply (w : BitVec 32) (i : S50000x128.Idx) :
    broadcastInDim S50000x128 ![] bcast_S_S50000x128 (constant (F := Ideal) S_ .f32 w) i = Ideal.ofBits .f32 w :=
  broadcastInDim_apply _ bcast_S_S50000x128 (constant (F := Ideal) S_ .f32 w) i (fun a => a.elim0) (fun a => a.elim0)

/-- The select on "greater than zero" between z and slope · z, entry by entry, is the leaky rectifier of z. -/
theorem leakyRows50000_apply (z : FVec Ideal S50000x128 .f32) (i : S50000x128.Idx) :
    select (cmpf .ogt z (broadcastInDim S50000x128 ![] bcast_S_S50000x128 (constant (F := Ideal) S_ .f32 0x00000000#32))) z
        (mulf (broadcastInDim S50000x128 ![] bcast_S_S50000x128 (constant (F := Ideal) S_ .f32 0x3E4CCCCD#32)) z) i
      = Cert.Spec.leaky (z i) := by
  show Scalar.select (FloatOps.cmpf .ogt (z i) (broadcastInDim S50000x128 ![] bcast_S_S50000x128 (constant (F := Ideal) S_ .f32 0x00000000#32) i)) (z i)
      (broadcastInDim S50000x128 ![] bcast_S_S50000x128 (constant (F := Ideal) S_ .f32 0x3E4CCCCD#32) i * z i) = _
  rw [scalarRows50000_apply, scalarRows50000_apply]
  rfl

end UpdHid

/-- A layer's node update as the reference computes it from the joined row cat: z = cat · W + bias, then z where
    z > 0 and the slope times z elsewhere. -/
theorem upd_ops (cat : FVec Ideal S50000x256 .f32) (W : FVec Ideal S256x128 .f32) (b : FVec Ideal S128 .f32) :
    (let z := addf (Host.dotGeneral dot_S50000x256_S256x128_S50000x128_1_0_0_1_n_n none cat W)
        (broadcastInDim S50000x128 ![0, 1] bcast_S1x128_S50000x128_0_1 (broadcastInDim S1x128 ![1] bcast_S128_S1x128_1 b))
     select (cmpf .ogt z (broadcastInDim S50000x128 ![] bcast_S_S50000x128 (constant (F := Ideal) S_ .f32 0x00000000#32))) z
        (mulf (broadcastInDim S50000x128 ![] bcast_S_S50000x128 (constant (F := Ideal) S_ .f32 0x3E4CCCCD#32)) z))
      = Cert.Spec.updCat cat W b := by
  funext i
  refine (UpdHid.leakyRows50000_apply _ i).trans ?_
  show Cert.Spec.leaky (Host.dotGeneral dot_S50000x256_S256x128_S50000x128_1_0_0_1_n_n none cat W i
      + broadcastInDim S50000x128 ![0, 1] bcast_S1x128_S50000x128_0_1 (broadcastInDim S1x128 ![1] bcast_S128_S1x128_1 b) i) = _
  rw [UpdHid.catProd_apply, UpdHid.biasRows50000_apply]
  rfl

namespace UpdHid

/-! ## The classifier's hidden product at an index

The reference multiplies the 800000 edge embeddings of width 128 by a 128 × 128 matrix; the contraction runs over one
axis of length 128. -/

/-- The left operand's row coordinate is the output's row. -/
theorem lhs_edgeProd_0 (i : S800000x128.Idx) (q : dot_S800000x128_S128x128_S800000x128_1_0_0_1_n_n.contr.Idx) :
    (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch by decide), dif_pos (show (0 : Fin S800000x128.rank) ∈ dot_S800000x128_S128x128_S800000x128_1_0_0_1_n_n.lhsNonContracting by decide)]
  rfl
/-- The left operand's column coordinate is the contraction index. -/
theorem lhs_edgeProd_1 (i : S800000x128.Idx) (q : dot_S800000x128_S128x128_S800000x128_1_0_0_1_n_n.contr.Idx) :
    (dot_S800000x128_S128x128_S800000x128_1_0_0_1_n_n.lhsIdx i q 1).val = (q ⟨0, by decide⟩).val :=
  dot_S800000x128_S128x128_S800000x128_1_0_0_1_n_n.lhsIdx_val_of_single rfl i q
/-- The right operand's row coordinate is the contraction index. -/
theorem rhs_edgeProd_0 (i : S800000x128.Idx) (q : dot_S800000x128_S128x128_S800000x128_1_0_0_1_n_n.contr.Idx) :
    (dot_S800000x128_S128x128_S800000x128_1_0_0_1_n_n.rhsIdx i q 0).val = (q ⟨0, by decide⟩).val :=
  dot_S800000x128_S128x128_S800000x128_1_0_0_1_n_n.rhsIdx_val_of_single rfl i q
/-- The right operand's column coordinate is the output's column. -/
theorem rhs_edgeProd_1 (i : S800000x128.Idx) (q : dot_S800000x128_S128x128_S800000x128_1_0_0_1_n_n.contr.Idx) :
    (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch by decide), dif_pos (show (1 : Fin S128x128.rank) ∈ dot_S800000x128_S128x128_S800000x128_1_0_0_1_n_n.rhsNonContracting by decide)]
  rfl

/-- The hidden product at an index is the sum over the 128 shared entries. -/
theorem edgeProd_apply (he : FVec Ideal S800000x128 .f32) (W1 : FVec Ideal S128x128 .f32) (i : S800000x128.Idx) :
    Host.dotGeneral dot_S800000x128_S128x128_S800000x128_1_0_0_1_n_n none he W1 i
      = Cert.Spec.dotAt (R := 800000) (K := 128) (C := 128) he W1 i := by
  simp only [Host.dotGeneral]
  rw [Ideal.dotGeneral_apply, ← Equiv.sum_comp (ValueIdx.contrEquiv1 dot_S800000x128_S128x128_S800000x128_1_0_0_1_n_n 128 rfl rfl).symm]
  unfold Cert.Spec.dotAt
  refine Finset.sum_congr rfl fun k _ => ?_
  have hk := ValueIdx.contrEquiv1_symm_val dot_S800000x128_S128x128_S800000x128_1_0_0_1_n_n 128 rfl rfl k
  have el : dot_S800000x128_S128x128_S800000x128_1_0_0_1_n_n.lhsIdx i ((ValueIdx.contrEquiv1 dot_S800000x128_S128x128_S800000x128_1_0_0_1_n_n 128 rfl rfl).symm k) = Cert.Spec.rowK i k := funext fun a => Fin.ext (by
    match a with
    | ⟨0, _⟩ => exact lhs_edgeProd_0 _ _
    | ⟨1, _⟩ => exact (lhs_edgeProd_1 _ _).trans hk)
  have er : dot_S800000x128_S128x128_S800000x128_1_0_0_1_n_n.rhsIdx i ((ValueIdx.contrEquiv1 dot_S800000x128_S128x128_S800000x128_1_0_0_1_n_n 128 rfl rfl).symm k) = Cert.Spec.kCol i k := funext fun a => Fin.ext (by
    match a with
    | ⟨0, _⟩ => exact (rhs_edgeProd_0 _ _).trans hk
    | ⟨1, _⟩ => exact rhs_edgeProd_1 _ _)
  rw [el, er]

/-- The bias vector, given a unit row axis and repeated down the 800000 rows, reads its entry at the index's column. -/
theorem biasRows800000_apply (b : FVec Ideal S128 .f32) (i : S800000x128.Idx) :
    broadcastInDim S800000x128 ![0, 1] bcast_S1x128_S800000x128_0_1 (broadcastInDim S1x128 ![1] bcast_S128_S1x128_1 b) i
      = b (Cert.Spec.colOf i) := by
  have h1 := broadcastInDim_apply _ bcast_S1x128_S800000x128_0_1 (broadcastInDim S1x128 ![1] bcast_S128_S1x128_1 b) i
    (fun a => match a with
      | ⟨0, _⟩ => ⟨0, Nat.one_pos⟩
      | ⟨1, _⟩ => ⟨(i 1).val, (i 1).isLt⟩)
    (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h1]
  exact broadcastInDim_apply _ bcast_S128_S1x128_1 b _ (Cert.Spec.colOf i) (fun a => match a with
    | ⟨0, _⟩ => by show (i 1).val = if (128 : Nat) = 1 then 0 else (i 1).val; rw [if_neg (by decide)])

/-- A scalar constant repeated over the 800000 × 128 entries reads the extended real its word encodes. -/
theorem scalarRows800000_apply (w : BitVec 32) (i : S800000x128.Idx) :
    broadcastInDim S800000x128 ![] bcast_S_S800000x128 (constant (F := Ideal) S_ .f32 w) i = Ideal.ofBits .f32 w :=
  broadcastInDim_apply _ bcast_S_S800000x128 (constant (F := Ideal) S_ .f32 w) i (fun a => a.elim0) (fun a => a.elim0)

/-- The select on "greater than zero" between z and slope · z, entry by entry, is the leaky rectifier of z. -/
theorem leakyRows800000_apply (z : FVec Ideal S800000x128 .f32) (i : S800000x128.Idx) :
    select (cmpf .ogt z (broadcastInDim S800000x128 ![] bcast_S_S800000x128 (constant (F := Ideal) S_ .f32 0x00000000#32))) z
        (mulf (broadcastInDim S800000x128 ![] bcast_S_S800000x128 (constant (F := Ideal) S_ .f32 0x3E4CCCCD#32)) z) i
      = Cert.Spec.leaky (z i) := by
  show Scalar.select (FloatOps.cmpf .ogt (z i) (broadcastInDim S800000x128 ![] bcast_S_S800000x128 (constant (F := Ideal) S_ .f32 0x00000000#32) i)) (z i)
      (broadcastInDim S800000x128 ![] bcast_S_S800000x128 (constant (F := Ideal) S_ .f32 0x3E4CCCCD#32) i * z i) = _
  rw [scalarRows800000_apply, scalarRows800000_apply]
  rfl

end UpdHid

/-- The classifier's hidden layer as the reference computes it. -/
theorem hid_ops (he : FVec Ideal S800000x128 .f32) (W1 : FVec Ideal S128x128 .f32) (b1 : FVec Ideal S128 .f32) :
    (let z := addf (Host.dotGeneral dot_S800000x128_S128x128_S800000x128_1_0_0_1_n_n none he W1)
        (broadcastInDim S800000x128 ![0, 1] bcast_S1x128_S800000x128_0_1 (broadcastInDim S1x128 ![1] bcast_S128_S1x128_1 b1))
     select (cmpf .ogt z (broadcastInDim S800000x128 ![] bcast_S_S800000x128 (constant (F := Ideal) S_ .f32 0x00000000#32))) z
        (mulf (broadcastInDim S800000x128 ![] bcast_S_S800000x128 (constant (F := Ideal) S_ .f32 0x3E4CCCCD#32)) z))
      = Cert.Spec.hidF he W1 b1 := by
  funext i
  refine (UpdHid.leakyRows800000_apply _ i).trans ?_
  show Cert.Spec.leaky (Host.dotGeneral dot_S800000x128_S128x128_S800000x128_1_0_0_1_n_n none he W1 i
      + broadcastInDim S800000x128 ![0, 1] bcast_S1x128_S800000x128_0_1 (broadcastInDim S1x128 ![1] bcast_S128_S1x128_1 b1) i) = _
  rw [UpdHid.edgeProd_apply, UpdHid.biasRows800000_apply]
  rfl

end Cert.ReferenceIdeal.RefOps

end
-- ==== Proof.RefFoldA1.lean ====
/-
  The reference program's first 43 host operations, read from the fold: the two rows of the edge list, and the first
  layer's node features as the network's `hid1` of the contents the stretch starts from. Buffers the stretch does not
  write keep their contents.
-/
import proofs.«400179_j12421045420439_1_alg».proof.Proof.RefRun
import proofs.«400179_j12421045420439_1_alg».proof.Proof.Spec
import proofs.«400179_j12421045420439_1_alg».proof.Proof.HostTerms
import proofs.«400179_j12421045420439_1_alg».proof.Proof.Net
import proofs.«400179_j12421045420439_1_alg».proof.Proof.Bridge
import proofs.«400179_j12421045420439_1_alg».proof.Proof.RefOpsMsg
import proofs.«400179_j12421045420439_1_alg».proof.Proof.RefOpsUpd
import Idealize.ShloMosaic.Lib.StableHlo.Run
import Idealize.ShloMosaic.Lib.Pipeline.Frame
import Idealize.ShloMosaic.PureOps.Ideal

noncomputable section

namespace Cert.ReferenceIdeal.FoldA1

open Cert.ReferenceIdeal Cert.ReferenceIdeal.Gen Cert.ReferenceIdeal.RunP Cert.KernelIdeal.HostTerms
open Idealize.ShloMosaic Idealize.ShloMosaic.StableHlo

variable {F : FTy → Type} [FloatOps F]

/-! ## The stages in the reference's own operations -/

/-- A layer's messages as the reference spells them: the gathered rows plus (edge features · W + the bias repeated
    down the rows), then the larger of that and zero. -/
def msgRaw (ea : FVec F S800000x64 .f32) (g : FVec F S800000x128 .f32) (Wm : FVec F S64x128 .f32) (b : FVec F S128 .f32) :
    FVec F S800000x128 .f32 :=
  maximumf (addf g (addf (Host.dotGeneral dot_S800000x64_S64x128_S800000x128_1_0_0_1_n_n none ea Wm)
      (broadcastInDim S800000x128 ![0, 1] bcast_S1x128_S800000x128_0_1 (broadcastInDim S1x128 ![1] bcast_S128_S1x128_1 b))))
    (broadcastInDim S800000x128 ![] bcast_S_S800000x128 (constant (F := F) S_ .f32 0x00000000#32))

/-- The joined row [agg | sh]: the messages added into their target nodes, beside the node features times 1 + eps
    (the factor spread through a [1] and a [1, 1] array). -/
def catRaw (d : IVec S800000 32) (M : FVec F S800000x128 .f32) (eps : FVec F S1 .f32) (h : FVec F S50000x128 .f32) :
    FVec F S50000x256 .f32 :=
  concatenate S50000x256 1
    [⟨S50000x128, aggT (F := F) d M⟩,
     ⟨S50000x128, mulf (broadcastInDim S50000x128 ![0, 1] bcast_S1x1_S50000x128_0_1 (broadcastInDim S1x1 ![1] bcast_S1_S1x1_1
        (addf (broadcastInDim S1 ![] bcast_S_S1 (constant (F := F) S_ .f32 0x3F800000#32)) eps))) h⟩]
    concatenates_S50000x128_S50000x128_S50000x256_d1

/-- The affine stage z = cat · W + the bias repeated down the rows. -/
def zRaw (cat : FVec F S50000x256 .f32) (Wm : FVec F S256x128 .f32) (b : FVec F S128 .f32) : FVec F S50000x128 .f32 :=
  addf (Host.dotGeneral dot_S50000x256_S256x128_S50000x128_1_0_0_1_n_n none cat Wm)
    (broadcastInDim S50000x128 ![0, 1] bcast_S1x128_S50000x128_0_1 (broadcastInDim S1x128 ![1] bcast_S128_S1x128_1 b))

/-- The node update as the reference spells it: z where z > 0, the slope times z elsewhere. -/
def updRaw (cat : FVec F S50000x256 .f32) (Wm : FVec F S256x128 .f32) (b : FVec F S128 .f32) : FVec F S50000x128 .f32 :=
  select (cmpf .ogt (zRaw cat Wm b) (broadcastInDim S50000x128 ![] bcast_S_S50000x128 (constant (F := F) S_ .f32 0x00000000#32)))
    (zRaw cat Wm b)
    (mulf (broadcastInDim S50000x128 ![] bcast_S_S50000x128 (constant (F := F) S_ .f32 0x3E4CCCCD#32)) (zRaw cat Wm b))

/-! ## What the stretch writes, and what it keeps -/

/-- The buffers the first 43 operations write. -/
def wr : List (Ref sig .tc) :=
  [main_v0, main_v1, main_v2, main_v3, main_v4, main_v5, main_v6, main_v7, main_c, main_v8, main_v9, main_c_0, main_v10,
   main_v11, main_v12, main_v13, main_v14, main_v15, main_call0_cst, main_call0_v0, main_v16, main_cst, main_v17, main_v18,
   main_v19, main_cst_1, main_v20, main_v21, main_v22, main_v23, main_v24, main_v25, main_v26, main_v27, main_v28, main_v29,
   main_cst_2, main_v30, main_v31, main_cst_3, main_v32, main_v33, main_v34]

set_option maxRecDepth 8192 in
set_option maxHeartbeats 4000000 in
theorem ops43_wr :
    (List.take 43 (ops (F := F))).Forall fun op => op.writes ⊆ (wr.map (Proc.devRef (τ := τ) .tc)).toFinset := by
  simp only [List.take, wr, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A part of the stretch writes only buffers of that list. -/
theorem wr_of_sub {l : List (HloOp τ sig (Elt F))} (h : ∀ op ∈ l, op ∈ List.take 43 (ops (F := F))) :
    l.Forall fun op => op.writes ⊆ (wr.map (Proc.devRef (τ := τ) .tc)).toFinset :=
  List.forall_iff_forall_mem.mpr fun op hop => List.forall_iff_forall_mem.mp ops43_wr op (h op hop)

/-- A buffer outside the list keeps its contents across the stretch … -/
theorem keepL (W : Valuation τ sig (Elt F)) {b : Ref sig .tc} (hb : b ∉ wr) :
    after (List.take 43 (ops (F := F))) W (Proc.devRef .tc b) = W (Proc.devRef .tc b) :=
  StableHlo.after_of_writes_sub _ _ ops43_wr hb

/-- … across its first 21 operations … -/
theorem keepAB (W : Valuation τ sig (Elt F)) {b : Ref sig .tc} (hb : b ∉ wr) :
    after (List.take 21 (List.take 43 (ops (F := F)))) W (Proc.devRef .tc b) = W (Proc.devRef .tc b) :=
  StableHlo.after_of_writes_sub _ _ (wr_of_sub fun op h => List.mem_of_mem_take h) hb

/-- … and across its first 4. -/
theorem keepA (W : Valuation τ sig (Elt F)) {b : Ref sig .tc} (hb : b ∉ wr) :
    after (List.take 4 (List.take 21 (List.take 43 (ops (F := F))))) W (Proc.devRef .tc b) = W (Proc.devRef .tc b) :=
  StableHlo.after_of_writes_sub _ _ (wr_of_sub fun op h => List.mem_of_mem_take (List.mem_of_mem_take h)) hb

/-! ## The chunks, at any entry contents -/

set_option maxRecDepth 8192 in
set_option maxHeartbeats 4000000 in
/-- The first four operations leave row 0 of the edge list in the source vector. -/
theorem a_src (W : Valuation τ sig (Elt F)) :
    after (List.take 4 (List.take 21 (List.take 43 (ops (F := F))))) W (Proc.devRef .tc main_v1)
      = srcT (W (Proc.devRef .tc main_arg1)) := by
  simp only [List.take]
  after_results_simp
  rfl

set_option maxRecDepth 8192 in
set_option maxHeartbeats 4000000 in
/-- After 21 operations the target vector is row 1 of the edge list. -/
theorem ab_dst (W : Valuation τ sig (Elt F)) :
    after (List.take 21 (List.take 43 (ops (F := F)))) W (Proc.devRef .tc main_v3)
      = dstT (W (Proc.devRef .tc main_arg1)) := by
  simp only [List.take]
  after_results_simp
  rfl

set_option maxRecDepth 8192 in
set_option maxHeartbeats 4000000 in
/-- Operations 4 … 20: the messages, from the source vector and the arguments the chunk is entered with. -/
theorem b_msg (W : Valuation τ sig (Elt F)) :
    after (List.drop 4 (List.take 21 (List.take 43 (ops (F := F))))) W (Proc.devRef .tc main_v16)
      = msgRaw (W (Proc.devRef .tc main_arg2)) (gatherT (F := F) (W (Proc.devRef .tc main_arg0)) (W (Proc.devRef .tc main_v1)))
          (W (Proc.devRef .tc main_arg3)) (W (Proc.devRef .tc main_arg4)) := by
  simp only [List.take, List.drop]
  after_results_simp
  rfl

set_option maxRecDepth 8192 in
set_option maxHeartbeats 4000000 in
/-- Operations 21 … 42: the node update, from the target vector, the messages and the arguments the chunk is
    entered with. -/
theorem c_upd (W : Valuation τ sig (Elt F)) :
    after (List.drop 21 (List.take 43 (ops (F := F)))) W (Proc.devRef .tc main_v34)
      = updRaw (catRaw (W (Proc.devRef .tc main_v3)) (W (Proc.devRef .tc main_v16)) (W (Proc.devRef .tc main_arg7))
            (W (Proc.devRef .tc main_arg0)))
          (W (Proc.devRef .tc main_arg5)) (W (Proc.devRef .tc main_arg6)) := by
  simp only [List.take, List.drop]
  after_results_simp
  rfl

/-- After 21 operations the message buffer holds the first layer's messages of the entry contents. -/
theorem ab_msg (W : Valuation τ sig (Elt F)) :
    after (List.take 21 (List.take 43 (ops (F := F)))) W (Proc.devRef .tc main_v16)
      = msgRaw (W (Proc.devRef .tc main_arg2))
          (gatherT (F := F) (W (Proc.devRef .tc main_arg0)) (srcT (W (Proc.devRef .tc main_arg1))))
          (W (Proc.devRef .tc main_arg3)) (W (Proc.devRef .tc main_arg4)) := by
  rw [← List.take_append_drop 4 (List.take 21 (List.take 43 (ops (F := F)))), StableHlo.after_append, b_msg, a_src,
    keepA W (b := main_arg2) (by decide), keepA W (b := main_arg0) (by decide), keepA W (b := main_arg3) (by decide),
    keepA W (b := main_arg4) (by decide)]

/-- After all 43 operations: the node update of the joined row built from the entry contents. -/
theorem l_upd (W : Valuation τ sig (Elt F)) :
    after (List.take 43 (ops (F := F))) W (Proc.devRef .tc main_v34)
      = updRaw (catRaw (dstT (W (Proc.devRef .tc main_arg1)))
            (msgRaw (W (Proc.devRef .tc main_arg2))
              (gatherT (F := F) (W (Proc.devRef .tc main_arg0)) (srcT (W (Proc.devRef .tc main_arg1))))
              (W (Proc.devRef .tc main_arg3)) (W (Proc.devRef .tc main_arg4)))
            (W (Proc.devRef .tc main_arg7)) (W (Proc.devRef .tc main_arg0)))
          (W (Proc.devRef .tc main_arg5)) (W (Proc.devRef .tc main_arg6)) := by
  rw [← List.take_append_drop 21 (List.take 43 (ops (F := F))), StableHlo.after_append, c_upd, ab_dst, ab_msg,
    keepAB W (b := main_arg7) (by decide), keepAB W (b := main_arg0) (by decide), keepAB W (b := main_arg5) (by decide),
    keepAB W (b := main_arg6) (by decide)]

/-! ## At the exact reals: the stages as the specification's functions -/

/-- The messages are the specification's `msgF`. -/
theorem msgRaw_eq (ea : FVec Ideal S800000x64 .f32) (g : FVec Ideal S800000x128 .f32) (Wm : FVec Ideal S64x128 .f32)
    (b : FVec Ideal S128 .f32) : msgRaw (F := Ideal) ea g Wm b = Cert.Spec.msgF ea g Wm b :=
  RefOps.msg_ops ea g Wm b

/-- The node update is the specification's `updCat` of the joined row. -/
theorem updRaw_eq (cat : FVec Ideal S50000x256 .f32) (Wm : FVec Ideal S256x128 .f32) (b : FVec Ideal S128 .f32) :
    updRaw (F := Ideal) cat Wm b = Cert.Spec.updCat cat Wm b :=
  RefOps.upd_ops cat Wm b

/-- The joined row's right half is the node features times 1 + eps, however the factor is spread. -/
theorem catRaw_eq (d : IVec S800000 32) (M : FVec Ideal S800000x128 .f32) (eps : FVec Ideal S1 .f32)
    (h : FVec Ideal S50000x128 .f32) :
    catRaw (F := Ideal) d M eps h
      = concatenate S50000x256 1 [⟨S50000x128, aggT (F := Ideal) d M⟩, ⟨S50000x128, scaleT (F := Ideal) eps h⟩]
          concatenates_S50000x128_S50000x128_S50000x256_d1 :=
  congrArg (fun s : FVec Ideal S50000x128 .f32 =>
      concatenate S50000x256 1 [⟨S50000x128, aggT (F := Ideal) d M⟩, ⟨S50000x128, s⟩]
        concatenates_S50000x128_S50000x128_S50000x256_d1)
    (Cert.KernelIdeal.Bridge.scale_eq bcast_S_S1 bcast_S1_S1x1_1 bcast_S1x1_S50000x128_0_1 eps h)

/-- The update of the joined row built from the arguments is the network's first layer. -/
theorem hid1_pure (x0 : FVec Ideal S50000x128 .f32) (x1 : IVec S2x800000 32) (x2 : FVec Ideal S800000x64 .f32)
    (x3 : FVec Ideal S64x128 .f32) (x4 : FVec Ideal S128 .f32) (x5 : FVec Ideal S256x128 .f32) (x6 : FVec Ideal S128 .f32)
    (x7 : FVec Ideal S1 .f32) :
    updRaw (F := Ideal) (catRaw (F := Ideal) (dstT x1) (msgRaw (F := Ideal) x2 (gatherT (F := Ideal) x0 (srcT x1)) x3 x4) x7 x0) x5 x6
      = Cert.Net.hid1 x0 x1 x2 x3 x4 x5 x6 x7 := by
  rw [updRaw_eq, catRaw_eq, msgRaw_eq, Cert.KernelIdeal.Bridge.updCat_concat]
  rfl

/-! ## The stretch, at the exact reals -/

set_option maxRecDepth 8192 in
set_option maxHeartbeats 4000000 in
/-- The source row of the edge list. -/
theorem a1_src (W : Valuation τ sig (Elt Ideal)) :
    after (List.take 43 (ops (F := Ideal))) W (Proc.devRef .tc main_v1)
      = srcT (W (Proc.devRef .tc main_arg1)) := by
  simp only [List.take]
  after_results_simp
  rfl

set_option maxRecDepth 8192 in
set_option maxHeartbeats 4000000 in
/-- The target row of the edge list. -/
theorem a1_dst (W : Valuation τ sig (Elt Ideal)) :
    after (List.take 43 (ops (F := Ideal))) W (Proc.devRef .tc main_v3)
      = dstT (W (Proc.devRef .tc main_arg1)) := by
  simp only [List.take]
  after_results_simp
  rfl

/-- The first layer's node features. -/
theorem a1_hid1 (W : Valuation τ sig (Elt Ideal)) :
    after (List.take 43 (ops (F := Ideal))) W (Proc.devRef .tc main_v34)
      = Cert.Net.hid1 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  (l_upd W).trans (hid1_pure _ _ _ _ _ _ _ _)

/-- No operation of the stretch writes `main_arg2`. -/
theorem a1_keep_arg2 (W : Valuation τ sig (Elt Ideal)) :
    after (List.take 43 (ops (F := Ideal))) W (Proc.devRef .tc main_arg2)
      = (W (Proc.devRef .tc main_arg2)) :=
  keepL W (by decide)

/-- No operation of the stretch writes `main_arg8`. -/
theorem a1_keep_arg8 (W : Valuation τ sig (Elt Ideal)) :
    after (List.take 43 (ops (F := Ideal))) W (Proc.devRef .tc main_arg8)
      = (W (Proc.devRef .tc main_arg8)) :=
  keepL W (by decide)

/-- No operation of the stretch writes `main_arg9`. -/
theorem a1_keep_arg9 (W : Valuation τ sig (Elt Ideal)) :
    after (List.take 43 (ops (F := Ideal))) W (Proc.devRef .tc main_arg9)
      = (W (Proc.devRef .tc main_arg9)) :=
  keepL W (by decide)

/-- No operation of the stretch writes `main_arg10`. -/
theorem a1_keep_arg10 (W : Valuation τ sig (Elt Ideal)) :
    after (List.take 43 (ops (F := Ideal))) W (Proc.devRef .tc main_arg10)
      = (W (Proc.devRef .tc main_arg10)) :=
  keepL W (by decide)

/-- No operation of the stretch writes `main_arg11`. -/
theorem a1_keep_arg11 (W : Valuation τ sig (Elt Ideal)) :
    after (List.take 43 (ops (F := Ideal))) W (Proc.devRef .tc main_arg11)
      = (W (Proc.devRef .tc main_arg11)) :=
  keepL W (by decide)

/-- No operation of the stretch writes `main_arg12`. -/
theorem a1_keep_arg12 (W : Valuation τ sig (Elt Ideal)) :
    after (List.take 43 (ops (F := Ideal))) W (Proc.devRef .tc main_arg12)
      = (W (Proc.devRef .tc main_arg12)) :=
  keepL W (by decide)

/-- No operation of the stretch writes `main_arg13`. -/
theorem a1_keep_arg13 (W : Valuation τ sig (Elt Ideal)) :
    after (List.take 43 (ops (F := Ideal))) W (Proc.devRef .tc main_arg13)
      = (W (Proc.devRef .tc main_arg13)) :=
  keepL W (by decide)

/-- No operation of the stretch writes `main_arg14`. -/
theorem a1_keep_arg14 (W : Valuation τ sig (Elt Ideal)) :
    after (List.take 43 (ops (F := Ideal))) W (Proc.devRef .tc main_arg14)
      = (W (Proc.devRef .tc main_arg14)) :=
  keepL W (by decide)

/-- No operation of the stretch writes `main_arg15`. -/
theorem a1_keep_arg15 (W : Valuation τ sig (Elt Ideal)) :
    after (List.take 43 (ops (F := Ideal))) W (Proc.devRef .tc main_arg15)
      = (W (Proc.devRef .tc main_arg15)) :=
  keepL W (by decide)

/-- No operation of the stretch writes `main_arg16`. -/
theorem a1_keep_arg16 (W : Valuation τ sig (Elt Ideal)) :
    after (List.take 43 (ops (F := Ideal))) W (Proc.devRef .tc main_arg16)
      = (W (Proc.devRef .tc main_arg16)) :=
  keepL W (by decide)

end Cert.ReferenceIdeal.FoldA1

end
-- ==== Proof.RefOpsSoft.lean ====
/-
  The reference program's host softmax over the two classes as the specification's function.

  Per row of the two logits: the maximum m, folded from −∞ over the row and compared with −∞ once more; the two
  exponentials exp (l − m); their sum from zero; the quotient. The reference keeps m and the sum as vectors over the
  rows and spreads them back over the two columns; read at (row, class) those are the row's own numbers, the fold of
  the maximum over the class axis is the fold over the row's two entries (the maximum commutes and associates), and
  the sum over the class axis is the sum of the row's two entries.
-/
import proofs.«400179_j12421045420439_1_alg».proof.ReferenceIdeal
import proofs.«400179_j12421045420439_1_alg».proof.Proof.Gen.ReferenceIdeal
import proofs.«400179_j12421045420439_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefOps

open Cert.ReferenceIdeal Cert.ReferenceIdeal.Gen
open Idealize.ShloMosaic Idealize.ShloMosaic.ValueIdx

-- a reduction enters only through its law: the fold of the maximum, or the sum, over the reduced axis
attribute [local irreducible] Host.reduce Ideal.hostReduceAdd

namespace Soft

/-! ### A per-row number spread along the two classes

The reference keeps each row's maximum and each row's sum as a vector over the rows and spreads it back over the two
columns through a one-column matrix. Read at (row, class) the result is the vector at the row. -/

/-- The row of an index of the logits. -/
abbrev rowI (i : S800000x2.Idx) : S800000.Idx := fun a => match a with
  | ⟨0, _⟩ => ⟨(i 0).val, (i 0).isLt⟩
/-- The same row in the one-column matrix. -/
abbrev colI (i : S800000x2.Idx) : S800000x1.Idx := fun a => match a with
  | ⟨0, _⟩ => ⟨(i 0).val, (i 0).isLt⟩
  | ⟨1, _⟩ => ⟨0, Nat.one_pos⟩

theorem bcast_row {α : Type} (v : S800000.Idx → α) (i : S800000x2.Idx) :
    broadcastInDim S800000x2 ![0, 1] bcast_S800000x1_S800000x2_0_1 (broadcastInDim S800000x1 ![0] bcast_S800000_S800000x1_0 v) i
      = v (rowI i) :=
  (broadcastInDim_apply _ bcast_S800000x1_S800000x2_0_1 _ i (colI i) fun a => match a with
    | ⟨0, _⟩ => by show (i 0).val = if (800000 : Nat) = 1 then 0 else (i 0).val; rw [if_neg (by decide)]
    | ⟨1, _⟩ => by show 0 = if (1 : Nat) = 1 then 0 else (i 1).val; rw [if_pos rfl]).trans
  (broadcastInDim_apply _ bcast_S800000_S800000x1_0 v (colI i) (rowI i) fun a => match a with
    | ⟨0, _⟩ => by show (i 0).val = if (800000 : Nat) = 1 then 0 else (i 0).val; rw [if_neg (by decide)])

/-! ### The row maximum

A reduce by the maximum over the class axis is, at a row, the fold of the maximum from −∞ over the row's two entries
(the maximum commutes and associates, so the order of the fold is immaterial); the reference then takes the maximum
with −∞ once more. That is the specification's `rowMax`, which depends on the row of its index only. -/

theorem rowmax_read (l : FVec Ideal S800000x2 .f32) (i : S800000x2.Idx) :
    maximumf (broadcastInDim S800000 ![] bcast_S_S800000 (constant (F := Ideal) S_ .f32 0xFF800000#32))
        (Host.reduce FloatOps.maximumf l (constant (F := Ideal) S_ .f32 0xFF800000#32) reducesTo_S800000x2_S800000_d1 h_S_) (rowI i)
      = Cert.Spec.rowMax l i := by
  have hR : Shape.Reduces S800000x2 [1] S800000 := by decide
  have hc : broadcastInDim S800000 ![] bcast_S_S800000 (constant (F := Ideal) S_ .f32 0xFF800000#32) (rowI i)
      = Ideal.ofBits .f32 0xFF800000#32 := rfl
  rw [maximumf_apply, hc,
    Host.reduce_eq_fold_single (FloatOps.maximumf (F := Ideal) (φ := .f32)) l _ reducesTo_S800000x2_S800000_d1 hR h_S_]
  unfold Cert.Spec.rowMax
  refine congrArg (max _) ?_
  have hl : (l ∘ hR.lift (rowI i)) = fun k : Fin 2 => l (Cert.Spec.rowK i k) :=
    funext fun k => congrArg l (funext fun a => Fin.ext (by match a with | ⟨0, _⟩ => rfl | ⟨1, _⟩ => rfl))
  rw [hl]
  rfl

/-! ### The shifted exponentials and the quotient -/

/-- An entry of the shifted exponentials, for any vector of row numbers that is the row maximum. -/
theorem exp_read (l : FVec Ideal S800000x2 .f32) (mx : FVec Ideal S800000 .f32)
    (hmx : ∀ i : S800000x2.Idx, mx (rowI i) = Cert.Spec.rowMax l i) (i : S800000x2.Idx) :
    Host.exp (subf l (broadcastInDim S800000x2 ![0, 1] bcast_S800000x1_S800000x2_0_1
        (broadcastInDim S800000x1 ![0] bcast_S800000_S800000x1_0 mx))) i = Ideal.exp (l i - Cert.Spec.rowMax l i) := by
  simp only [Host.exp, subf, Ideal.hostUnary_exp_def, Ideal.subf_def]
  rw [bcast_row, hmx]

/-- The host quotient at an index, for any two arrays. -/
theorem divf_read (e d : FVec Ideal S800000x2 .f32) (i : S800000x2.Idx) :
    Host.divf e d i = Ideal.div (e i) (d i) := rfl

/-- The row sum from zero, read at a row: the sum of the row's two entries. -/
theorem rowsum_read (e : FVec Ideal S800000x2 .f32) (i : S800000x2.Idx) :
    Host.reduceAdd e (constant (F := Ideal) S_ .f32 0x00000000#32) reducesTo_S800000x2_S800000_d1 h_S_ (rowI i)
      = ∑ k : Fin 2, e (Cert.Spec.rowK i k) := by
  rw [Host.reduceAdd, Ideal.hostReduceAdd_def, Ideal.hostReduceAdd_single reducesTo_S800000x2_S800000_d1 (by decide)]
  rw [show constant (F := Ideal) S_ .f32 0x00000000#32 (Shape.Idx.first h_S_) = 0 from Ideal.ofBits_zero_f32, zero_add]
  refine Finset.sum_congr rfl fun k _ => ?_
  exact congrArg e (funext fun a => Fin.ext (by match a with | ⟨0, _⟩ => rfl | ⟨1, _⟩ => rfl))

/-- An entry of the quotient by the row sum, for any array `e`. -/
theorem div_read (e : FVec Ideal S800000x2 .f32) (i : S800000x2.Idx) :
    Host.divf e (broadcastInDim S800000x2 ![0, 1] bcast_S800000x1_S800000x2_0_1 (broadcastInDim S800000x1 ![0] bcast_S800000_S800000x1_0
        (Host.reduceAdd e (constant (F := Ideal) S_ .f32 0x00000000#32) reducesTo_S800000x2_S800000_d1 h_S_))) i
      = Ideal.div (e i) (∑ k : Fin 2, e (Cert.Spec.rowK i k)) := by
  rw [divf_read, bcast_row, rowsum_read]

end Soft

/-- The softmax over the two classes as the reference computes it on the host: the row maximum from −∞ (and once more
    against −∞), the shifted exponentials, their row sum from zero, the quotient. -/
theorem soft_ops (l : FVec Ideal S800000x2 .f32) :
    (let mx := maximumf (broadcastInDim S800000 ![] bcast_S_S800000 (constant (F := Ideal) S_ .f32 0xFF800000#32))
        (Host.reduce FloatOps.maximumf l (constant (F := Ideal) S_ .f32 0xFF800000#32) reducesTo_S800000x2_S800000_d1 h_S_)
     let e := Host.exp (subf l (broadcastInDim S800000x2 ![0, 1] bcast_S800000x1_S800000x2_0_1 (broadcastInDim S800000x1 ![0] bcast_S800000_S800000x1_0 mx)))
     Host.divf e (broadcastInDim S800000x2 ![0, 1] bcast_S800000x1_S800000x2_0_1 (broadcastInDim S800000x1 ![0] bcast_S800000_S800000x1_0
        (Host.reduceAdd e (constant (F := Ideal) S_ .f32 0x00000000#32) reducesTo_S800000x2_S800000_d1 h_S_))))
      = Cert.Spec.softF l := by
  funext i
  refine (Soft.div_read _ i).trans ?_
  unfold Cert.Spec.softF
  exact congrArg₂ Ideal.div (Soft.exp_read l _ (Soft.rowmax_read l) i)
    (Finset.sum_congr rfl fun k _ => Soft.exp_read l _ (Soft.rowmax_read l) (Cert.Spec.rowK i k))

end Cert.ReferenceIdeal.RefOps

end
-- ==== Proof.RefFoldA2.lean ====
/-
  The reference program's host operations 43 to 84, read from the fold: from the first layer's features, the edge rows
  and the second layer's weights, the rectified second-layer features. Buffers the stretch does not write keep their
  contents.
-/
import proofs.«400179_j12421045420439_1_alg».proof.Proof.RefRun
import proofs.«400179_j12421045420439_1_alg».proof.Proof.Spec
import proofs.«400179_j12421045420439_1_alg».proof.Proof.HostTerms
import proofs.«400179_j12421045420439_1_alg».proof.Proof.Net
import proofs.«400179_j12421045420439_1_alg».proof.Proof.Bridge
import proofs.«400179_j12421045420439_1_alg».proof.Proof.RefOpsMsg
import proofs.«400179_j12421045420439_1_alg».proof.Proof.RefOpsUpd
import proofs.«400179_j12421045420439_1_alg».proof.Proof.RefOpsSoft
import Idealize.ShloMosaic.Lib.StableHlo.Run
import Idealize.ShloMosaic.Lib.Pipeline.Frame
import Idealize.ShloMosaic.PureOps.Ideal

noncomputable section

namespace Cert.ReferenceIdeal.FoldA2

open Cert.ReferenceIdeal Cert.ReferenceIdeal.Gen Cert.ReferenceIdeal.RunP Cert.KernelIdeal.HostTerms
open Idealize.ShloMosaic Idealize.ShloMosaic.StableHlo

/-! ## What the stretch writes, and what it keeps -/

/-- The buffers operations 43 to 84 write. -/
def wrA2 : List (Ref sig .tc) :=
  [main_v35, main_v36, main_v37, main_v38, main_c_4, main_v39, main_v40, main_c_5, main_v41, main_v42, main_v43, main_v44,
   main_v45, main_v46, main_call2_cst, main_call2_v0, main_v47, main_cst_6, main_v48, main_v49, main_v50, main_cst_7, main_v51,
   main_v52, main_v53, main_v54, main_v55, main_v56, main_v57, main_v58, main_v59, main_v60, main_cst_8, main_v61, main_v62,
   main_cst_9, main_v63, main_v64, main_v65, main_call4_cst, main_call4_v0, main_v66]

set_option maxHeartbeats 4000000 in
theorem a2_wr {F : FTy → Type} [FloatOps F] :
    (List.take 42 (List.drop 43 (ops (F := F)))).Forall fun op =>
      op.writes ⊆ (wrA2.map (Proc.devRef (τ := τ) .tc)).toFinset := by
  simp only [List.take, List.drop, wrA2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer outside that list keeps its contents across the stretch … -/
theorem a2_keep {F : FTy → Type} [FloatOps F] (W : Valuation τ sig (Elt F)) {b : Ref sig .tc} (hb : b ∉ wrA2) :
    after (List.take 42 (List.drop 43 (ops (F := F)))) W (Proc.devRef .tc b) = W (Proc.devRef .tc b) :=
  after_of_writes_sub _ _ a2_wr hb

/-- … and across its first seventeen operations (the second layer's messages). -/
theorem a2_keep_msg {F : FTy → Type} [FloatOps F] (W : Valuation τ sig (Elt F)) {b : Ref sig .tc} (hb : b ∉ wrA2) :
    after (List.take 17 (List.take 42 (List.drop 43 (ops (F := F))))) W (Proc.devRef .tc b) = W (Proc.devRef .tc b) :=
  after_of_writes_sub _ _
    (List.forall_iff_forall_mem.mpr fun op hop =>
      List.forall_iff_forall_mem.mp a2_wr op (List.mem_of_mem_take hop)) hb

/-! ## The stretch's three stages in the reference's own operations -/

section Raw
variable {F : FTy → Type} [FloatOps F]

/-- The rows of `h` at the wrapped indices, over the reference's own gather record. -/
def gatherRaw (h : FVec F S50000x128 .f32) (idx : IVec S800000 32) : FVec F S800000x128 .f32 :=
  Host.gather gather_S50000x128_S800000x1_S800000x128_1_0_n_n_0_1_1128 h (colT (wrapT idx))

/-- A layer's messages as the reference spells them: `g` plus (edge features · W + the bias broadcast down the rows),
    then the larger of that and zero. -/
def msgRaw (ea : FVec F S800000x64 .f32) (g : FVec F S800000x128 .f32) (W : FVec F S64x128 .f32) (b : FVec F S128 .f32) :
    FVec F S800000x128 .f32 :=
  maximumf (addf g (addf (Host.dotGeneral dot_S800000x64_S64x128_S800000x128_1_0_0_1_n_n none ea W)
      (broadcastInDim S800000x128 ![0, 1] bcast_S1x128_S800000x128_0_1 (broadcastInDim S1x128 ![1] bcast_S128_S1x128_1 b))))
    (broadcastInDim S800000x128 ![] bcast_S_S800000x128 (constant (F := F) S_ .f32 0x00000000#32))

/-- Messages added into their target nodes from zero, over the reference's own scatter record. -/
def aggRaw (dst : IVec S800000 32) (msg : FVec F S800000x128 .f32) : FVec F S50000x128 .f32 :=
  Host.scatterAdd scatter_S50000x128_S800000x1_S800000x128_1_0_0_1
    (broadcastInDim S50000x128 ![] bcast_S_S50000x128 (constant (F := F) S_ .f32 0x00000000#32)) (colT dst) msg

/-- The node features times 1 + eps, the factor spread through a vector of length one and a 1 × 1 matrix. -/
def scaleRaw (eps : FVec F S1 .f32) (h : FVec F S50000x128 .f32) : FVec F S50000x128 .f32 :=
  mulf (broadcastInDim S50000x128 ![0, 1] bcast_S1x1_S50000x128_0_1 (broadcastInDim S1x1 ![1] bcast_S1_S1x1_1
    (addf (broadcastInDim S1 ![] bcast_S_S1 (constant (F := F) S_ .f32 0x3F800000#32)) eps))) h

/-- A layer's node update as the reference spells it: z = [agg | sh] · W + bias, then z where z > 0 and the slope
    times z elsewhere. -/
def updRaw (agg sh : FVec F S50000x128 .f32) (W : FVec F S256x128 .f32) (b : FVec F S128 .f32) : FVec F S50000x128 .f32 :=
  let z := addf (Host.dotGeneral dot_S50000x256_S256x128_S50000x128_1_0_0_1_n_n none
      (concatenate S50000x256 1 [⟨S50000x128, agg⟩, ⟨S50000x128, sh⟩] concatenates_S50000x128_S50000x128_S50000x256_d1) W)
    (broadcastInDim S50000x128 ![0, 1] bcast_S1x128_S50000x128_0_1 (broadcastInDim S1x128 ![1] bcast_S128_S1x128_1 b))
  select (cmpf .ogt z (broadcastInDim S50000x128 ![] bcast_S_S50000x128 (constant (F := F) S_ .f32 0x00000000#32))) z
    (mulf (broadcastInDim S50000x128 ![] bcast_S_S50000x128 (constant (F := F) S_ .f32 0x3E4CCCCD#32)) z)

set_option maxHeartbeats 4000000 in
/-- Operations 43 to 59: the second layer's messages, from the first layer's features at the wrapped sources. -/
theorem a2_msg_raw (W : Valuation τ sig (Elt F)) :
    after (List.take 17 (List.take 42 (List.drop 43 (ops (F := F))))) W (Proc.devRef .tc main_v47)
      = msgRaw (W (Proc.devRef .tc main_arg2)) (gatherRaw (W (Proc.devRef .tc main_v34)) (W (Proc.devRef .tc main_v1))) (W (Proc.devRef .tc main_arg8)) (W (Proc.devRef .tc main_arg9)) := by
  simp only [List.take, List.drop]
  after_results_simp
  rfl

set_option maxHeartbeats 4000000 in
/-- Operations 60 to 81: the messages added into their targets, the scaled features, and the node update of the two. -/
theorem a2_upd_raw (W : Valuation τ sig (Elt F)) :
    after (List.take 22 (List.drop 17 (List.take 42 (List.drop 43 (ops (F := F)))))) W (Proc.devRef .tc main_v65)
      = updRaw (aggRaw (W (Proc.devRef .tc main_v3)) (W (Proc.devRef .tc main_v47))) (scaleRaw (W (Proc.devRef .tc main_arg12)) (W (Proc.devRef .tc main_v34)))
          (W (Proc.devRef .tc main_arg10)) (W (Proc.devRef .tc main_arg11)) := by
  simp only [List.take, List.drop]
  after_results_simp
  rfl

set_option maxHeartbeats 4000000 in
/-- Operations 82 to 84: the larger of each entry and zero. -/
theorem a2_relu_raw (W : Valuation τ sig (Elt F)) :
    after (List.drop 22 (List.drop 17 (List.take 42 (List.drop 43 (ops (F := F)))))) W (Proc.devRef .tc main_v66) = reluT (F := F) (W (Proc.devRef .tc main_v65)) := by
  simp only [List.take, List.drop]
  after_results_simp
  rfl

end Raw

/-! ## The stages as the specification's functions, at the exact reals -/

/-- The two programs' gathers carry the same dimension numbers. -/
theorem gather_eq :
    gather_S50000x128_S800000x1_S800000x128_1_0_n_n_0_1_1128
      = Cert.KernelIdeal.gather_S50000x128_S800000x1_S800000x128_1_0_n_n_0_1_1128 := rfl

/-- The two programs' scatters carry the same dimension numbers. -/
theorem scatter_eq :
    scatter_S50000x128_S800000x1_S800000x128_1_0_0_1
      = Cert.KernelIdeal.scatter_S50000x128_S800000x1_S800000x128_1_0_0_1 := rfl

theorem gatherRaw_eq {F : FTy → Type} [FloatOps F] (h : FVec F S50000x128 .f32) (idx : IVec S800000 32) :
    gatherRaw h idx = gatherT h idx :=
  congrArg (fun d => Host.gather d h (colT (wrapT idx))) gather_eq

theorem aggRaw_eq {F : FTy → Type} [FloatOps F] (dst : IVec S800000 32) (msg : FVec F S800000x128 .f32) :
    aggRaw dst msg = aggT dst msg :=
  congrArg (fun d => Host.scatterAdd d
    (broadcastInDim S50000x128 ![] bcast_S_S50000x128 (constant (F := F) S_ .f32 0x00000000#32)) (colT dst) msg) scatter_eq

theorem msgRaw_eq (ea : FVec Ideal S800000x64 .f32) (g : FVec Ideal S800000x128 .f32) (W : FVec Ideal S64x128 .f32)
    (b : FVec Ideal S128 .f32) : msgRaw ea g W b = Cert.Spec.msgF ea g W b :=
  RefOps.msg_ops ea g W b

theorem scaleRaw_eq (eps : FVec Ideal S1 .f32) (h : FVec Ideal S50000x128 .f32) :
    scaleRaw eps h = scaleT (F := Ideal) eps h :=
  Cert.KernelIdeal.Bridge.scale_eq bcast_S_S1 bcast_S1_S1x1_1 bcast_S1x1_S50000x128_0_1 eps h

/-- The update over the joined row and the stacked matrix is the update over the two rows and the matrix's two halves. -/
theorem updRaw_eq (agg sh : FVec Ideal S50000x128 .f32) (W : FVec Ideal S256x128 .f32) (b : FVec Ideal S128 .f32) :
    updRaw agg sh W b = Cert.Spec.updF agg sh (loT (F := Ideal) W) (hiT (F := Ideal) W) b :=
  (RefOps.upd_ops (concatenate S50000x256 1 [⟨S50000x128, agg⟩, ⟨S50000x128, sh⟩] concatenates_S50000x128_S50000x128_S50000x256_d1) W b).trans
    (Cert.KernelIdeal.Bridge.updCat_concat concatenates_S50000x128_S50000x128_S50000x256_d1 agg sh W b)

/-! ## The stretch -/

/-- The rectified second-layer features, from the first layer's features `main_v34` and the edge rows `main_v1`, `main_v3`. -/
theorem a2_feat (W : Valuation τ sig (Elt Ideal)) :
    after (List.take 42 (List.drop 43 (ops (F := Ideal)))) W (Proc.devRef .tc main_v66)
      = reluT (F := Ideal) (Cert.Spec.updF (aggT (F := Ideal) (W (Proc.devRef .tc main_v3)) (Cert.Spec.msgF (W (Proc.devRef .tc main_arg2)) (gatherT (F := Ideal) (W (Proc.devRef .tc main_v34)) (W (Proc.devRef .tc main_v1))) (W (Proc.devRef .tc main_arg8)) (W (Proc.devRef .tc main_arg9))))
          (scaleT (F := Ideal) (W (Proc.devRef .tc main_arg12)) (W (Proc.devRef .tc main_v34))) (loT (F := Ideal) (W (Proc.devRef .tc main_arg10))) (hiT (F := Ideal) (W (Proc.devRef .tc main_arg10))) (W (Proc.devRef .tc main_arg11))) := by
  rw [← List.take_append_drop 17 (List.take 42 (List.drop 43 (ops (F := Ideal)))), StableHlo.after_append,
    ← List.take_append_drop 22 (List.drop 17 (List.take 42 (List.drop 43 (ops (F := Ideal))))), StableHlo.after_append,
    a2_relu_raw (F := Ideal), a2_upd_raw (F := Ideal), a2_msg_raw (F := Ideal),
    a2_keep_msg W (b := main_v3) (by decide), a2_keep_msg W (b := main_v34) (by decide),
    a2_keep_msg W (b := main_arg12) (by decide), a2_keep_msg W (b := main_arg10) (by decide),
    a2_keep_msg W (b := main_arg11) (by decide),
    gatherRaw_eq (F := Ideal), msgRaw_eq, aggRaw_eq (F := Ideal), scaleRaw_eq, updRaw_eq]

/-- No operation of the stretch writes `main_v1`. -/
theorem a2_keep_v1 (W : Valuation τ sig (Elt Ideal)) :
    after (List.take 42 (List.drop 43 (ops (F := Ideal)))) W (Proc.devRef .tc main_v1)
      = (W (Proc.devRef .tc main_v1)) :=
  a2_keep W (by decide)

/-- No operation of the stretch writes `main_v3`. -/
theorem a2_keep_v3 (W : Valuation τ sig (Elt Ideal)) :
    after (List.take 42 (List.drop 43 (ops (F := Ideal)))) W (Proc.devRef .tc main_v3)
      = (W (Proc.devRef .tc main_v3)) :=
  a2_keep W (by decide)

/-- No operation of the stretch writes `main_arg13`. -/
theorem a2_keep_arg13 (W : Valuation τ sig (Elt Ideal)) :
    after (List.take 42 (List.drop 43 (ops (F := Ideal)))) W (Proc.devRef .tc main_arg13)
      = (W (Proc.devRef .tc main_arg13)) :=
  a2_keep W (by decide)

/-- No operation of the stretch writes `main_arg14`. -/
theorem a2_keep_arg14 (W : Valuation τ sig (Elt Ideal)) :
    after (List.take 42 (List.drop 43 (ops (F := Ideal)))) W (Proc.devRef .tc main_arg14)
      = (W (Proc.devRef .tc main_arg14)) :=
  a2_keep W (by decide)

/-- No operation of the stretch writes `main_arg15`. -/
theorem a2_keep_arg15 (W : Valuation τ sig (Elt Ideal)) :
    after (List.take 42 (List.drop 43 (ops (F := Ideal)))) W (Proc.devRef .tc main_arg15)
      = (W (Proc.devRef .tc main_arg15)) :=
  a2_keep W (by decide)

/-- No operation of the stretch writes `main_arg16`. -/
theorem a2_keep_arg16 (W : Valuation τ sig (Elt Ideal)) :
    after (List.take 42 (List.drop 43 (ops (F := Ideal)))) W (Proc.devRef .tc main_arg16)
      = (W (Proc.devRef .tc main_arg16)) :=
  a2_keep W (by decide)

end Cert.ReferenceIdeal.FoldA2

end
-- ==== Proof.RefFoldB.lean ====
/-
  The reference program's last 48 host operations, read from the fold: from the rectified features and the edge rows,
  the edge embedding and the class probabilities; and, over the whole list, that no operation writes an argument.

  The 48 operations are cut into four stretches: the two index normalisations with their gathers and the product (19
  operations), the classifier's hidden layer (11), the two logits (4) and the softmax over them (14). Each stretch is
  read at an arbitrary entry valuation and an arbitrary float family, where the buffer it fills is literally the
  reference's own composite of the buffers it reads; over the extended reals the composites are the specification's
  functions, and the four readings are chained by rewriting.
-/
import proofs.«400179_j12421045420439_1_alg».proof.Proof.RefRun
import proofs.«400179_j12421045420439_1_alg».proof.Proof.Spec
import proofs.«400179_j12421045420439_1_alg».proof.Proof.HostTerms
import proofs.«400179_j12421045420439_1_alg».proof.Proof.Net
import proofs.«400179_j12421045420439_1_alg».proof.Proof.Bridge
import proofs.«400179_j12421045420439_1_alg».proof.Proof.RefOpsMsg
import proofs.«400179_j12421045420439_1_alg».proof.Proof.RefOpsUpd
import proofs.«400179_j12421045420439_1_alg».proof.Proof.RefOpsSoft
import Idealize.ShloMosaic.Lib.StableHlo.Run
import Idealize.ShloMosaic.Lib.Pipeline.Frame
import Idealize.ShloMosaic.PureOps.Ideal

noncomputable section

namespace Cert.ReferenceIdeal.FoldB

open Cert.ReferenceIdeal Cert.ReferenceIdeal.Gen Cert.ReferenceIdeal.RunP Cert.KernelIdeal.HostTerms
open Idealize.ShloMosaic Idealize.ShloMosaic.StableHlo

/-! ### The reference's composites, at any float family -/

section Raw
variable {F : FTy → Type} [FloatOps F]

set_option maxRecDepth 8192 in
set_option maxHeartbeats 4000000 in
/-- The rows of `h` at the normalised indices, as the reference spells it: an index below zero has 50000 added, the
    indices become a one-column matrix, the rows are gathered. -/
def rawGather (h : FVec F S50000x128 .f32) (idx : IVec S800000 32) : FVec F S800000x128 .f32 :=
  Host.gather gather_S50000x128_S800000x1_S800000x128_1_0_n_n_0_1_1128 h
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32))) idx))

/-- The classifier's hidden layer as the reference spells it: the product with the weight matrix plus the bias broadcast
    down the rows, then the entry where it is positive and the slope times the entry elsewhere. -/
def rawHid (he : FVec F S800000x128 .f32) (W1 : FVec F S128x128 .f32) (b1 : FVec F S128 .f32) : FVec F S800000x128 .f32 :=
  let z := addf (Host.dotGeneral dot_S800000x128_S128x128_S800000x128_1_0_0_1_n_n none he W1)
      (broadcastInDim S800000x128 ![0, 1] bcast_S1x128_S800000x128_0_1 (broadcastInDim S1x128 ![1] bcast_S128_S1x128_1 b1))
  select (cmpf .ogt z (broadcastInDim S800000x128 ![] bcast_S_S800000x128 (constant (F := F) S_ .f32 0x00000000#32))) z
    (mulf (broadcastInDim S800000x128 ![] bcast_S_S800000x128 (constant (F := F) S_ .f32 0x3E4CCCCD#32)) z)

/-- The two logits as the reference spells them: the product with the weight matrix plus the bias broadcast down the rows. -/
def rawLogit (z : FVec F S800000x128 .f32) (W2 : FVec F S128x2 .f32) (b2 : FVec F S2 .f32) : FVec F S800000x2 .f32 :=
  addf (Host.dotGeneral dot_S800000x128_S128x2_S800000x2_1_0_0_1_n_n none z W2)
    (broadcastInDim S800000x2 ![0, 1] bcast_S1x2_S800000x2_0_1 (broadcastInDim S1x2 ![1] bcast_S2_S1x2_1 b2))

/-- The softmax over the two classes as the reference spells it: the row maximum from −∞ and once more against −∞, the
    shifted exponentials, their row sum from zero, the quotient. -/
def rawSoft (l : FVec F S800000x2 .f32) : FVec F S800000x2 .f32 :=
  let mx := maximumf (broadcastInDim S800000 ![] bcast_S_S800000 (constant (F := F) S_ .f32 0xFF800000#32))
      (Host.reduce FloatOps.maximumf l (constant (F := F) S_ .f32 0xFF800000#32) reducesTo_S800000x2_S800000_d1 h_S_)
  let e := Host.exp (subf l (broadcastInDim S800000x2 ![0, 1] bcast_S800000x1_S800000x2_0_1 (broadcastInDim S800000x1 ![0] bcast_S800000_S800000x1_0 mx)))
  Host.divf e (broadcastInDim S800000x2 ![0, 1] bcast_S800000x1_S800000x2_0_1 (broadcastInDim S800000x1 ![0] bcast_S800000_S800000x1_0
    (Host.reduceAdd e (constant (F := F) S_ .f32 0x00000000#32) reducesTo_S800000x2_S800000_d1 h_S_)))

/-- The two programs' gather records have the same fields. -/
theorem gather_eq : Cert.ReferenceIdeal.gather_S50000x128_S800000x1_S800000x128_1_0_n_n_0_1_1128
    = Cert.KernelIdeal.gather_S50000x128_S800000x1_S800000x128_1_0_n_n_0_1_1128 := rfl

/-- The reference's gather is the kernel program's: the same record, the same shapes, the same index normalisation. -/
theorem rawGather_eq (h : FVec F S50000x128 .f32) (idx : IVec S800000 32) :
    rawGather (F := F) h idx = gatherT (F := F) h idx := by
  first
    | rfl
    | (unfold rawGather gatherT colT wrapT; rw [gather_eq]; done)
    | (unfold rawGather gatherT colT wrapT; rw [gather_eq]; rfl)

end Raw

/-! ### Over the extended reals the composites are the specification's functions -/

theorem edge_eq (a b : FVec Ideal S800000x128 .f32) : mulf a b = Cert.Spec.edgeF a b := rfl

theorem rawHid_eq (he : FVec Ideal S800000x128 .f32) (W1 : FVec Ideal S128x128 .f32) (b1 : FVec Ideal S128 .f32) :
    rawHid (F := Ideal) he W1 b1 = Cert.Spec.hidF he W1 b1 := RefOps.hid_ops he W1 b1

theorem rawLogit_eq (z : FVec Ideal S800000x128 .f32) (W2 : FVec Ideal S128x2 .f32) (b2 : FVec Ideal S2 .f32) :
    rawLogit (F := Ideal) z W2 b2 = Cert.Spec.logitF z W2 b2 := RefOps.logit_ops z W2 b2

theorem rawSoft_eq (l : FVec Ideal S800000x2 .f32) : rawSoft (F := Ideal) l = Cert.Spec.softF l := RefOps.soft_ops l

/-! ### The four stretches -/

section Cut
variable {F : FTy → Type} [FloatOps F] (W : Valuation τ sig (Elt F))

/-- Operations 85 … 103: the two index normalisations, the two gathers, the product. -/
abbrev chE : List (HloOp τ sig (Elt F)) := (List.drop 85 (ops (F := F))).take 19
/-- Operations 104 … 132. -/
abbrev restE : List (HloOp τ sig (Elt F)) := (List.drop 85 (ops (F := F))).drop 19
/-- Operations 104 … 114: the classifier's hidden layer. -/
abbrev chH : List (HloOp τ sig (Elt F)) := (restE (F := F)).take 11
/-- Operations 115 … 132. -/
abbrev restH : List (HloOp τ sig (Elt F)) := (restE (F := F)).drop 11
/-- Operations 115 … 118: the two logits. -/
abbrev chL : List (HloOp τ sig (Elt F)) := (restH (F := F)).take 4
/-- Operations 119 … 132: the softmax. -/
abbrev chS : List (HloOp τ sig (Elt F)) := (restH (F := F)).drop 4

/-- Running the 48 operations is running the four stretches one after the other. -/
theorem cut : after (List.drop 85 (ops (F := F))) W
    = after (chS (F := F)) (after (chL (F := F)) (after (chH (F := F)) (after (chE (F := F)) W))) := by
  rw [← after_append, ← after_append, ← after_append]
  first
    | rw [List.take_append_drop, List.take_append_drop, List.take_append_drop]
    | rfl

/-- The references each stretch writes. -/
abbrev wrE : List (Ref sig .tc) := [main_c_10, main_v67, main_v68, main_c_11, main_v69, main_v70, main_v71, main_v72, main_v73, main_c_12, main_v74, main_v75, main_c_13, main_v76, main_v77, main_v78, main_v79, main_v80, main_v81]
abbrev wrH : List (Ref sig .tc) := [main_v82, main_v83, main_v84, main_v85, main_cst_14, main_v86, main_v87, main_cst_15, main_v88, main_v89, main_v90]
abbrev wrL : List (Ref sig .tc) := [main_v91, main_v92, main_v93, main_v94]
abbrev wrS : List (Ref sig .tc) := [main_cst_16, main_v95, main_cst_17, main_v96, main_v97, main_v98, main_v99, main_v100, main_v101, main_cst_18, main_v102, main_v103, main_v104, main_v105]

set_option maxRecDepth 8192 in
set_option maxHeartbeats 4000000 in
theorem writesE : (chE (F := F)).Forall fun op => op.writes ⊆ (wrE.map (Proc.devRef (τ := τ) .tc)).toFinset := by
  simp only [chE, ops, List.drop, List.take, List.Forall]
  repeat' apply And.intro
  all_goals (simp only [nullary_writes, unary_writes, binary_writes, ternary_writes, reshape_writes, Finset.singleton_subset_iff, List.mem_toFinset]; exact List.mem_map_of_mem (by decide))

set_option maxRecDepth 8192 in
set_option maxHeartbeats 4000000 in
theorem writesH : (chH (F := F)).Forall fun op => op.writes ⊆ (wrH.map (Proc.devRef (τ := τ) .tc)).toFinset := by
  simp only [chH, restE, ops, List.drop, List.take, List.Forall]
  repeat' apply And.intro
  all_goals (simp only [nullary_writes, unary_writes, binary_writes, ternary_writes, reshape_writes, Finset.singleton_subset_iff, List.mem_toFinset]; exact List.mem_map_of_mem (by decide))

set_option maxRecDepth 8192 in
set_option maxHeartbeats 4000000 in
theorem writesL : (chL (F := F)).Forall fun op => op.writes ⊆ (wrL.map (Proc.devRef (τ := τ) .tc)).toFinset := by
  simp only [chL, restH, restE, ops, List.drop, List.take, List.Forall]
  repeat' apply And.intro
  all_goals (simp only [nullary_writes, unary_writes, binary_writes, ternary_writes, reshape_writes, Finset.singleton_subset_iff, List.mem_toFinset]; exact List.mem_map_of_mem (by decide))

set_option maxRecDepth 8192 in
set_option maxHeartbeats 4000000 in
theorem writesS : (chS (F := F)).Forall fun op => op.writes ⊆ (wrS.map (Proc.devRef (τ := τ) .tc)).toFinset := by
  simp only [chS, restH, restE, ops, List.drop, List.take, List.Forall]
  repeat' apply And.intro
  all_goals (simp only [nullary_writes, unary_writes, binary_writes, ternary_writes, reshape_writes, Finset.singleton_subset_iff, List.mem_toFinset]; exact List.mem_map_of_mem (by decide))

/-- A reference a stretch does not write keeps its contents across it. -/
theorem keepE {r : Ref sig .tc} (h : r ∉ wrE) : after (chE (F := F)) W (Proc.devRef .tc r) = W (Proc.devRef .tc r) :=
  after_of_writes_sub _ _ writesE h
theorem keepH {r : Ref sig .tc} (h : r ∉ wrH) : after (chH (F := F)) W (Proc.devRef .tc r) = W (Proc.devRef .tc r) :=
  after_of_writes_sub _ _ writesH h
theorem keepL {r : Ref sig .tc} (h : r ∉ wrL) : after (chL (F := F)) W (Proc.devRef .tc r) = W (Proc.devRef .tc r) :=
  after_of_writes_sub _ _ writesL h
theorem keepS {r : Ref sig .tc} (h : r ∉ wrS) : after (chS (F := F)) W (Proc.devRef .tc r) = W (Proc.devRef .tc r) :=
  after_of_writes_sub _ _ writesS h

/-- The first stretch: the product of the two gathered endpoint rows. -/
theorem chE_edge : after (chE (F := F)) W (Proc.devRef .tc main_v81)
    = mulf (rawGather (F := F) (W (Proc.devRef .tc main_v66)) (W (Proc.devRef .tc main_v1)))
        (rawGather (F := F) (W (Proc.devRef .tc main_v66)) (W (Proc.devRef .tc main_v3))) := by
  simp only [chE, ops, List.drop, List.take]
  after_results_simp
  rfl

set_option maxRecDepth 8192 in
set_option maxHeartbeats 4000000 in
/-- The second stretch: the hidden layer of the edge embedding. -/
theorem chH_hid : after (chH (F := F)) W (Proc.devRef .tc main_v90)
    = rawHid (F := F) (W (Proc.devRef .tc main_v81)) (W (Proc.devRef .tc main_arg13)) (W (Proc.devRef .tc main_arg14)) := by
  simp only [chH, restE, ops, List.drop, List.take]
  after_results_simp
  rfl

set_option maxRecDepth 8192 in
set_option maxHeartbeats 4000000 in
/-- The third stretch: the two logits of the hidden layer. -/
theorem chL_logit : after (chL (F := F)) W (Proc.devRef .tc main_v94)
    = rawLogit (F := F) (W (Proc.devRef .tc main_v90)) (W (Proc.devRef .tc main_arg15)) (W (Proc.devRef .tc main_arg16)) := by
  simp only [chL, restH, restE, ops, List.drop, List.take]
  after_results_simp
  rfl

set_option maxRecDepth 8192 in
set_option maxHeartbeats 4000000 in
/-- The fourth stretch: the softmax of the logits. -/
theorem chS_soft : after (chS (F := F)) W (Proc.devRef .tc main_v105) = rawSoft (F := F) (W (Proc.devRef .tc main_v94)) := by
  unfold rawSoft
  simp only [chS, restH, restE, ops, List.drop, List.take]
  after_results_simp <;> rfl

end Cut

/-! ### No operation writes an argument -/

section Args
variable {F : FTy → Type} [FloatOps F]

/-- The references the 133 operations write, in order: one per operation, none of them an argument. -/
abbrev wrAll : List (Ref sig .tc) := [
    main_v0, main_v1, main_v2, main_v3, main_v4, main_v5, main_v6, main_v7, main_c, main_v8, main_v9, main_c_0,
    main_v10, main_v11, main_v12, main_v13, main_v14, main_v15, main_call0_cst, main_call0_v0, main_v16, main_cst, main_v17, main_v18,
    main_v19, main_cst_1, main_v20, main_v21, main_v22, main_v23, main_v24, main_v25, main_v26, main_v27, main_v28, main_v29,
    main_cst_2, main_v30, main_v31, main_cst_3, main_v32, main_v33, main_v34, main_v35, main_v36, main_v37, main_v38, main_c_4,
    main_v39, main_v40, main_c_5, main_v41, main_v42, main_v43, main_v44, main_v45, main_v46, main_call2_cst, main_call2_v0, main_v47,
    main_cst_6, main_v48, main_v49, main_v50, main_cst_7, main_v51, main_v52, main_v53, main_v54, main_v55, main_v56, main_v57,
    main_v58, main_v59, main_v60, main_cst_8, main_v61, main_v62, main_cst_9, main_v63, main_v64, main_v65, main_call4_cst, main_call4_v0,
    main_v66, main_c_10, main_v67, main_v68, main_c_11, main_v69, main_v70, main_v71, main_v72, main_v73, main_c_12, main_v74,
    main_v75, main_c_13, main_v76, main_v77, main_v78, main_v79, main_v80, main_v81, main_v82, main_v83, main_v84, main_v85,
    main_cst_14, main_v86, main_v87, main_cst_15, main_v88, main_v89, main_v90, main_v91, main_v92, main_v93, main_v94, main_cst_16,
    main_v95, main_cst_17, main_v96, main_v97, main_v98, main_v99, main_v100, main_v101, main_cst_18, main_v102, main_v103, main_v104,
    main_v105]

set_option maxRecDepth 16384 in
set_option maxHeartbeats 8000000 in
theorem writesAll : (ops (F := F)).Forall fun op => op.writes ⊆ (wrAll.map (Proc.devRef (τ := τ) .tc)).toFinset := by
  simp only [ops, List.Forall]
  repeat' apply And.intro
  all_goals (simp only [nullary_writes, unary_writes, binary_writes, ternary_writes, reshape_writes, Finset.singleton_subset_iff, List.mem_toFinset]; exact List.mem_map_of_mem (by decide))

set_option maxRecDepth 16384 in
theorem args_not_written : ∀ b ∈ ([main_arg0, main_arg1, main_arg2, main_arg3, main_arg4, main_arg5, main_arg6, main_arg7, main_arg8, main_arg9,
    main_arg10, main_arg11, main_arg12, main_arg13, main_arg14, main_arg15, main_arg16] : List (Ref sig .tc)), b ∉ wrAll := by
  decide

end Args

/-- The first result: the product of the two endpoint rows. -/
theorem b_edge (W : Valuation τ sig (Elt Ideal)) :
    after (List.drop 85 (ops (F := Ideal))) W (Proc.devRef .tc main_v81)
      = Cert.Spec.edgeF (gatherT (F := Ideal) (W (Proc.devRef .tc main_v66)) (W (Proc.devRef .tc main_v1))) (gatherT (F := Ideal) (W (Proc.devRef .tc main_v66)) (W (Proc.devRef .tc main_v3))) := by
  rw [cut W, keepS (r := main_v81) _ (by decide), keepL (r := main_v81) _ (by decide), keepH (r := main_v81) _ (by decide), chE_edge,
    rawGather_eq, rawGather_eq]
  exact edge_eq _ _

/-- The second result: the class probabilities. -/
theorem b_prob (W : Valuation τ sig (Elt Ideal)) :
    after (List.drop 85 (ops (F := Ideal))) W (Proc.devRef .tc main_v105)
      = Cert.Spec.probF (gatherT (F := Ideal) (W (Proc.devRef .tc main_v66)) (W (Proc.devRef .tc main_v1))) (gatherT (F := Ideal) (W (Proc.devRef .tc main_v66)) (W (Proc.devRef .tc main_v3)))
          (W (Proc.devRef .tc main_arg13)) (W (Proc.devRef .tc main_arg14)) (W (Proc.devRef .tc main_arg15)) (W (Proc.devRef .tc main_arg16)) := by
  rw [cut W, chS_soft, chL_logit, chH_hid, chE_edge,
    keepH (r := main_arg15) _ (by decide), keepH (r := main_arg16) _ (by decide),
    keepE (r := main_arg13) _ (by decide), keepE (r := main_arg14) _ (by decide),
    keepE (r := main_arg15) _ (by decide), keepE (r := main_arg16) _ (by decide),
    rawGather_eq, rawGather_eq, edge_eq, rawHid_eq, rawLogit_eq, rawSoft_eq]
  first | done | rfl

/-- No operation of the whole list writes an argument buffer. -/
theorem keep_arg (W : Valuation τ sig (Elt Ideal)) (b : Ref sig .tc)
    (hb : b ∈ [main_arg0, main_arg1, main_arg2, main_arg3, main_arg4, main_arg5, main_arg6, main_arg7, main_arg8, main_arg9,
      main_arg10, main_arg11, main_arg12, main_arg13, main_arg14, main_arg15, main_arg16]) :
    after (ops (F := Ideal)) W (Proc.devRef .tc b) = W (Proc.devRef .tc b) :=
  after_of_writes_sub _ _ writesAll (args_not_written b hb)

end Cert.ReferenceIdeal.FoldB

end
-- ==== Proof.RefValue.lean ====
/-
  The reference program's run, read by hand. Its 133 host operations are cut at two seams: after the first layer's node
  features, and after the rectified second-layer features; each stretch is the network's corresponding stage of the
  contents it starts from, and buffers a stretch does not write are carried over. Composed, the reference's two results
  are the network's `outEdge` and `outProb` of the launch contents of the arguments, and the arguments end as launched.
-/
import proofs.«400179_j12421045420439_1_alg».proof.Proof.RefRun
import proofs.«400179_j12421045420439_1_alg».proof.Proof.RefFoldA1
import proofs.«400179_j12421045420439_1_alg».proof.Proof.RefFoldA2
import proofs.«400179_j12421045420439_1_alg».proof.Proof.RefFoldB
import proofs.«400179_j12421045420439_1_alg».proof.Proof.Spec
import proofs.«400179_j12421045420439_1_alg».proof.Proof.HostTerms
import proofs.«400179_j12421045420439_1_alg».proof.Proof.Net
import Idealize.ShloMosaic.Lib.StableHlo.Run
import Idealize.ShloMosaic.Lib.Pipeline.Frame
import Idealize.ShloMosaic.PureOps.Ideal

noncomputable section

namespace Cert.ReferenceIdeal.RefValue

open Cert.ReferenceIdeal Cert.ReferenceIdeal.Gen Cert.ReferenceIdeal.RunP Cert.KernelIdeal.HostTerms
open Idealize.ShloMosaic Idealize.ShloMosaic.TcCoe Idealize.SL.Sem Idealize.ShloMosaic.StableHlo

/-- The operation list is its first 43 operations, then the next 42, then the last 48. -/
theorem ops_split : (ops (F := Ideal)) = List.take 43 (ops (F := Ideal)) ++ (List.take 42 (List.drop 43 (ops (F := Ideal))) ++ List.drop 85 (ops (F := Ideal))) := by
  rfl

/-- So the fold over the whole list is the fold over the three stretches in turn. -/
theorem fold_split (L : Valuation τ sig (Elt Ideal)) (b : DevRef τ sig) :
    after (ops (F := Ideal)) L b
      = after (List.drop 85 (ops (F := Ideal))) (after (List.take 42 (List.drop 43 (ops (F := Ideal)))) (after (List.take 43 (ops (F := Ideal))) L)) b := by
  conv_lhs => rw [ops_split]
  rw [StableHlo.after_append, StableHlo.after_append]

/-- The reference's first result is the network's edge embedding of the launch contents. -/
theorem fold_edge (L : Valuation τ sig (Elt Ideal)) :
    after (ops (F := Ideal)) L (Proc.devRef .tc main_v81) = Cert.Net.outEdge (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) := by
  rw [fold_split, FoldB.b_edge, FoldA2.a2_feat, FoldA2.a2_keep_v1, FoldA2.a2_keep_v3,
    FoldA1.a1_hid1, FoldA1.a1_src, FoldA1.a1_dst, FoldA1.a1_keep_arg2, FoldA1.a1_keep_arg8, FoldA1.a1_keep_arg9,
    FoldA1.a1_keep_arg10, FoldA1.a1_keep_arg11, FoldA1.a1_keep_arg12]
  rfl

/-- The reference's second result is the network's class probabilities of the launch contents. -/
theorem fold_prob (L : Valuation τ sig (Elt Ideal)) :
    after (ops (F := Ideal)) L (Proc.devRef .tc main_v105) = Cert.Net.outProb (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) := by
  rw [fold_split, FoldB.b_prob, FoldA2.a2_feat, FoldA2.a2_keep_v1, FoldA2.a2_keep_v3,
    FoldA2.a2_keep_arg13, FoldA2.a2_keep_arg14, FoldA2.a2_keep_arg15, FoldA2.a2_keep_arg16,
    FoldA1.a1_hid1, FoldA1.a1_src, FoldA1.a1_dst, FoldA1.a1_keep_arg2, FoldA1.a1_keep_arg8, FoldA1.a1_keep_arg9,
    FoldA1.a1_keep_arg10, FoldA1.a1_keep_arg11, FoldA1.a1_keep_arg12,
    FoldA1.a1_keep_arg13, FoldA1.a1_keep_arg14, FoldA1.a1_keep_arg15, FoldA1.a1_keep_arg16]
  rfl

/-- The reference's run: every weakly fair execution terminates without a fault, its two results are the network's of
    the launched arguments, and the arguments end as launched. -/
theorem run_staged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = Cert.Net.outEdge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v105) = Cert.Net.outProb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
    ⟨(h c main_v81).trans (fold_edge _), (h c main_v105).trans (fold_prob _),
      (h c main_arg0).trans (Cert.ReferenceIdeal.FoldB.keep_arg _ main_arg0 (by simp)),
      (h c main_arg1).trans (Cert.ReferenceIdeal.FoldB.keep_arg _ main_arg1 (by simp)),
      (h c main_arg2).trans (Cert.ReferenceIdeal.FoldB.keep_arg _ main_arg2 (by simp)),
      (h c main_arg3).trans (Cert.ReferenceIdeal.FoldB.keep_arg _ main_arg3 (by simp)),
      (h c main_arg4).trans (Cert.ReferenceIdeal.FoldB.keep_arg _ main_arg4 (by simp)),
      (h c main_arg5).trans (Cert.ReferenceIdeal.FoldB.keep_arg _ main_arg5 (by simp)),
      (h c main_arg6).trans (Cert.ReferenceIdeal.FoldB.keep_arg _ main_arg6 (by simp)),
      (h c main_arg7).trans (Cert.ReferenceIdeal.FoldB.keep_arg _ main_arg7 (by simp)),
      (h c main_arg8).trans (Cert.ReferenceIdeal.FoldB.keep_arg _ main_arg8 (by simp)),
      (h c main_arg9).trans (Cert.ReferenceIdeal.FoldB.keep_arg _ main_arg9 (by simp)),
      (h c main_arg10).trans (Cert.ReferenceIdeal.FoldB.keep_arg _ main_arg10 (by simp)),
      (h c main_arg11).trans (Cert.ReferenceIdeal.FoldB.keep_arg _ main_arg11 (by simp)),
      (h c main_arg12).trans (Cert.ReferenceIdeal.FoldB.keep_arg _ main_arg12 (by simp)),
      (h c main_arg13).trans (Cert.ReferenceIdeal.FoldB.keep_arg _ main_arg13 (by simp)),
      (h c main_arg14).trans (Cert.ReferenceIdeal.FoldB.keep_arg _ main_arg14 (by simp)),
      (h c main_arg15).trans (Cert.ReferenceIdeal.FoldB.keep_arg _ main_arg15 (by simp)),
      (h c main_arg16).trans (Cert.ReferenceIdeal.FoldB.keep_arg _ main_arg16 (by simp))⟩)
    (run_raw (F := Ideal) m ρ)

end Cert.ReferenceIdeal.RefValue

end
-- ==== Proof.lean ====
/-
  The certificate of a two-layer graph network with an edge classifier: the kernel program (five launches among host
  operations) against its reference, over the extended reals.

  Both programs compute one function of the seventeen argument arrays, `Cert.Net`: per layer, gather the source
  node's row for each edge, add the aligned edge features, rectify (the message); add the messages into their target
  nodes; update each node from the aggregate and its own scaled features; then, per edge, multiply the two endpoint
  rows and classify the product by a two-layer perceptron and a softmax over two classes.

  The kernel side: its run is the generated launch, with the two result buffers named at the last boundary of the
  fold through @main; each launch leaves in its output array the specification's function of what it was entered with
  (each grid point writes one block of rows, and the blocks tile the array); the host operations between launches are
  read back as host terms. The reference side: its host operations read from the fold over the launch contents, stretch by stretch, each stage the
  specification's function of the stages before it. Where the two differ in spelling — two 128-term products against one 256-term product over
  the joined row, two chains of broadcasts for 1 + eps — they agree by laws of a commutative additive monoid and by
  reading a broadcast at an index; no finiteness of the inputs is used. The one place the programs differ in VALUE is
  an edge endpoint outside 0 … 49999: the kernel's gather answers the not-a-number word there and the reference's
  clamps the index. The precondition's last conjunct excludes it, and under it the kernel's range mask is all ones.
-/
import proofs.«400179_j12421045420439_1_alg».proof.Defs
import proofs.«400179_j12421045420439_1_alg».proof.Proof.Gen.Kernel
import proofs.«400179_j12421045420439_1_alg».proof.Proof.Gen.Kernel.Frame
import proofs.«400179_j12421045420439_1_alg».proof.Proof.Gen.KernelIdeal
import proofs.«400179_j12421045420439_1_alg».proof.Proof.Gen.KernelIdeal.Frame
import proofs.«400179_j12421045420439_1_alg».proof.Proof.Gen.ReferenceIdeal
import proofs.«400179_j12421045420439_1_alg».proof.Proof.Gen.Pre_finite_inputs
import proofs.«400179_j12421045420439_1_alg».proof.Proof.Net
import proofs.«400179_j12421045420439_1_alg».proof.Proof.Range
import proofs.«400179_j12421045420439_1_alg».proof.Proof.KernelRun
import proofs.«400179_j12421045420439_1_alg».proof.Proof.KernelValue
import proofs.«400179_j12421045420439_1_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the reference, whose run also names its results: here they are dropped. -/
theorem frame_ri : Cert.frame_ReferenceIdeal := fun m ρ _ =>
  (θ_run Cert.ReferenceIdeal.defs _ _).mono (fun _ h c => (h c).2.2) (Cert.ReferenceIdeal.RefValue.run_staged m ρ)

/-- From memories agreeing on the arguments, with every float argument finite and every edge endpoint a node number,
    both programs end with the network's edge embedding and class probabilities of those arguments. -/
theorem algebraic : Cert.algebraic_KernelIdeal_ReferenceIdeal := by
  intro m ρ m' ρ' hpre hagree
  refine ⟨fun c => Cert.Net.outEdge
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)),
      fun c => Cert.Net.outProb
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16)), ?_, ?_⟩
  · refine (θ_run Cert.KernelIdeal.defs _ _).mono (fun r h c => ?_) (Cert.KernelIdeal.KRun.run_named (F := Ideal) m ρ)
    have hr := Cert.KernelIdeal.Range.inRange_of_pre m hpre c
    exact ⟨(h c).1.trans (Cert.KernelIdeal.KVal.k_edge m ρ c hr), (h c).2.1.trans (Cert.KernelIdeal.KVal.k_prob m ρ c hr), (h c).2.2⟩
  · refine (θ_run Cert.ReferenceIdeal.defs _ _).mono (fun r h c => ?_) (Cert.ReferenceIdeal.RefValue.run_staged m' ρ')
    obtain ⟨e0, e1, e2, e3, e4, e5, e6, e7, e8, e9, e10, e11, e12, e13, e14, e15, e16⟩ := hagree c
    refine ⟨(h c).1.trans ?_, (h c).2.1.trans ?_, (h c).2.2⟩
    · rw [e0, e1, e2, e3, e4, e5, e6, e7, e8, e9, e10, e11, e12]
    · rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
